-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2708x2048 : Shape := ⟨2, ![2708, 2048]⟩
abbrev S2x500000 : Shape := ⟨2, ![2, 500000]⟩
abbrev S512x2048 : Shape := ⟨2, ![512, 2048]⟩
abbrev S512 : Shape := ⟨1, ![512]⟩
abbrev S_ : Shape := ⟨0, ![]⟩

class Facts : Prop where
  bcast_S_S2708x2048 : S_.BroadcastsInDim S2708x2048 (![] : Fin 0 → Fin S2708x2048.rank)
  reducesTo_S2708x2048_S_d0_1 : S2708x2048.ReducesTo [0, 1] S_
  h_S_ : 0 < S_.numel
  bcast_S_S512x2048 : S_.BroadcastsInDim S512x2048 (![] : Fin 0 → Fin S512x2048.rank)
  reducesTo_S512x2048_S_d0_1 : S512x2048.ReducesTo [0, 1] S_
  bcast_S_S512 : S_.BroadcastsInDim S512 (![] : Fin 0 → Fin S512.rank)
  reducesTo_S512_S_d0 : S512.ReducesTo [0] S_
  bcast_S_S2x500000 : S_.BroadcastsInDim S2x500000 (![] : Fin 0 → Fin S2x500000.rank)
  reducesTo_S2x500000_S_d0_1 : S2x500000.ReducesTo [0, 1] S_

variable [Facts]

def fn_part1 {F : FTy → Type} [FloatOps F] (main_arg1 : IVec S2x500000 32) (main_v13 : IVec S_ 1) (main_v15 : IVec S2x500000 1) (main_c_5 : IVec S_ 1) : IVec S_ 1 :=
  let main_v16 : IVec S_ 1 := (fun x v => Host.reduce IntOp.andi x v reducesTo_S2x500000_S_d0_1 h_S_) main_v15 main_c_5
  let main_v17 : IVec S_ 1 := andi main_v13 main_v16
  let main_c_6 : IVec S_ 32 := constantI S_ 32 2708#32
  let main_v18 : IVec S2x500000 32 := broadcastInDim S2x500000 ![] bcast_S_S2x500000 main_c_6
  let main_v19 : IVec S2x500000 1 := cmpi .slt main_arg1 main_v18
  let main_c_7 : IVec S_ 1 := constantI S_ 1 1#1
  let main_v20 : IVec S_ 1 := (fun x v => Host.reduce IntOp.andi x v reducesTo_S2x500000_S_d0_1 h_S_) main_v19 main_c_7
  let main_v21 : IVec S_ 1 := andi main_v17 main_v20
  main_v21

def fn {F : FTy → Type} [FloatOps F] (main_arg0 : FVec F S2708x2048 .f32) (main_arg1 : IVec S2x500000 32) (main_arg2 : FVec F S512x2048 .f32) (main_arg3 : FVec F S512 .f32) : IVec S_ 1 :=
  let main_v0 : FVec F S2708x2048 .f32 := Host.absf main_arg0
  let main_cst : FVec F S_ .f32 := constant S_ .f32 0x7F800000#32
  let main_v1 : FVec F S2708x2048 .f32 := broadcastInDim S2708x2048 ![] bcast_S_S2708x2048 main_cst
  let main_v2 : IVec S2708x2048 1 := cmpf .olt main_v0 main_v1
  let main_c : IVec S_ 1 := constantI S_ 1 1#1
  let main_v3 : IVec S_ 1 := (fun x v => Host.reduce IntOp.andi x v reducesTo_S2708x2048_S_d0_1 h_S_) main_v2 main_c
  let main_v4 : FVec F S512x2048 .f32 := Host.absf main_arg2
  let main_cst_0 : FVec F S_ .f32 := constant S_ .f32 0x7F800000#32
  let main_v5 : FVec F S512x2048 .f32 := broadcastInDim S512x2048 ![] bcast_S_S512x2048 main_cst_0
  let main_v6 : IVec S512x2048 1 := cmpf .olt main_v4 main_v5
  let main_c_1 : IVec S_ 1 := constantI S_ 1 1#1
  let main_v7 : IVec S_ 1 := (fun x v => Host.reduce IntOp.andi x v reducesTo_S512x2048_S_d0_1 h_S_) main_v6 main_c_1
  let main_v8 : IVec S_ 1 := andi main_v3 main_v7
  let main_v9 : FVec F S512 .f32 := Host.absf main_arg3
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_c_4 : IVec S_ 32 := constantI S_ 32 0#32
  let main_v14 : IVec S2x500000 32 := broadcastInDim S2x500000 ![] bcast_S_S2x500000 main_c_4
  let main_v15 : IVec S2x500000 1 := cmpi .sge main_arg1 main_v14
  let main_c_5 : IVec S_ 1 := constantI S_ 1 1#1
  fn_part1 (F := F) main_arg1 main_v13 main_v15 main_c_5
-- ==== Kernel.lean ====
abbrev S2708x2048 : Shape := ⟨2, ![2708, 2048]⟩
abbrev S2x500000 : Shape := ⟨2, ![2, 500000]⟩
abbrev S512x2048 : Shape := ⟨2, ![512, 2048]⟩
abbrev S512 : Shape := ⟨1, ![512]⟩
abbrev S_ : Shape := ⟨0, ![]⟩
abbrev S2816x2048 : Shape := ⟨2, ![2816, 2048]⟩
abbrev S2816x512 : Shape := ⟨2, ![2816, 512]⟩
abbrev S256x2048 : Shape := ⟨2, ![256, 2048]⟩
abbrev S256x512 : Shape := ⟨2, ![256, 512]⟩
abbrev S1x512 : Shape := ⟨2, ![1, 512]⟩
abbrev S1x500000 : Shape := ⟨2, ![1, 500000]⟩
abbrev S500000 : Shape := ⟨1, ![500000]⟩
abbrev S2816x2816 : Shape := ⟨2, ![2816, 2816]⟩
abbrev S500000x1 : Shape := ⟨2, ![500000, 1]⟩
abbrev S500000x2 : Shape := ⟨2, ![500000, 2]⟩
abbrev S256x256 : Shape := ⟨2, ![256, 256]⟩
abbrev S2708x512 : Shape := ⟨2, ![2708, 512]⟩

abbrev nBuf : Space → Nat
  | .hbm => 38
  | .vmem => 12
  | .smem => 0
  | _ => 0

abbrev bufTy : (tb : Table) → Fin (tcTables nBuf tb) → BufTy
  | .hbm, ⟨0, _⟩ => ⟨S2708x2048, .f32⟩
  | .hbm, ⟨1, _⟩ => ⟨S2x500000, .i32⟩
  | .hbm, ⟨2, _⟩ => ⟨S512x2048, .f32⟩
  | .hbm, ⟨3, _⟩ => ⟨S512, .f32⟩
  | .hbm, ⟨4, _⟩ => ⟨S_, .i32⟩
  | .hbm, ⟨5, _⟩ => ⟨S_, .f32⟩
  | .hbm, ⟨6, _⟩ => ⟨S2816x2048, .f32⟩
  | .hbm, ⟨7, _⟩ => ⟨S512x2048, .bf16⟩
  | .hbm, ⟨8, _⟩ => ⟨S2816x512, .bf16⟩
  | .hbm, ⟨9, _⟩ => ⟨S1x500000, .i32⟩
  | .hbm, ⟨10, _⟩ => ⟨S500000, .i32⟩
  | .hbm, ⟨11, _⟩ => ⟨S1x500000, .i32⟩
  | .hbm, ⟨12, _⟩ => ⟨S500000, .i32⟩
  | .hbm, ⟨13, _⟩ => ⟨S_, .f32⟩
  | .hbm, ⟨14, _⟩ => ⟨S2816x2816, .f32⟩
  | .hbm, ⟨15, _⟩ => ⟨S_, .i32⟩
  | .hbm, ⟨16, _⟩ => ⟨S500000, .i32⟩
  | .hbm, ⟨17, _⟩ => ⟨S500000, .i1⟩
  | .hbm, ⟨18, _⟩ => ⟨S_, .i32⟩
  | .hbm, ⟨19, _⟩ => ⟨S500000, .i32⟩
  | .hbm, ⟨20, _⟩ => ⟨S500000, .i32⟩
  | .hbm, ⟨21, _⟩ => ⟨S500000, .i32⟩
  | .hbm, ⟨22, _⟩ => ⟨S_, .i32⟩
  | .hbm, ⟨23, _⟩ => ⟨S500000, .i32⟩
  | .hbm, ⟨24, _⟩ => ⟨S500000, .i1⟩
  | .hbm, ⟨25, _⟩ => ⟨S_, .i32⟩
  | .hbm, ⟨26, _⟩ => ⟨S500000, .i32⟩
  | .hbm, ⟨27, _⟩ => ⟨S500000, .i32⟩
  | .hbm, ⟨28, _⟩ => ⟨S500000, .i32⟩
  | .hbm, ⟨29, _⟩ => ⟨S500000x1, .i32⟩
  | .hbm, ⟨30, _⟩ => ⟨S500000x1, .i32⟩
  | .hbm, ⟨31, _⟩ => ⟨S500000x2, .i32⟩
  | .hbm, ⟨32, _⟩ => ⟨S_, .f32⟩
  | .hbm, ⟨33, _⟩ => ⟨S500000, .f32⟩
  | .hbm, ⟨34, _⟩ => ⟨S2816x2816, .f32⟩
  | .hbm, ⟨35, _⟩ => ⟨S2816x2816, .bf16⟩
  | .hbm, ⟨36, _⟩ => ⟨S2816x512, .f32⟩
  | .hbm, ⟨37, _⟩ => ⟨S2708x512, .f32⟩
  | .local _ .vmem, ⟨0, _⟩ => ⟨S256x2048, .f32⟩
  | .local _ .vmem, ⟨1, _⟩ => ⟨S256x2048, .f32⟩
  | .local _ .vmem, ⟨2, _⟩ => ⟨S512x2048, .bf16⟩
  | .local _ .vmem, ⟨3, _⟩ => ⟨S512, .f32⟩
  | .local _ .vmem, ⟨4, _⟩ => ⟨S256x512, .bf16⟩
  | .local _ .vmem, ⟨5, _⟩ => ⟨S256x512, .bf16⟩
  | .local _ .vmem, ⟨6, _⟩ => ⟨S256x256, .bf16⟩
  | .local _ .vmem, ⟨7, _⟩ => ⟨S256x256, .bf16⟩
  | .local _ .vmem, ⟨8, _⟩ => ⟨S2816x512, .bf16⟩
  | .local _ .vmem, ⟨9, _⟩ => ⟨S256x512, .f32⟩
  | .local _ .vmem, ⟨10, _⟩ => ⟨S256x512, .f32⟩
  | .local _ .vmem, ⟨11, _⟩ => ⟨S256x512, .f32⟩
  | _, _ => ⟨S2708x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_c_0 : Ref sig .tc := ⟨.hbm, 15, rfl⟩
abbrev main_v8 : Ref sig .tc := ⟨.hbm, 16, rfl⟩
abbrev main_v9 : Ref sig .tc := ⟨.hbm, 17, rfl⟩
abbrev main_c_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_c_2 : Ref sig .tc := ⟨.hbm, 22, rfl⟩
abbrev main_v13 : Ref sig .tc := ⟨.hbm, 23, rfl⟩
abbrev main_v14 : Ref sig .tc := ⟨.hbm, 24, rfl⟩
abbrev main_c_3 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_4 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc1_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![11, 11], ![false, false]⟩

def k1_mult1 (i : grid1.Coords) : BitVec 32 :=
  let arg1 : BitVec 32 := BitVec.ofNat 32 (i 1).val
  let c256_i32 : BitVec 32 := 256#32
  let v5 : BitVec 32 := Scalar.muli arg1 c256_i32
  v5
def k1_off1 (i : grid1.Coords) : Fin 2 → Nat :=
  let arg1 : BitVec 32 := BitVec.ofNat 32 (i 1).val
  let c256_i32 : BitVec 32 := 256#32
  let v5 : BitVec 32 := Scalar.muli arg1 c256_i32
  let v6 : BitVec 32 := v5
  let v7 : Index := Scalar.indexCast v6
  let c0_2 : Index := 0#32
  ![v7.toNat, 0]
def k1_cond2 (i : grid1.Coords) : BitVec 1 :=
  let arg1 : BitVec 32 := BitVec.ofNat 32 (i 1).val
  let c10_i32 : BitVec 32 := 10#32
  let v16 : BitVec 1 := Scalar.cmpi .eq arg1 c10_i32
  let v17 : BitVec 32 := Scalar.extui v16
  let c0_i32_7 : BitVec 32 := 0#32
  let v18 : BitVec 1 := Scalar.cmpi .ne v17 c0_i32_7
  v18

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S256x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S2816x512 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S256x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

class Facts₀ : Prop where
  pads_S2708x2048_S2816x2048_01080_000 : S2708x2048.Pads (![0, 0] : Fin 2 → Nat) ![108, 0] ![0, 0] S2816x2048
  h_S_ : 0 < S_.numel
  bitsLt_bf16_f32 : FTy.bits .bf16 < FTy.bits .f32
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S512_S512_0 : ∀ a, (![0] : Fin 1 → Nat) a + S512.size a ≤ S512.size a
  h_S512 : 0 < S512.numel
  shapeCasts_S512_S1x512 : S512.ShapeCasts S1x512
  broadcasts_S1x512_S256x512 : S1x512.Broadcasts S256x512
  inb_S256x512_S256x512_0_0 : ∀ a, (![0, 0] : Fin 2 → Nat) a + S256x512.size a ≤ S256x512.size a
  h_S256x512 : 0 < S256x512.numel
  packedbf16_S256x512_S256x512_0_0 : (Rect.unit (s := S256x512) ![0, 0] S256x512.size inb_S256x512_S256x512_0_0).PackedRows (EltTy.packing .bf16)
  slices_S2x500000_S1x500000_0_0 : S2x500000.Slices ![0, 0] S1x500000
  shapeCasts_S1x500000_S500000 : S1x500000.ShapeCasts S500000
  slices_S2x500000_S1x500000_1_0 : S2x500000.Slices ![1, 0] S1x500000
  bcast_S_S2816x2816 : S_.BroadcastsInDim S2816x2816 (![] : Fin 0 → Fin S2816x2816.rank)
  bcast_S_S500000 : S_.BroadcastsInDim S500000 (![] : Fin 0 → Fin S500000.rank)
  bcast_S500000_S500000x1_0 : S500000.BroadcastsInDim S500000x1 (![0] : Fin 1 → Fin S500000x1.rank)
  concatenates_S500000x1_S500000x1_S500000x2_d1 : Shape.Concatenates [S500000x1, S500000x1] S500000x2 1
  shapeCasts_S256x512_S256x512 : S256x512.ShapeCasts S256x512
  inb_S256x256_S256x256_0_0 : ∀ a, (![0, 0] : Fin 2 → Nat) a + S256x256.size a ≤ S256x256.size a
  h_S256x256 : 0 < S256x256.numel
  shapeCasts_S256x256_S256x256 : S256x256.ShapeCasts S256x256
  slices_S2816x512_S2708x512_0_0 : S2816x512.Slices ![0, 0] S2708x512
  dot_S256x2048_S512x2048_S256x512_1_1_0_0_n_n_wf : DotDims.WF S256x2048 S512x2048 S256x512 [1] [1] [0] [0] [] []
  scatter_S2816x2816_S500000x2_S500000_n_01_01_1_wf : ScatterDims.WF S2816x2816 S500000x2 S500000 [] [0, 1] [0, 1] 1
  dot_S256x256_S256x512_S256x512_1_0_0_1_n_n_wf : DotDims.WF S256x256 S256x512 S256x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2048.size a ≤ S2816x2048.size a
  hwx0_0 : ∀ i : grid0.Coords, EltTy.bits .f32 = 32 ∨ (Rect.block (s := S2816x2048) S256x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S512x2048.size a
  hwx0_1 : ∀ i : grid0.Coords, EltTy.bits .bf16 = 32 ∨ (Rect.block (s := S512x2048) S512x2048.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512.size a ≤ S512.size a
  hwx0_2 : ∀ i : grid0.Coords, EltTy.bits .f32 = 32 ∨ (Rect.block (s := S512) S512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x512.size a ≤ S2816x512.size a
  hwx0_3 : ∀ i : grid0.Coords, EltTy.bits .bf16 = 32 ∨ (Rect.block (s := S2816x512) S256x512.size (cc0_transform_3 i) (hinb0_3 i)).WholeWords (EltTy.packing .bf16)
  hrank1 : 0 < grid1.rank
  k1_mult1_dvd : ∀ i : grid1.Coords, 256 ∣ (k1_mult1 i).toNat
  k1_off1_inb : ∀ i : grid1.Coords, ∀ a, (k1_off1 i) a + S256x512.size a ≤ S2816x512.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x256.size a ≤ S2816x2816.size a
  hwx1_0 : ∀ i : grid1.Coords, EltTy.bits .bf16 = 32 ∨ (Rect.block (s := S2816x2816) S256x256.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S2816x512.size a ≤ S2816x512.size a
  hwx1_1 : ∀ i : grid1.Coords, EltTy.bits .bf16 = 32 ∨ (Rect.block (s := S2816x512) S2816x512.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S256x512.size a ≤ S2816x512.size a
  hwx1_2 : ∀ i : grid1.Coords, EltTy.bits .f32 = 32 ∨ (Rect.block (s := S2816x512) S256x512.size (cc1_transform_2 i) (hinb1_2 i)).WholeWords (EltTy.packing .f32)

variable [Facts₀]

def dot_S256x2048_S512x2048_S256x512_1_1_0_0_n_n : DotDims S256x2048 S512x2048 S256x512 where
  lhsContracting := [1]
  rhsContracting := [1]
  lhsNonContracting := [0]
  rhsNonContracting := [0]
  lhsBatch := []
  rhsBatch := []
  wf := dot_S256x2048_S512x2048_S256x512_1_1_0_0_n_n_wf
def scatter_S2816x2816_S500000x2_S500000_n_01_01_1 : ScatterDims S2816x2816 S500000x2 S500000 where
  updateWindowDims := []
  insertedWindowDims := [0, 1]
  scatterDimsToOperandDims := [0, 1]
  indexVectorDim := 1
  wf := scatter_S2816x2816_S500000x2_S500000_n_01_01_1_wf
def dot_S256x256_S256x512_S256x512_1_0_0_1_n_n : DotDims S256x256 S256x512 S256x512 where
  lhsContracting := [1]
  rhsContracting := [0]
  lhsNonContracting := [0]
  rhsNonContracting := [1]
  lhsBatch := []
  rhsBatch := []
  wf := dot_S256x256_S256x512_S256x512_1_0_0_1_n_n_wf

abbrev win0_0 : Pipeline.Window sig grid0 :=
  Pipeline.Window.ofSpec (Memref.whole main_v0) S256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S256x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v23) S256x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S2816x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v24) S256x512.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

class Facts : Prop extends Facts₀ where

variable [Facts]
-- ==== ReferenceIdeal.lean ====
abbrev S2708x2048 : Shape := ⟨2, ![2708, 2048]⟩
abbrev S2x500000 : Shape := ⟨2, ![2, 500000]⟩
abbrev S512x2048 : Shape := ⟨2, ![512, 2048]⟩
abbrev S512 : Shape := ⟨1, ![512]⟩
abbrev S2708x512 : Shape := ⟨2, ![2708, 512]⟩
abbrev S1x512 : Shape := ⟨2, ![1, 512]⟩
abbrev S1x500000 : Shape := ⟨2, ![1, 500000]⟩
abbrev S500000 : Shape := ⟨1, ![500000]⟩
abbrev S_ : Shape := ⟨0, ![]⟩
abbrev S500000x1 : Shape := ⟨2, ![500000, 1]⟩
abbrev S500000x512 : Shape := ⟨2, ![500000, 512]⟩

abbrev nBuf : Space → Nat
  | .hbm => 25
  | .vmem => 0
  | .smem => 0
  | _ => 0

abbrev bufTy : (tb : Table) → Fin (tcTables nBuf tb) → BufTy
  | .hbm, ⟨0, _⟩ => ⟨S2708x2048, .f32⟩
  | .hbm, ⟨1, _⟩ => ⟨S2x500000, .i32⟩
  | .hbm, ⟨2, _⟩ => ⟨S512x2048, .f32⟩
  | .hbm, ⟨3, _⟩ => ⟨S512, .f32⟩
  | .hbm, ⟨4, _⟩ => ⟨S2708x512, .f32⟩
  | .hbm, ⟨5, _⟩ => ⟨S1x512, .f32⟩
  | .hbm, ⟨6, _⟩ => ⟨S2708x512, .f32⟩
  | .hbm, ⟨7, _⟩ => ⟨S2708x512, .f32⟩
  | .hbm, ⟨8, _⟩ => ⟨S1x500000, .i32⟩
  | .hbm, ⟨9, _⟩ => ⟨S500000, .i32⟩
  | .hbm, ⟨10, _⟩ => ⟨S_, .i32⟩
  | .hbm, ⟨11, _⟩ => ⟨S500000, .i32⟩
  | .hbm, ⟨12, _⟩ => ⟨S500000, .i1⟩
  | .hbm, ⟨13, _⟩ => ⟨S_, .i32⟩
  | .hbm, ⟨14, _⟩ => ⟨S500000, .i32⟩
  | .hbm, ⟨15, _⟩ => ⟨S500000, .i32⟩
  | .hbm, ⟨16, _⟩ => ⟨S500000, .i32⟩
  | .hbm, ⟨17, _⟩ => ⟨S500000x1, .i32⟩
  | .hbm, ⟨18, _⟩ => ⟨S500000x512, .f32⟩
  | .hbm, ⟨19, _⟩ => ⟨S1x500000, .i32⟩
  | .hbm, ⟨20, _⟩ => ⟨S500000, .i32⟩
  | .hbm, ⟨21, _⟩ => ⟨S_, .f32⟩
  | .hbm, ⟨22, _⟩ => ⟨S2708x512, .f32⟩
  | .hbm, ⟨23, _⟩ => ⟨S500000x1, .i32⟩
  | .hbm, ⟨24, _⟩ => ⟨S2708x512, .f32⟩
  | _, _ => ⟨S2708x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.hbm, 10, rfl⟩
abbrev main_v6 : Ref sig .tc := ⟨.hbm, 11, rfl⟩
abbrev main_v7 : Ref sig .tc := ⟨.hbm, 12, rfl⟩
abbrev main_c_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]

class Facts₀ : Prop where
  bcast_S512_S1x512_1 : S512.BroadcastsInDim S1x512 (![1] : Fin 1 → Fin S1x512.rank)
  bcast_S1x512_S2708x512_0_1 : S1x512.BroadcastsInDim S2708x512 (![0, 1] : Fin 2 → Fin S2708x512.rank)
  slices_S2x500000_S1x500000_0_0 : S2x500000.Slices ![0, 0] S1x500000
  shapeCasts_S1x500000_S500000 : S1x500000.ShapeCasts S500000
  bcast_S_S500000 : S_.BroadcastsInDim S500000 (![] : Fin 0 → Fin S500000.rank)
  bcast_S500000_S500000x1_0 : S500000.BroadcastsInDim S500000x1 (![0] : Fin 1 → Fin S500000x1.rank)
  slices_S2x500000_S1x500000_1_0 : S2x500000.Slices ![1, 0] S1x500000
  bcast_S_S2708x512 : S_.BroadcastsInDim S2708x512 (![] : Fin 0 → Fin S2708x512.rank)
  dot_S2708x2048_S512x2048_S2708x512_1_1_0_0_n_n_wf : DotDims.WF S2708x2048 S512x2048 S2708x512 [1] [1] [0] [0] [] []
  gather_S2708x512_S500000x1_S500000x512_1_0_n_n_0_1_1512_wf : GatherDims.WF S2708x512 S500000x1 S500000x512 [1] [0] [] [0] [] 1 ![1, 512]
  scatter_S2708x512_S500000x1_S500000x512_1_0_0_1_wf : ScatterDims.WF S2708x512 S500000x1 S500000x512 [1] [0] [0] 1

variable [Facts₀]

def dot_S2708x2048_S512x2048_S2708x512_1_1_0_0_n_n : DotDims S2708x2048 S512x2048 S2708x512 where
  lhsContracting := [1]
  rhsContracting := [1]
  lhsNonContracting := [0]
  rhsNonContracting := [0]
  lhsBatch := []
  rhsBatch := []
  wf := dot_S2708x2048_S512x2048_S2708x512_1_1_0_0_n_n_wf
def gather_S2708x512_S500000x1_S500000x512_1_0_n_n_0_1_1512 : GatherDims S2708x512 S500000x1 S500000x512 where
  offsetDims := [1]
  collapsedSliceDims := [0]
  operandBatchingDims := []
  startIndicesBatchingDims := []
  startIndexMap := [0]
  indexVectorDim := 1
  sliceSizes := ![1, 512]
  wf := gather_S2708x512_S500000x1_S500000x512_1_0_n_n_0_1_1512_wf
def scatter_S2708x512_S500000x1_S500000x512_1_0_0_1 : ScatterDims S2708x512 S500000x1 S500000x512 where
  updateWindowDims := [1]
  insertedWindowDims := [0]
  scatterDimsToOperandDims := [0]
  indexVectorDim := 1
  wf := scatter_S2708x512_S500000x1_S500000x512_1_0_0_1_wf

class Facts : Prop extends Facts₀ where

variable [Facts]
-- ==== Proof.K.Defs.lean ====
/-
  What the two kernel regions read and leave, as pure functions of the buffer contents `V` a region is entered with.

  Region 0 (the linear layer, 11 points): point `t` reads rows `256·t … 256·t + 255` of the padded features, the whole
  weight and the whole bias, and leaves in its output block the body's one store over those three loads (`lin0Out`).
  Region 1 (the count-matrix product, 11 × 11 points, `t = 11·i + k`): point `t` reads block `(i, k)` of the count
  matrix and, of the resident layer output, the 256 rows from `256·k` on (`hRows1`).  A scratch accumulator is carried
  from point to point: it restarts from zero where `k = 0` and otherwise adds this point's block product to what the
  point before left (`accAt1`); where `k = 10` the output block is the accumulator.
-/
import proofs.«417986_j90340342104697_2_alg».proof.Proof.Gen.Kernel.Launch
import proofs.«417986_j90340342104697_2_alg».proof.Proof.Gen.Kernel.Skeleton
import proofs.«417986_j90340342104697_2_alg».proof.Proof.Gen.Kernel.Points
import Idealize.ShloMosaic.Lib.Pipeline.FrameBody

set_option maxRecDepth 16384

noncomputable section

namespace Cert.Kernel.Frame

open Cert.Kernel Cert.Kernel.Gen
open Idealize.ShloMosaic Idealize.ShloMosaic.TcCoe
open Idealize.SL Idealize.SL.Sem

variable {F : FTy → Type} [FloatOps F]
variable (V : (c : Dev nD) → (b : Ref sig .tc) → Buf (Elt F) ((c : Thread nD τ).loc b))

/-! ## Region 0 -/

/-- Window `w`'s block at point `t`, read off its array as region 0 finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The body's four accesses: each the whole staging buffer. -/
abbrev r0_0 : Rect S256x2048 := Rect.unit (s := S256x2048) ![0, 0] S256x2048.size inb_S256x2048_S256x2048_0_0
abbrev r0_1 : Rect S512x2048 := Rect.unit (s := S512x2048) ![0, 0] S512x2048.size inb_S512x2048_S512x2048_0_0
abbrev r0_2 : Rect S512 := Rect.unit (s := S512) ![0] S512.size inb_S512_S512_0
abbrev r0_3 : Rect S256x512 := Rect.unit (s := S256x512) ![0, 0] S256x512.size inb_S256x512_S256x512_0_0

/-- The output block after the body, from the three input blocks: its one store, over the three loads. -/
def lin0Out (x0 : Vec F S256x2048 .f32) (x1 : Vec F S512x2048 .bf16) (x2 : Vec F S512 .f32) : Vec F S256x512 .bf16 :=
  View.canon [⟨r0_3, k0_pay1 (View.ld x0 r0_0) (View.ld x1 r0_1) (View.ld x2 r0_2)⟩]

/-! ## Region 1 -/

/-- Window `w`'s block at point `t`, read off its array as region 1 finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The rows of the resident operand the body loads at grid coordinates `i`: 256 rows from `256 · i 1` on. -/
abbrev rH1 (i : grid1.Coords) : Rect S2816x512 := Rect.unit (s := S2816x512) (k1_off1 i) S256x512.size (k1_off1_inb i)
/-- The whole 256 × 256 and 256 × 512 buffers. -/
abbrev r1_a : Rect S256x256 := Rect.unit (s := S256x256) ![0, 0] S256x256.size inb_S256x256_S256x256_0_0
abbrev r1_s : Rect S256x512 := Rect.unit (s := S256x512) ![0, 0] S256x512.size inb_S256x512_S256x512_0_0

/-- Those rows of the resident operand at point `t`. -/
def hRows1 (c : Dev nD) (t : Fin cfg1.N) : Vec F S256x512 .bf16 :=
  View.ld (iblk1 V c 1 t) (rH1 (grid1.coords t))

/-- THE ACCUMULATOR: what the carried scratch holds after the body at position `n` — this point's block product added
    to zero where the reduction coordinate restarts (`n % 11 = 0`), else to what the point before left. -/
def accAt1 (c : Dev nD) : (n : ℕ) → n < cfg1.N → Vec F S256x512 .f32
  | 0, hn => k1_pay2 (View.ld (iblk1 V c 0 ⟨0, hn⟩) r1_a) (hRows1 V c ⟨0, hn⟩) (k1_pay1 (F := F))
  | n + 1, hn => k1_pay2 (View.ld (iblk1 V c 0 ⟨n + 1, hn⟩) r1_a) (hRows1 V c ⟨n + 1, hn⟩)
      (if (n + 1) % 11 = 0 then (k1_pay1 (F := F)) else accAt1 c n (Nat.lt_of_succ_lt hn))

theorem accAt1_zero (c : Dev nD) (hn : 0 < cfg1.N) :
    accAt1 V c 0 hn = k1_pay2 (View.ld (iblk1 V c 0 ⟨0, hn⟩) r1_a) (hRows1 V c ⟨0, hn⟩) (k1_pay1 (F := F)) := rfl

theorem accAt1_succ (c : Dev nD) (n : ℕ) (hn : n + 1 < cfg1.N) :
    accAt1 V c (n + 1) hn = k1_pay2 (View.ld (iblk1 V c 0 ⟨n + 1, hn⟩) r1_a) (hRows1 V c ⟨n + 1, hn⟩)
      (if (n + 1) % 11 = 0 then (k1_pay1 (F := F)) else accAt1 V c n (Nat.lt_of_succ_lt hn)) := rfl

end Cert.Kernel.Frame

end
-- ==== Proof.K.Region0.lean ====
/-
  Kernel region 0, the linear layer: the frame half, at any float instance and at the buffer contents `V` the region
  is entered with.  At each of its 11 points the body finds its three input blocks in their staging buffers (rows of the
  padded features, fetched at every point; the whole weight and the whole bias, fetched once and found again at every
  later point), and stores `lin0Out` of them into the output block; nothing else is touched, nothing is owed.
-/
import proofs.«417986_j90340342104697_2_alg».proof.Proof.K.Defs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Each input's staging buffer holds its block -/

/-- An input window's current staging buffer holds the window's block at every point, fetched there or found again,
    for any proof data over `V`'s arrays whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body -/

/-- The one store covers the output block. -/
theorem cover0_3 (p0 : Vec F S256x512 .bf16) (y : S256x512.Idx) :
    ∃ pc ∈ ([⟨r0_3, p0⟩] : List (View.Piece (Elt F) S256x512 .bf16)), y ∈ pc.1.set :=
  View.cover_of_tiled [⟨r0_3, p0⟩] S256x512.size (by rfl) y

set_option maxHeartbeats 1000000 in
/-- The body on whole staging buffers holding `x0`, `x1`, `x2` and anything in the output's: it ends with the inputs as
    they were and the output's at `lin0Out x0 x1 x2`. -/
theorem sound_kernel0 (c : Dev nD) (E : Set ℕ) (i : grid0.Coords)
    (arg1 : Memref sig .tc .vmem S256x2048 .f32) (harg1 : arg1.IsWhole) (arg2 : Memref sig .tc .vmem S512x2048 .bf16) (harg2 : arg2.IsWhole)
    (arg3 : Memref sig .tc .vmem S512 .f32) (harg3 : arg3.IsWhole) (arg4 : Memref sig .tc .vmem S256x512 .bf16) (harg4 : arg4.IsWhole)
    (x0 : Vec F S256x2048 .f32) (x1 : Vec F S512x2048 .bf16) (x2 : Vec F S512 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (lin0Out x0 x1 x2)) -∗ K ⟨⟩))
      ⊢ wp frame (wpE (defs₀ (F := F)) Variants.none c none) E (cc0__linear_kernel i arg1 harg1 arg2 harg2 arg3 harg3 arg4 harg4) K := by
  simp only [cc0__linear_kernel_eq_skeleton]; unfold cc0__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The proof data -/

/-- Region 0's proof data on core `c`: its arrays as the region finds them; after the body each input's buffer at its
    block and the output's at `lin0Out` of the three; the invariant the scoped rest and the generator register, untouched;
    nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => lin0Out (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = lin0Out (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so `sound_kernel0` applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Frame

end
-- ==== Proof.K.Region1.lean ====
/-
  The frame half of the count-matrix product (region 1), at any float instance and at the buffer contents `V` the
  region is entered with.

  The grid is 11 × 11, point `t = 11·i + k`.  The body keeps a 256 × 512 accumulator in a scratch buffer that no
  window stages: where `k = 0` it first overwrites the accumulator with zeros; at every point it adds the product of
  this point's 256 × 256 block of the count matrix with rows `256·k … 256·k + 255` of the resident operand; where
  `k = 10` it copies the accumulator into the output block, which is written back at exactly those points and is
  left untouched (idle) at all the others.  So there are three control cases by `k`, and `k = 0`, `k = 10` never
  coincide.

  The invariant between points says what the scratch holds: anything before the first point, and after point `n`
  the accumulator `accAt1 V c n`.  The three cases' triples are stated over arbitrary whole memrefs and read contents;
  the body obligation picks the case from the closed forms of the two conditions.
-/
import proofs.«417986_j90340342104697_2_alg».proof.Proof.K.Defs
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The body's two branch conditions, in closed form over the grid -/

/-- The first conditional's condition (the reduction coordinate is zero), as the body computes it. -/
abbrev cond1_0 (i : grid1.Coords) : Prop :=
  (Scalar.cmpi .ne (Scalar.extui (Scalar.cmpi .eq (BitVec.ofNat 32 (i 1).val) 0#32)) 0#32) = 1#1
theorem hcond1_0 : ∀ t : Fin cfg1.N, cond1_0 (grid1.coords t) ↔ t.val % 11 = 0 :=
  (by decide +kernel : ∀ t : Fin grid1.N, cond1_0 (grid1.coords t) ↔ t.val % 11 = 0)

/-- The second conditional's condition (the reduction coordinate is the last). -/
abbrev cond1_1 (i : grid1.Coords) : Prop := k1_cond2 i = 1#1
theorem hcond1_1 : ∀ t : Fin cfg1.N, cond1_1 (grid1.coords t) ↔ t.val % 11 = 10 :=
  (by decide +kernel : ∀ t : Fin grid1.N, cond1_1 (grid1.coords t) ↔ t.val % 11 = 10)

/-! ## Where the windows are idle -/

theorem liveAt1_0 : ∀ t : Fin cfg1.N, cfg1.idle 0 (grid1.coords t) = false := fun _ => rfl
theorem liveAt1_1 : ∀ t : Fin cfg1.N, cfg1.idle 1 (grid1.coords t) = false := fun _ => rfl
theorem idleAt1_2 : ∀ t : Fin cfg1.N, ¬ t.val % 11 = 10 → cfg1.idle 2 (grid1.coords t) = true := by decide +kernel
theorem liveAt1_2 : ∀ t : Fin cfg1.N, t.val % 11 = 10 → cfg1.idle 2 (grid1.coords t) = false := by decide +kernel
theorem noFlush1_2 (t : Fin cfg1.N) (h : ¬ t.val % 11 = 10) : (cfg1.win 2).flush t = false := by
  cases hf : (cfg1.win 2).flush t
  · rfl
  · exact absurd ((flush1_2 t).mp hf) h

/-! ## Reading back what the body's whole-buffer stores leave -/

theorem zeroOff1 : (![0, 0] : Fin 2 → Nat) = fun _ => 0 := funext fun a => by fin_cases a <;> rfl

/-- A store through the whole 256 × 512 buffer, last of any list, covers it. -/
theorem cover1 (w : Vec F S256x512 .f32) (L : List (View.Piece (Elt F) S256x512 .f32)) (y : S256x512.Idx) :
    ∃ p ∈ ((⟨r1_s, w⟩ : View.Piece (Elt F) S256x512 .f32) :: L), y ∈ p.1.set :=
  ⟨_, List.mem_cons.mpr (Or.inl rfl), View.mem_set_unit_zero zeroOff1 inb_S256x512_S256x512_0_0 y⟩

/-- The accumulate's payload over the two operand loads, each a read of a whole memref's raw contents: the payload
    over the read contents. -/
theorem pay2_loads1 {arg2 : Memref sig .tc .vmem S256x256 .bf16} (harg2 : arg2.IsWhole)
    {arg3 : Memref sig .tc .vmem S2816x512 .bf16} (harg3 : arg3.IsWhole) (i : grid1.Coords)
    (x0 : Vec F S256x256 .bf16) (x1 : Vec F S2816x512 .bf16) (a : Vec F S256x512 .f32) :
    k1_pay2 (View.readAt (Elt F) arg2.view r1_a.toLoadRect (harg2.unread x0))
        (View.readAt (Elt F) arg3.view (rH1 i).toLoadRect (harg3.unread x1)) a
      = k1_pay2 (View.ld x0 r1_a) (View.ld x1 (rH1 i)) a := by
  rw [View.readAt_eq_ld, View.readAt_eq_ld, harg2.read_unread, harg3.read_unread]

/-! ## The body's triple, case by case -/

set_option maxHeartbeats 1000000 in
/-- `k = 0`: the accumulator, at anything, is zeroed and then holds zero plus this point's product; the output
    block is not touched. -/
theorem kern1_A (c : Dev nD) (E : Set ℕ) (i : grid1.Coords)
    (arg2 : Memref sig .tc .vmem S256x256 .bf16) (harg2 : arg2.IsWhole)
    (arg3 : Memref sig .tc .vmem S2816x512 .bf16) (harg3 : arg3.IsWhole)
    (arg4 : Memref sig .tc .vmem S256x512 .f32) (harg4 : arg4.IsWhole)
    (arg5 : Memref sig .tc .vmem S256x512 .f32) (harg5 : arg5.IsWhole)
    (hc0 : cond1_0 i) (hc1 : ¬cond1_1 i)
    (x0 : Vec F S256x256 .bf16) (x1 : Vec F S2816x512 .bf16)
    (K : PUnit → sProp 𝕄) :
    iprop(owns (c : Thread nD τ) arg2 fullShare x0 ∗ owns (c : Thread nD τ) arg3 fullShare x1
        ∗ (∃ d, owns (c : Thread nD τ) arg5 fullShare d)
        ∗ (iprop(owns (c : Thread nD τ) arg2 fullShare x0 ∗ owns (c : Thread nD τ) arg3 fullShare x1
            ∗ owns (c : Thread nD τ) arg5 fullShare (k1_pay2 (View.ld x0 r1_a) (View.ld x1 (rH1 i)) (k1_pay1 (F := F)))) -∗ K ⟨⟩))
      ⊢ wp frame (wpE (defs₀ (F := F)) Variants.none c none) E (cc1__spmm_kernel i arg2 harg2 arg3 harg3 arg4 harg4 arg5 harg5) K := by
  simp only [cc1__spmm_kernel_eq_skeleton]; unfold cc1__spmm_kernel_skel
  unfold owns
  iintro ⟨⟨%f0, %hf0, H0⟩, ⟨%f1, %hf1, H1⟩, ⟨%ds, %fs, -, HS⟩, Hk⟩
  obtain rfl := harg2.eq_unread hf0; obtain rfl := harg3.eq_unread hf1
  sl_exec (disch := first | exact hc0 | exact hc1)
  sl_step
  unfold kern1_A.sl.v10 kern1_A.sl.HS_1
  iapply Hk
  isplitl [H0]
  · iexists _; isplitr; · ipureintro; exact harg2.read_unread _
    iexact H0
  isplitl [H1]
  · iexists _; isplitr; · ipureintro; exact harg3.read_unread _
    iexact H1
  iexists _; isplitr
  swap; · iexact HS
  ipureintro
  rw [View.read_writes_eq_canon _ _ _ (cover1 _ _), View.canon_cons_unit_zero (S := S256x512) zeroOff1, pay2_loads1,
    View.readCov_unit_zero (S := S256x512) _ zeroOff1]

set_option maxHeartbeats 1000000 in
/-- `0 < k < 10`: the accumulator, at `xs`, gains this point's product; the output block is not touched. -/
theorem kern1_B (c : Dev nD) (E : Set ℕ) (i : grid1.Coords)
    (arg2 : Memref sig .tc .vmem S256x256 .bf16) (harg2 : arg2.IsWhole)
    (arg3 : Memref sig .tc .vmem S2816x512 .bf16) (harg3 : arg3.IsWhole)
    (arg4 : Memref sig .tc .vmem S256x512 .f32) (harg4 : arg4.IsWhole)
    (arg5 : Memref sig .tc .vmem S256x512 .f32) (harg5 : arg5.IsWhole)
    (hc0 : ¬cond1_0 i) (hc1 : ¬cond1_1 i)
    (x0 : Vec F S256x256 .bf16) (x1 : Vec F S2816x512 .bf16) (xs : Vec F S256x512 .f32)
    (K : PUnit → sProp 𝕄) :
    iprop(owns (c : Thread nD τ) arg2 fullShare x0 ∗ owns (c : Thread nD τ) arg3 fullShare x1
        ∗ owns (c : Thread nD τ) arg5 fullShare xs
        ∗ (iprop(owns (c : Thread nD τ) arg2 fullShare x0 ∗ owns (c : Thread nD τ) arg3 fullShare x1
            ∗ owns (c : Thread nD τ) arg5 fullShare (k1_pay2 (View.ld x0 r1_a) (View.ld x1 (rH1 i)) xs)) -∗ K ⟨⟩))
      ⊢ wp frame (wpE (defs₀ (F := F)) Variants.none c none) E (cc1__spmm_kernel i arg2 harg2 arg3 harg3 arg4 harg4 arg5 harg5) K := by
  simp only [cc1__spmm_kernel_eq_skeleton]; unfold cc1__spmm_kernel_skel
  unfold owns
  iintro ⟨⟨%f0, %hf0, H0⟩, ⟨%f1, %hf1, H1⟩, ⟨%fs, %hfs, HS⟩, Hk⟩
  obtain rfl := harg2.eq_unread hf0; obtain rfl := harg3.eq_unread hf1; obtain rfl := harg5.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  iexists _; isplitr
  swap; · iexact HS
  ipureintro
  rw [View.read_writes_eq_canon _ _ _ (cover1 _ []), View.canon_unit_zero (S := S256x512) zeroOff1, pay2_loads1,
    View.readAt_eq_ld, harg5.read_unread, View.ld_unit_zero (S := S256x512) zeroOff1]

set_option maxHeartbeats 1000000 in
/-- `k = 10`: the accumulator, at `xs`, gains this point's product, and the output block, at anything, is then a
    copy of it. -/
theorem kern1_C (c : Dev nD) (E : Set ℕ) (i : grid1.Coords)
    (arg2 : Memref sig .tc .vmem S256x256 .bf16) (harg2 : arg2.IsWhole)
    (arg3 : Memref sig .tc .vmem S2816x512 .bf16) (harg3 : arg3.IsWhole)
    (arg4 : Memref sig .tc .vmem S256x512 .f32) (harg4 : arg4.IsWhole)
    (arg5 : Memref sig .tc .vmem S256x512 .f32) (harg5 : arg5.IsWhole)
    (hc0 : ¬cond1_0 i) (hc1 : cond1_1 i)
    (x0 : Vec F S256x256 .bf16) (x1 : Vec F S2816x512 .bf16) (xs : Vec F S256x512 .f32)
    (K : PUnit → sProp 𝕄) :
    iprop(owns (c : Thread nD τ) arg2 fullShare x0 ∗ owns (c : Thread nD τ) arg3 fullShare x1
        ∗ (∃ d, owns (c : Thread nD τ) arg4 fullShare d) ∗ owns (c : Thread nD τ) arg5 fullShare xs
        ∗ (iprop(owns (c : Thread nD τ) arg2 fullShare x0 ∗ owns (c : Thread nD τ) arg3 fullShare x1
            ∗ owns (c : Thread nD τ) arg4 fullShare (k1_pay2 (View.ld x0 r1_a) (View.ld x1 (rH1 i)) xs)
            ∗ owns (c : Thread nD τ) arg5 fullShare (k1_pay2 (View.ld x0 r1_a) (View.ld x1 (rH1 i)) xs)) -∗ K ⟨⟩))
      ⊢ wp frame (wpE (defs₀ (F := F)) Variants.none c none) E (cc1__spmm_kernel i arg2 harg2 arg3 harg3 arg4 harg4 arg5 harg5) K := by
  simp only [cc1__spmm_kernel_eq_skeleton]; unfold cc1__spmm_kernel_skel
  unfold owns
  iintro ⟨⟨%f0, %hf0, H0⟩, ⟨%f1, %hf1, H1⟩, ⟨%d4, %f4, -, H4⟩, ⟨%fs, %hfs, HS⟩, Hk⟩
  obtain rfl := harg2.eq_unread hf0; obtain rfl := harg3.eq_unread hf1; obtain rfl := harg5.eq_unread hfs
  sl_exec (disch := first | exact hc0 | exact hc1)
  sl_step
  unfold kern1_C.sl.v19 kern1_C.sl.HS_1
  iapply Hk
  isplitl [H0]
  · iexists _; isplitr; · ipureintro; exact harg2.read_unread _
    iexact H0
  isplitl [H1]
  · iexists _; isplitr; · ipureintro; exact harg3.read_unread _
    iexact H1
  isplitl [H4]
  · iexists _; isplitr
    swap; · iexact H4
    ipureintro
    rw [View.read_writes_eq_canon _ _ _ (cover1 _ []), View.canon_unit_zero (S := S256x512) zeroOff1,
      View.readCov_unit_zero (S := S256x512) _ zeroOff1, pay2_loads1,
      View.readAt_eq_ld, harg5.read_unread, View.ld_unit_zero (S := S256x512) zeroOff1]
  iexists _; isplitr
  swap; · iexact HS
  ipureintro
  rw [View.read_writes_eq_canon _ _ _ (cover1 _ []), View.canon_unit_zero (S := S256x512) zeroOff1, pay2_loads1,
    View.readAt_eq_ld, harg5.read_unread, View.ld_unit_zero (S := S256x512) zeroOff1]

/-! ## The accumulator at a point, by the point's case -/

/-- Where the reduction coordinate restarts, the accumulator is zero plus this point's product. -/
theorem accAt1_A (c : Dev nD) (t : Fin cfg1.N) (h0 : t.val % 11 = 0) :
    accAt1 V c t.val t.isLt
      = k1_pay2 (View.ld (iblk1 V c 0 t) r1_a) (View.ld (iblk1 V c 1 t) (rH1 (grid1.coords t))) (k1_pay1 (F := F)) := by
  obtain ⟨n, hn⟩ := t
  cases n with
  | zero => rfl
  | succ n =>
    dsimp only at h0
    rw [accAt1_succ, if_pos h0]; rfl

/-- Elsewhere it is what the point before left plus this point's product. -/
theorem accAt1_B (c : Dev nD) (t : Fin cfg1.N) (h0 : ¬t.val % 11 = 0) :
    accAt1 V c t.val t.isLt
      = k1_pay2 (View.ld (iblk1 V c 0 t) r1_a) (View.ld (iblk1 V c 1 t) (rH1 (grid1.coords t)))
          (accAt1 V c (t.val - 1) (Nat.lt_of_le_of_lt (Nat.sub_le _ _) t.isLt)) := by
  obtain ⟨n, hn⟩ := t
  cases n with
  | zero => exact absurd (Nat.zero_mod _) h0
  | succ n =>
    dsimp only at h0
    rw [accAt1_succ, if_neg h0]; rfl

/-! ## The invariant between points -/

/-- The scratch accumulator as a memref. -/
abbrev scM1 : Memref sig .tc .vmem S256x512 .f32 := Memref.whole cc1_scratch0

/-- The core's scoped buffers that this region does not stage: the six staging buffers of the other region, each
    whole at some contents, and the scratch under the clause `S`. -/
def restWith1 (c : Dev nD) (S : sProp 𝕄) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg3_1), ((c : Thread nD τ).loc cc0_stg3_1) ↦{fullShare} f)
    ∗ S)

/-- The class invariant is that rest with the scratch at anything, and the generator register at some state. -/
theorem PhiA1_eq (c : Dev nD) :
    (Pipeline.ΦA spec1 c : sProp 𝕄)
      = iprop(restWith1 c iprop(∃ d, owns (c : Thread nD τ) scM1 fullShare d) ∗ (∃ r, prngReg c r)) := by
  unfold Pipeline.ΦA restWith1; rw [scopedRest1_eq]; simp only [scM1, owns_whole]; try rfl

/-- The invariant before position `n`: the class's before the first point; after point `n - 1` the same with the
    scratch held at that point's accumulator. -/
def PhiS1 (c : Dev nD) : (n : ℕ) → n ≤ cfg1.N → sProp 𝕄
  | 0, _ => Pipeline.ΦA spec1 c
  | n + 1, hn => iprop(restWith1 c (owns (c : Thread nD τ) scM1 fullShare (accAt1 V c n hn)) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn
      = iprop(restWith1 c (owns (c : Thread nD τ) scM1 fullShare (accAt1 V c n hn)) ∗ (∃ r, prngReg c r)) := rfl

theorem PhiS1_pos (c : Dev nD) (n : ℕ) (h : n ≤ cfg1.N) (hz : n ≠ 0) :
    PhiS1 V c n h
      = iprop(restWith1 c (owns (c : Thread nD τ) scM1 fullShare (accAt1 V c (n - 1) (by omega))) ∗ (∃ r, prngReg c r)) := by
  cases n with
  | zero => exact absurd rfl hz
  | succ n => rfl

/-! ## The proof data -/

/-- The proof data of the region on core `c`: the arrays as the region finds them; after the body at point `t` the
    two inputs' buffers at their blocks and the output's at the accumulator; the invariant above; nothing owed; full
    shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => accAt1 V c t.val t.isLt
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = accAt1 V c t.val t.isLt := by dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

/-! ## What the body finds in the input windows' buffers -/

/-- The count matrix's window holds its block at every point (it is fetched at every point). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The resident operand's window holds the whole operand at every point: fetched at the first only, its block index
    never moves and the body leaves it in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point.  The inputs' memrefs hold their blocks; the closed forms of the two conditions say which
    of the three cases the point is in; the invariant hands over the scratch — at anything at the first point, else at
    what the point before left — and takes it back at this point's accumulator; where the output is idle its buffer
    is handed back as found, and where it is live it holds the accumulator. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (st1_0 t) fullShare ((dat1 V c).after 0 t) from by
    unfold Dat.leavesExact; rw [liveAt1_0 t], after1_0]
  rw [show (dat1 V c).leavesExact 1 t = owns (c : Thread nD τ) (st1_1 t) fullShare ((dat1 V c).after 1 t) from by
    unfold Dat.leavesExact; rw [liveAt1_1 t], after1_1]
  have hN : t.val < 121 := lt_of_lt_of_eq t.isLt (show cfg1.N = 121 from N_1)
  by_cases h0 : t.val % 11 = 0
  · have h1 : ¬t.val % 11 = 10 := by omega
    rw [Dat.leavesExact_idle (dat1 V c) 2 t (idleAt1_2 t h1) (noFlush1_2 t h1)]
    rw [accAt1_A V c t h0]
    by_cases hz : t.val = 0
    · rw [PhiS1_castSucc V c t, PhiS1_zero V c _ _ hz, PhiA1_eq]; unfold restWith1
      iintro ⟨⟨⟨R1, R2, R3, R4, R5, R6, HS⟩, Hg⟩, Ho, ⟨%d0, H0⟩, ⟨%d1, H1⟩, H2⟩
      iapply (kern1_A c Set.univ (grid1.coords t) _ _ _ _ _ _ _ _ ((hcond1_0 t).mpr h0) (fun h => h1 ((hcond1_1 t).mp h)) (iblk1 V c 0 t) (iblk1 V c 1 t) _)
      isplitl [H0]; · iexact H0
      isplitl [H1]; · iexact H1
      isplitl [HS]; · iexact HS
      iintro ⟨H0, H1, HS⟩
      isplitl [R1 R2 R3 R4 R5 R6 HS Hg]
      · isplitr [Hg]
        · isplitl [R1]; · iexact R1
          isplitl [R2]; · iexact R2
          isplitl [R3]; · iexact R3
          isplitl [R4]; · iexact R4
          isplitl [R5]; · iexact R5
          isplitl [R6]; · iexact R6
          iexact HS
        iexact Hg
      isplitl [Ho]; · iexact Ho
      isplitl [H0]; · iexact H0
      isplitl [H1]; · iexact H1
      iexact H2
    · rw [PhiS1_castSucc V c t, PhiS1_pos V c _ _ hz]; unfold restWith1
      iintro ⟨⟨⟨R1, R2, R3, R4, R5, R6, HS⟩, Hg⟩, Ho, ⟨%d0, H0⟩, ⟨%d1, H1⟩, H2⟩
      iapply (kern1_A c Set.univ (grid1.coords t) _ _ _ _ _ _ _ _ ((hcond1_0 t).mpr h0) (fun h => h1 ((hcond1_1 t).mp h)) (iblk1 V c 0 t) (iblk1 V c 1 t) _)
      isplitl [H0]; · iexact H0
      isplitl [H1]; · iexact H1
      isplitl [HS]; · iexists _; iexact HS
      iintro ⟨H0, H1, HS⟩
      isplitl [R1 R2 R3 R4 R5 R6 HS Hg]
      · isplitr [Hg]
        · isplitl [R1]; · iexact R1
          isplitl [R2]; · iexact R2
          isplitl [R3]; · iexact R3
          isplitl [R4]; · iexact R4
          isplitl [R5]; · iexact R5
          isplitl [R6]; · iexact R6
          iexact HS
        iexact Hg
      isplitl [Ho]; · iexact Ho
      isplitl [H0]; · iexact H0
      isplitl [H1]; · iexact H1
      iexact H2
  · have hz : t.val ≠ 0 := fun e => h0 (by rw [e])
    rw [accAt1_B V c t h0]
    rw [PhiS1_castSucc V c t, PhiS1_pos V c _ _ hz]
    by_cases h1 : t.val % 11 = 10
    · rw [show (dat1 V c).leavesExact 2 t = owns (c : Thread nD τ) (st1_2 t) fullShare ((dat1 V c).after 2 t) from by
        unfold Dat.leavesExact; rw [liveAt1_2 t h1], after1_2, accAt1_B V c t h0]
      unfold restWith1
      iintro ⟨⟨⟨R1, R2, R3, R4, R5, R6, HS⟩, Hg⟩, Ho, ⟨%d0, H0⟩, ⟨%d1, H1⟩, ⟨%d2, H2⟩⟩
      iapply (kern1_C c Set.univ (grid1.coords t) _ _ _ _ _ _ _ _ (fun h => h0 ((hcond1_0 t).mp h)) ((hcond1_1 t).mpr h1) (iblk1 V c 0 t) (iblk1 V c 1 t) _ _)
      isplitl [H0]; · iexact H0
      isplitl [H1]; · iexact H1
      isplitl [H2]; · iexists _; iexact H2
      isplitl [HS]; · iexact HS
      iintro ⟨H0, H1, H2, HS⟩
      isplitl [R1 R2 R3 R4 R5 R6 HS Hg]
      · isplitr [Hg]
        · isplitl [R1]; · iexact R1
          isplitl [R2]; · iexact R2
          isplitl [R3]; · iexact R3
          isplitl [R4]; · iexact R4
          isplitl [R5]; · iexact R5
          isplitl [R6]; · iexact R6
          iexact HS
        iexact Hg
      isplitl [Ho]; · iexact Ho
      isplitl [H0]; · iexact H0
      isplitl [H1]; · iexact H1
      iexact H2
    · rw [Dat.leavesExact_idle (dat1 V c) 2 t (idleAt1_2 t h1) (noFlush1_2 t h1)]
      unfold restWith1
      iintro ⟨⟨⟨R1, R2, R3, R4, R5, R6, HS⟩, Hg⟩, Ho, ⟨%d0, H0⟩, ⟨%d1, H1⟩, H2⟩
      iapply (kern1_B c Set.univ (grid1.coords t) _ _ _ _ _ _ _ _ (fun h => h0 ((hcond1_0 t).mp h)) (fun h => h1 ((hcond1_1 t).mp h)) (iblk1 V c 0 t) (iblk1 V c 1 t) _ _)
      isplitl [H0]; · iexact H0
      isplitl [H1]; · iexact H1
      isplitl [HS]; · iexact HS
      iintro ⟨H0, H1, HS⟩
      isplitl [R1 R2 R3 R4 R5 R6 HS Hg]
      · isplitr [Hg]
        · isplitl [R1]; · iexact R1
          isplitl [R2]; · iexact R2
          isplitl [R3]; · iexact R3
          isplitl [R4]; · iexact R4
          isplitl [R5]; · iexact R5
          isplitl [R6]; · iexact R6
          iexact HS
        iexact Hg
      isplitl [Ho]; · iexact Ho
      isplitl [H0]; · iexact H0
      isplitl [H1]; · iexact H1
      iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-! ## Entering and leaving the region -/

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point the invariant gives the class invariant back: the accumulator's named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  unfold restWith1
  iintro ⟨⟨R1, R2, R3, R4, R5, R6, HS⟩, Hg⟩
  isplitr [Hg]
  · isplitl [R1]; · iexact R1
    isplitl [R2]; · iexact R2
    isplitl [R3]; · iexact R3
    isplitl [R4]; · iexact R4
    isplitl [R5]; · iexact R5
    isplitl [R6]; · iexact R6
    iexists _; iexact HS
  iexact Hg

/-- The same after the last point. -/
theorem hout1 (c : Dev nD) : (dat1 V c).Φ (Fin.last cfg1.N) ⊢ Pipeline.ΦA spec1 c :=
  Phi_out1 V c _ (by rw [Fin.val_last]; have : cfg1.N = 121 := N_1; omega)

end Cert.Kernel.Frame

end
-- ==== Proof.K.Run.lean ====
/-
  The kernel program's run, at any float instance: @main as seven items — three stretches of host operations, region 0,
  a stretch, region 1, a last stretch — each entered from what the item before left.  The contents of every unscoped
  buffer at each boundary are named by a fold from the launch memory (`W0` … `W7`: a stretch applies its operations, a
  region replaces its arrays by what its write-backs leave).  Every weakly fair execution terminates with every unscoped
  buffer at `W7`; the arguments, which no item writes, are read back through the fold to their launch contents.
-/
import proofs.«417986_j90340342104697_2_alg».proof.Proof.K.Region0
import proofs.«417986_j90340342104697_2_alg».proof.Proof.K.Region1
import proofs.«417986_j90340342104697_2_alg».proof.Proof.Gen.Kernel.Regions

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the constant. -/
abbrev W1 : Dev nD → Valuation τ sig (Elt F) := fun c => StableHlo.after hostOps0 (W0 m ρ c)
/-- After the padding of the features. -/
abbrev W2 : Dev nD → Valuation τ sig (Elt F) := fun c => StableHlo.after hostOps0_1 (W1 m ρ c)
/-- After the weight's change of format: region 0's entry. -/
abbrev W3 : Dev nD → Valuation τ sig (Elt F) := fun c => StableHlo.after hostOps0_2 (W2 m ρ c)
/-- The same read at the TensorCore's references. -/
abbrev U3 : (c : Dev nD) → (b : Ref sig .tc) → Buf (Elt F) ((c : Thread nD τ).loc b) := fun c b => W3 m ρ c b
/-- At region 0's exit: its arrays at what the pipeline leaves, every other buffer as entered. -/
def W4 (c : Dev nD) : Valuation τ sig (Elt F) :=
  Pipeline.withArrays spec0 c (W3 m ρ c) fun w => (dat0 (U3 m ρ) c).arrAt w cfg0.N
theorem W4_arr (c : Dev nD) (w : Fin cfg0.W) :
    W4 m ρ c (Proc.devRef .tc (Pipeline.arrRef spec0 w)) = (dat0 (U3 m ρ) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m ρ c (Proc.devRef .tc b) = W3 m ρ c (Proc.devRef .tc b) := by
  unfold W4; exact Pipeline.withArrays_of_ne spec0 c _ _ b hb
abbrev U4 : (c : Dev nD) → (b : Ref sig .tc) → Buf (Elt F) ((c : Thread nD τ).loc b) := fun c b => W4 m ρ c b
theorem hF0 (c : Dev nD) (w : Fin cfg0.W) : (dat0 (U3 m ρ) c).arrAt w cfg0.N = U4 m ρ c (Pipeline.arrRef spec0 w) :=
  (W4_arr m ρ c w).symm
theorem hrest0 (c : Dev nD) : ∀ b, b ∉ Finset.univ.image (Pipeline.arrRef spec0) → U4 m ρ c b = U3 m ρ c b :=
  fun b hb => W4_of_ne m ρ c b fun w e => hb (Finset.mem_image.mpr ⟨w, Finset.mem_univ _, e⟩)

/-- After the count matrix is built: region 1's entry. -/
abbrev W5 : Dev nD → Valuation τ sig (Elt F) := fun c => StableHlo.after hostOps1 (W4 m ρ c)
abbrev U5 : (c : Dev nD) → (b : Ref sig .tc) → Buf (Elt F) ((c : Thread nD τ).loc b) := fun c b => W5 m ρ c b
/-- At region 1's exit. -/
def W6 (c : Dev nD) : Valuation τ sig (Elt F) :=
  Pipeline.withArrays spec1 c (W5 m ρ c) fun w => (dat1 (U5 m ρ) c).arrAt w cfg1.N
theorem W6_arr (c : Dev nD) (w : Fin cfg1.W) :
    W6 m ρ c (Proc.devRef .tc (Pipeline.arrRef spec1 w)) = (dat1 (U5 m ρ) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m ρ c (Proc.devRef .tc b) = W5 m ρ c (Proc.devRef .tc b) := by
  unfold W6; exact Pipeline.withArrays_of_ne spec1 c _ _ b hb
abbrev U6 : (c : Dev nD) → (b : Ref sig .tc) → Buf (Elt F) ((c : Thread nD τ).loc b) := fun c b => W6 m ρ c b
theorem hF1 (c : Dev nD) (w : Fin cfg1.W) : (dat1 (U5 m ρ) c).arrAt w cfg1.N = U6 m ρ c (Pipeline.arrRef spec1 w) :=
  (W6_arr m ρ c w).symm
theorem hrest1 (c : Dev nD) : ∀ b, b ∉ Finset.univ.image (Pipeline.arrRef spec1) → U6 m ρ c b = U5 m ρ c b :=
  fun b hb => W6_of_ne m ρ c b fun w e => hb (Finset.mem_image.mpr ⟨w, Finset.mem_univ _, e⟩)
/-- After the slice: the return. -/
abbrev W7 : Dev nD → Valuation τ sig (Elt F) := fun c => StableHlo.after hostOps2 (W6 m ρ c)

/-! ## The arguments end as launched -/

/-- A buffer no stretch writes and that is no array of either region reaches the end as launched. -/
theorem W7_of_unwritten (c : Dev nD) (r : Ref sig .tc) (h0 : r ∉ hostOps0_W) (h1 : r ∉ hostOps0_1_W) (h2 : r ∉ hostOps0_2_W)
    (h3 : ∀ w, Pipeline.arrRef spec0 w ≠ r) (h4 : r ∉ hostOps1_W) (h5 : ∀ w, Pipeline.arrRef spec1 w ≠ r) (h6 : r ∉ hostOps2_W) :
    W7 m ρ c (Proc.devRef .tc r) = m ((c : Thread nD τ).loc r) :=
  calc W7 m ρ c (Proc.devRef .tc r)
    _ = W6 m ρ c (Proc.devRef .tc r) := StableHlo.after_of_writes_sub hostOps2 _ hostOps2_writes h6
    _ = W5 m ρ c (Proc.devRef .tc r) := W6_of_ne m ρ c r h5
    _ = W4 m ρ c (Proc.devRef .tc r) := StableHlo.after_of_writes_sub hostOps1 _ hostOps1_writes h4
    _ = W3 m ρ c (Proc.devRef .tc r) := W4_of_ne m ρ c r h3
    _ = W2 m ρ c (Proc.devRef .tc r) := StableHlo.after_of_writes_sub hostOps0_2 _ hostOps0_2_writes h2
    _ = W1 m ρ c (Proc.devRef .tc r) := StableHlo.after_of_writes_sub hostOps0_1 _ hostOps0_1_writes h1
    _ = W0 m ρ c (Proc.devRef .tc r) := StableHlo.after_of_writes_sub hostOps0 _ hostOps0_writes h0
    _ = m ((c : Thread nD τ).loc r) := rfl

theorem W7_main_arg0 (c : Dev nD) : W7 m ρ c (Proc.devRef .tc main_arg0) = m ((c : Thread nD τ).loc main_arg0) :=
  W7_of_unwritten m ρ c main_arg0 (by decide) (by decide) (by decide) (by decide) (by decide) (by decide) (by decide)
theorem W7_main_arg1 (c : Dev nD) : W7 m ρ c (Proc.devRef .tc main_arg1) = m ((c : Thread nD τ).loc main_arg1) :=
  W7_of_unwritten m ρ c main_arg1 (by decide) (by decide) (by decide) (by decide) (by decide) (by decide) (by decide)
theorem W7_main_arg2 (c : Dev nD) : W7 m ρ c (Proc.devRef .tc main_arg2) = m ((c : Thread nD τ).loc main_arg2) :=
  W7_of_unwritten m ρ c main_arg2 (by decide) (by decide) (by decide) (by decide) (by decide) (by decide) (by decide)
/-- The bias is an input array of region 0: it passes through that region as entered. -/
theorem W7_main_arg3 (c : Dev nD) : W7 m ρ c (Proc.devRef .tc main_arg3) = m ((c : Thread nD τ).loc main_arg3) :=
  calc W7 m ρ c (Proc.devRef .tc main_arg3)
    _ = W6 m ρ c (Proc.devRef .tc main_arg3) := StableHlo.after_of_writes_sub hostOps2 _ hostOps2_writes (by decide)
    _ = W5 m ρ c (Proc.devRef .tc main_arg3) := W6_of_ne m ρ c main_arg3 (by decide)
    _ = W4 m ρ c (Proc.devRef .tc main_arg3) := StableHlo.after_of_writes_sub hostOps1 _ hostOps1_writes (by decide)
    _ = W3 m ρ c (Proc.devRef .tc main_arg3) := (W4_arr m ρ c 2).trans (((dat0 (U3 m ρ) c).arrAt_in 2 rfl _).trans (A_eq0 (U3 m ρ) c 2))
    _ = W2 m ρ c (Proc.devRef .tc main_arg3) := StableHlo.after_of_writes_sub hostOps0_2 _ hostOps0_2_writes (by decide)
    _ = W1 m ρ c (Proc.devRef .tc main_arg3) := StableHlo.after_of_writes_sub hostOps0_1 _ hostOps0_1_writes (by decide)
    _ = W0 m ρ c (Proc.devRef .tc main_arg3) := StableHlo.after_of_writes_sub hostOps0 _ hostOps0_writes (by decide)
    _ = m ((c : Thread nD τ).loc main_arg3) := rfl

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (U3 m ρ) c
  | ⟨1, _⟩ => fun c => dat1 (U5 m ρ) c
abbrev 𝒱₀ : Variants := Variants.none
/-- No core owes another anything. -/
abbrev L : GSem nD τ sig → Finset Unit := fun _ => ∅
abbrev lv : GSem nD τ sig → Unit → ℕ := fun _ _ => 0
/-- What rides beside the buffers through every item: the generator register at some state and the core owing nothing. -/
abbrev R (c : Dev nD) : sProp 𝕄 := iprop((∃ r, prngReg c r) ∗ ∃ W, owes (c : Thread nD τ) (0 : CellTallies nD τ sig Unit) W)
/-- A stretch of host operations as an item, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues. -/
abbrev Tₙ (c : Dev nD) : sProp 𝕄 := StableHlo.held (c : Thread nD τ) (Pipeline.ucRefs τ sig) (W7 m ρ c)

/-! ## The regions as items -/

set_option backward.isDefEq.respectTransparency.types false in
/-- Region 0: entered from every unscoped buffer at `W3`, left at `W4`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U3 m ρ) c).loose
  hwaits := Pipeline.hwaits_of_owed_zero _ _ _ _ L lv 0 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec0 c (U3 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (U3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (U3 m ρ c) (U4 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1: entered from every unscoped buffer at `W5`, left at `W6`; the accumulator's scratch enters the region's
    invariant among the scoped buffers and is given back among them. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (U5 m ρ) c).loose
  hwaits := Pipeline.hwaits_of_owed_zero _ _ _ _ L lv 1 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec1 c (U5 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (U5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = (dat1 (U5 m ρ) c).Φ 0 from rfl]
    have h := hin1 (U5 m ρ) c
    unfold Pipeline.ΦA at h
    iintro ⟨Hp, -, Hr⟩
    iapply h
    isplitl [Hr]; · iexact Hr
    iexact Hp
  hout c := by
    rw [Pipeline.ownSems0_none, show (pdats m ρ 1 c).Φ (Fin.last _) = (dat1 (U5 m ρ) c).Φ (Fin.last cfg1.N) from rfl]
    have h := hout1 (U5 m ρ) c
    unfold Pipeline.ΦA at h
    iintro HΦ
    ihave H := h $$ HΦ
    icases H with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (U5 m ρ c) (U6 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as items, and the launch -/

/-- @main's seven items in order. -/
abbrev items : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (reg0 m ρ),
    .host (hseg hostOps1 hostOps1_sub hostOps1_fresh (W4 m ρ)),
    .region (reg1 m ρ),
    .host (hseg hostOps2 hostOps2_sub hostOps2_fresh (W6 m ρ)) ]

/-- @main is the run of the items. -/
theorem main_run (c : Dev nD) : main (F := F) c = Pipeline.Seg.run (items m ρ) := (main_chain c).trans (by chain_rfl)

set_option backward.isDefEq.respectTransparency.types false in
/-- THE RUN. From any memory with zero counters every weakly fair execution of @main terminates, nothing faulting, and
    every final state holds every unscoped buffer at the last boundary's contents `W7`. -/
theorem run_vals : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (items m ρ)
    (fun c Q => by rw [main_run m ρ c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c =>
      sep_mono .rfl (show R c ⊢ (iprop(∃ W, owes (c : Thread nD τ) (0 : CellTallies nD τ sig Unit) W) : sProp 𝕄) from by
        iintro ⟨-, HO⟩; iexact HO)⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      unfold Tₙ StableHlo.held
      iintro ⟨Hh, HSI⟩
      imodintro
      iapply (pointsTo_read_all (Pipeline.ucRefs τ sig) (fun b => (((c : Thread nD τ)).1, b)) (W7 m ρ c) s')
      isplitl [Hh] <;> iassumption)
    (hQ := fun s h c => h c)

/-- THE FRAME, at any float instance: the arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_arg0 (by decide))).trans (W7_main_arg0 m ρ c),
     (h c _ (mem_uc main_arg1 (by decide))).trans (W7_main_arg1 m ρ c),
     (h c _ (mem_uc main_arg2 (by decide))).trans (W7_main_arg2 m ρ c),
     (h c _ (mem_uc main_arg3 (by decide))).trans (W7_main_arg3 m ρ c)⟩) (run_vals m ρ)

end Cert.Kernel.Frame

end
-- ==== Proof.KI.Defs.lean ====
/-
  What the two kernel regions read and leave, as pure functions of the buffer contents `V` a region is entered with.

  Region 0 (the linear layer, 11 points): point `t` reads rows `256·t … 256·t + 255` of the padded features, the whole
  weight and the whole bias, and leaves in its output block the body's one store over those three loads (`lin0Out`).
  Region 1 (the count-matrix product, 11 × 11 points, `t = 11·i + k`): point `t` reads block `(i, k)` of the count
  matrix and, of the resident layer output, the 256 rows from `256·k` on (`hRows1`).  A scratch accumulator is carried
  from point to point: it restarts from zero where `k = 0` and otherwise adds this point's block product to what the
  point before left (`accAt1`); where `k = 10` the output block is the accumulator.
-/
import proofs.«417986_j90340342104697_2_alg».proof.Proof.Gen.KernelIdeal.Launch
import proofs.«417986_j90340342104697_2_alg».proof.Proof.Gen.KernelIdeal.Skeleton
import proofs.«417986_j90340342104697_2_alg».proof.Proof.Gen.KernelIdeal.Points
import Idealize.ShloMosaic.Lib.Pipeline.FrameBody

set_option maxRecDepth 16384

noncomputable section

namespace Cert.KernelIdeal.Frame

open Cert.KernelIdeal Cert.KernelIdeal.Gen
open Idealize.ShloMosaic Idealize.ShloMosaic.TcCoe
open Idealize.SL Idealize.SL.Sem

variable {F : FTy → Type} [FloatOps F]
variable (V : (c : Dev nD) → (b : Ref sig .tc) → Buf (Elt F) ((c : Thread nD τ).loc b))

/-! ## Region 0 -/

/-- Window `w`'s block at point `t`, read off its array as region 0 finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The body's four accesses: each the whole staging buffer. -/
abbrev r0_0 : Rect S256x2048 := Rect.unit (s := S256x2048) ![0, 0] S256x2048.size inb_S256x2048_S256x2048_0_0
abbrev r0_1 : Rect S512x2048 := Rect.unit (s := S512x2048) ![0, 0] S512x2048.size inb_S512x2048_S512x2048_0_0
abbrev r0_2 : Rect S512 := Rect.unit (s := S512) ![0] S512.size inb_S512_S512_0
abbrev r0_3 : Rect S256x512 := Rect.unit (s := S256x512) ![0, 0] S256x512.size inb_S256x512_S256x512_0_0

/-- The output block after the body, from the three input blocks: its one store, over the three loads. -/
def lin0Out (x0 : Vec F S256x2048 .f32) (x1 : Vec F S512x2048 .bf16) (x2 : Vec F S512 .f32) : Vec F S256x512 .bf16 :=
  View.canon [⟨r0_3, k0_pay1 (View.ld x0 r0_0) (View.ld x1 r0_1) (View.ld x2 r0_2)⟩]

/-! ## Region 1 -/

/-- Window `w`'s block at point `t`, read off its array as region 1 finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The rows of the resident operand the body loads at grid coordinates `i`: 256 rows from `256 · i 1` on. -/
abbrev rH1 (i : grid1.Coords) : Rect S2816x512 := Rect.unit (s := S2816x512) (k1_off1 i) S256x512.size (k1_off1_inb i)
/-- The whole 256 × 256 and 256 × 512 buffers. -/
abbrev r1_a : Rect S256x256 := Rect.unit (s := S256x256) ![0, 0] S256x256.size inb_S256x256_S256x256_0_0
abbrev r1_s : Rect S256x512 := Rect.unit (s := S256x512) ![0, 0] S256x512.size inb_S256x512_S256x512_0_0

/-- Those rows of the resident operand at point `t`. -/
def hRows1 (c : Dev nD) (t : Fin cfg1.N) : Vec F S256x512 .bf16 :=
  View.ld (iblk1 V c 1 t) (rH1 (grid1.coords t))

/-- THE ACCUMULATOR: what the carried scratch holds after the body at position `n` — this point's block product added
    to zero where the reduction coordinate restarts (`n % 11 = 0`), else to what the point before left. -/
def accAt1 (c : Dev nD) : (n : ℕ) → n < cfg1.N → Vec F S256x512 .f32
  | 0, hn => k1_pay2 (View.ld (iblk1 V c 0 ⟨0, hn⟩) r1_a) (hRows1 V c ⟨0, hn⟩) (k1_pay1 (F := F))
  | n + 1, hn => k1_pay2 (View.ld (iblk1 V c 0 ⟨n + 1, hn⟩) r1_a) (hRows1 V c ⟨n + 1, hn⟩)
      (if (n + 1) % 11 = 0 then (k1_pay1 (F := F)) else accAt1 c n (Nat.lt_of_succ_lt hn))

theorem accAt1_zero (c : Dev nD) (hn : 0 < cfg1.N) :
    accAt1 V c 0 hn = k1_pay2 (View.ld (iblk1 V c 0 ⟨0, hn⟩) r1_a) (hRows1 V c ⟨0, hn⟩) (k1_pay1 (F := F)) := rfl

theorem accAt1_succ (c : Dev nD) (n : ℕ) (hn : n + 1 < cfg1.N) :
    accAt1 V c (n + 1) hn = k1_pay2 (View.ld (iblk1 V c 0 ⟨n + 1, hn⟩) r1_a) (hRows1 V c ⟨n + 1, hn⟩)
      (if (n + 1) % 11 = 0 then (k1_pay1 (F := F)) else accAt1 V c n (Nat.lt_of_succ_lt hn)) := rfl

end Cert.KernelIdeal.Frame

end
-- ==== Proof.KI.Region0.lean ====
/-
  Kernel region 0, the linear layer: the frame half, at any float instance and at the buffer contents `V` the region
  is entered with.  At each of its 11 points the body finds its three input blocks in their staging buffers (rows of the
  padded features, fetched at every point; the whole weight and the whole bias, fetched once and found again at every
  later point), and stores `lin0Out` of them into the output block; nothing else is touched, nothing is owed.
-/
import proofs.«417986_j90340342104697_2_alg».proof.Proof.KI.Defs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Each input's staging buffer holds its block -/

/-- An input window's current staging buffer holds the window's block at every point, fetched there or found again,
    for any proof data over `V`'s arrays whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body -/

/-- The one store covers the output block. -/
theorem cover0_3 (p0 : Vec F S256x512 .bf16) (y : S256x512.Idx) :
    ∃ pc ∈ ([⟨r0_3, p0⟩] : List (View.Piece (Elt F) S256x512 .bf16)), y ∈ pc.1.set :=
  View.cover_of_tiled [⟨r0_3, p0⟩] S256x512.size (by rfl) y

set_option maxHeartbeats 1000000 in
/-- The body on whole staging buffers holding `x0`, `x1`, `x2` and anything in the output's: it ends with the inputs as
    they were and the output's at `lin0Out x0 x1 x2`. -/
theorem sound_kernel0 (c : Dev nD) (E : Set ℕ) (i : grid0.Coords)
    (arg1 : Memref sig .tc .vmem S256x2048 .f32) (harg1 : arg1.IsWhole) (arg2 : Memref sig .tc .vmem S512x2048 .bf16) (harg2 : arg2.IsWhole)
    (arg3 : Memref sig .tc .vmem S512 .f32) (harg3 : arg3.IsWhole) (arg4 : Memref sig .tc .vmem S256x512 .bf16) (harg4 : arg4.IsWhole)
    (x0 : Vec F S256x2048 .f32) (x1 : Vec F S512x2048 .bf16) (x2 : Vec F S512 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (lin0Out x0 x1 x2)) -∗ K ⟨⟩))
      ⊢ wp frame (wpE (defs₀ (F := F)) Variants.none c none) E (cc0__linear_kernel i arg1 harg1 arg2 harg2 arg3 harg3 arg4 harg4) K := by
  simp only [cc0__linear_kernel_eq_skeleton]; unfold cc0__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The proof data -/

/-- Region 0's proof data on core `c`: its arrays as the region finds them; after the body each input's buffer at its
    block and the output's at `lin0Out` of the three; the invariant the scoped rest and the generator register, untouched;
    nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => lin0Out (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = lin0Out (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so `sound_kernel0` applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Frame

end
-- ==== Proof.KI.Region1.lean ====
/-
  The frame half of the count-matrix product (region 1), at any float instance and at the buffer contents `V` the
  region is entered with.

  The grid is 11 × 11, point `t = 11·i + k`.  The body keeps a 256 × 512 accumulator in a scratch buffer that no
  window stages: where `k = 0` it first overwrites the accumulator with zeros; at every point it adds the product of
  this point's 256 × 256 block of the count matrix with rows `256·k … 256·k + 255` of the resident operand; where
  `k = 10` it copies the accumulator into the output block, which is written back at exactly those points and is
  left untouched (idle) at all the others.  So there are three control cases by `k`, and `k = 0`, `k = 10` never
  coincide.

  The invariant between points says what the scratch holds: anything before the first point, and after point `n`
  the accumulator `accAt1 V c n`.  The three cases' triples are stated over arbitrary whole memrefs and read contents;
  the body obligation picks the case from the closed forms of the two conditions.
-/
import proofs.«417986_j90340342104697_2_alg».proof.Proof.KI.Defs
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The body's two branch conditions, in closed form over the grid -/

/-- The first conditional's condition (the reduction coordinate is zero), as the body computes it. -/
abbrev cond1_0 (i : grid1.Coords) : Prop :=
  (Scalar.cmpi .ne (Scalar.extui (Scalar.cmpi .eq (BitVec.ofNat 32 (i 1).val) 0#32)) 0#32) = 1#1
theorem hcond1_0 : ∀ t : Fin cfg1.N, cond1_0 (grid1.coords t) ↔ t.val % 11 = 0 :=
  (by decide +kernel : ∀ t : Fin grid1.N, cond1_0 (grid1.coords t) ↔ t.val % 11 = 0)

/-- The second conditional's condition (the reduction coordinate is the last). -/
abbrev cond1_1 (i : grid1.Coords) : Prop := k1_cond2 i = 1#1
theorem hcond1_1 : ∀ t : Fin cfg1.N, cond1_1 (grid1.coords t) ↔ t.val % 11 = 10 :=
  (by decide +kernel : ∀ t : Fin grid1.N, cond1_1 (grid1.coords t) ↔ t.val % 11 = 10)

/-! ## Where the windows are idle -/

theorem liveAt1_0 : ∀ t : Fin cfg1.N, cfg1.idle 0 (grid1.coords t) = false := fun _ => rfl
theorem liveAt1_1 : ∀ t : Fin cfg1.N, cfg1.idle 1 (grid1.coords t) = false := fun _ => rfl
theorem idleAt1_2 : ∀ t : Fin cfg1.N, ¬ t.val % 11 = 10 → cfg1.idle 2 (grid1.coords t) = true := by decide +kernel
theorem liveAt1_2 : ∀ t : Fin cfg1.N, t.val % 11 = 10 → cfg1.idle 2 (grid1.coords t) = false := by decide +kernel
theorem noFlush1_2 (t : Fin cfg1.N) (h : ¬ t.val % 11 = 10) : (cfg1.win 2).flush t = false := by
  cases hf : (cfg1.win 2).flush t
  · rfl
  · exact absurd ((flush1_2 t).mp hf) h

/-! ## Reading back what the body's whole-buffer stores leave -/

theorem zeroOff1 : (![0, 0] : Fin 2 → Nat) = fun _ => 0 := funext fun a => by fin_cases a <;> rfl

/-- A store through the whole 256 × 512 buffer, last of any list, covers it. -/
theorem cover1 (w : Vec F S256x512 .f32) (L : List (View.Piece (Elt F) S256x512 .f32)) (y : S256x512.Idx) :
    ∃ p ∈ ((⟨r1_s, w⟩ : View.Piece (Elt F) S256x512 .f32) :: L), y ∈ p.1.set :=
  ⟨_, List.mem_cons.mpr (Or.inl rfl), View.mem_set_unit_zero zeroOff1 inb_S256x512_S256x512_0_0 y⟩

/-- The accumulate's payload over the two operand loads, each a read of a whole memref's raw contents: the payload
    over the read contents. -/
theorem pay2_loads1 {arg2 : Memref sig .tc .vmem S256x256 .bf16} (harg2 : arg2.IsWhole)
    {arg3 : Memref sig .tc .vmem S2816x512 .bf16} (harg3 : arg3.IsWhole) (i : grid1.Coords)
    (x0 : Vec F S256x256 .bf16) (x1 : Vec F S2816x512 .bf16) (a : Vec F S256x512 .f32) :
    k1_pay2 (View.readAt (Elt F) arg2.view r1_a.toLoadRect (harg2.unread x0))
        (View.readAt (Elt F) arg3.view (rH1 i).toLoadRect (harg3.unread x1)) a
      = k1_pay2 (View.ld x0 r1_a) (View.ld x1 (rH1 i)) a := by
  rw [View.readAt_eq_ld, View.readAt_eq_ld, harg2.read_unread, harg3.read_unread]

/-! ## The body's triple, case by case -/

set_option maxHeartbeats 1000000 in
/-- `k = 0`: the accumulator, at anything, is zeroed and then holds zero plus this point's product; the output
    block is not touched. -/
theorem kern1_A (c : Dev nD) (E : Set ℕ) (i : grid1.Coords)
    (arg2 : Memref sig .tc .vmem S256x256 .bf16) (harg2 : arg2.IsWhole)
    (arg3 : Memref sig .tc .vmem S2816x512 .bf16) (harg3 : arg3.IsWhole)
    (arg4 : Memref sig .tc .vmem S256x512 .f32) (harg4 : arg4.IsWhole)
    (arg5 : Memref sig .tc .vmem S256x512 .f32) (harg5 : arg5.IsWhole)
    (hc0 : cond1_0 i) (hc1 : ¬cond1_1 i)
    (x0 : Vec F S256x256 .bf16) (x1 : Vec F S2816x512 .bf16)
    (K : PUnit → sProp 𝕄) :
    iprop(owns (c : Thread nD τ) arg2 fullShare x0 ∗ owns (c : Thread nD τ) arg3 fullShare x1
        ∗ (∃ d, owns (c : Thread nD τ) arg5 fullShare d)
        ∗ (iprop(owns (c : Thread nD τ) arg2 fullShare x0 ∗ owns (c : Thread nD τ) arg3 fullShare x1
            ∗ owns (c : Thread nD τ) arg5 fullShare (k1_pay2 (View.ld x0 r1_a) (View.ld x1 (rH1 i)) (k1_pay1 (F := F)))) -∗ K ⟨⟩))
      ⊢ wp frame (wpE (defs₀ (F := F)) Variants.none c none) E (cc1__spmm_kernel i arg2 harg2 arg3 harg3 arg4 harg4 arg5 harg5) K := by
  simp only [cc1__spmm_kernel_eq_skeleton]; unfold cc1__spmm_kernel_skel
  unfold owns
  iintro ⟨⟨%f0, %hf0, H0⟩, ⟨%f1, %hf1, H1⟩, ⟨%ds, %fs, -, HS⟩, Hk⟩
  obtain rfl := harg2.eq_unread hf0; obtain rfl := harg3.eq_unread hf1
  sl_exec (disch := first | exact hc0 | exact hc1)
  sl_step
  unfold kern1_A.sl.v10 kern1_A.sl.HS_1
  iapply Hk
  isplitl [H0]
  · iexists _; isplitr; · ipureintro; exact harg2.read_unread _
    iexact H0
  isplitl [H1]
  · iexists _; isplitr; · ipureintro; exact harg3.read_unread _
    iexact H1
  iexists _; isplitr
  swap; · iexact HS
  ipureintro
  rw [View.read_writes_eq_canon _ _ _ (cover1 _ _), View.canon_cons_unit_zero (S := S256x512) zeroOff1, pay2_loads1,
    View.readCov_unit_zero (S := S256x512) _ zeroOff1]

set_option maxHeartbeats 1000000 in
/-- `0 < k < 10`: the accumulator, at `xs`, gains this point's product; the output block is not touched. -/
theorem kern1_B (c : Dev nD) (E : Set ℕ) (i : grid1.Coords)
    (arg2 : Memref sig .tc .vmem S256x256 .bf16) (harg2 : arg2.IsWhole)
    (arg3 : Memref sig .tc .vmem S2816x512 .bf16) (harg3 : arg3.IsWhole)
    (arg4 : Memref sig .tc .vmem S256x512 .f32) (harg4 : arg4.IsWhole)
    (arg5 : Memref sig .tc .vmem S256x512 .f32) (harg5 : arg5.IsWhole)
    (hc0 : ¬cond1_0 i) (hc1 : ¬cond1_1 i)
    (x0 : Vec F S256x256 .bf16) (x1 : Vec F S2816x512 .bf16) (xs : Vec F S256x512 .f32)
    (K : PUnit → sProp 𝕄) :
    iprop(owns (c : Thread nD τ) arg2 fullShare x0 ∗ owns (c : Thread nD τ) arg3 fullShare x1
        ∗ owns (c : Thread nD τ) arg5 fullShare xs
        ∗ (iprop(owns (c : Thread nD τ) arg2 fullShare x0 ∗ owns (c : Thread nD τ) arg3 fullShare x1
            ∗ owns (c : Thread nD τ) arg5 fullShare (k1_pay2 (View.ld x0 r1_a) (View.ld x1 (rH1 i)) xs)) -∗ K ⟨⟩))
      ⊢ wp frame (wpE (defs₀ (F := F)) Variants.none c none) E (cc1__spmm_kernel i arg2 harg2 arg3 harg3 arg4 harg4 arg5 harg5) K := by
  simp only [cc1__spmm_kernel_eq_skeleton]; unfold cc1__spmm_kernel_skel
  unfold owns
  iintro ⟨⟨%f0, %hf0, H0⟩, ⟨%f1, %hf1, H1⟩, ⟨%fs, %hfs, HS⟩, Hk⟩
  obtain rfl := harg2.eq_unread hf0; obtain rfl := harg3.eq_unread hf1; obtain rfl := harg5.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  iexists _; isplitr
  swap; · iexact HS
  ipureintro
  rw [View.read_writes_eq_canon _ _ _ (cover1 _ []), View.canon_unit_zero (S := S256x512) zeroOff1, pay2_loads1,
    View.readAt_eq_ld, harg5.read_unread, View.ld_unit_zero (S := S256x512) zeroOff1]

set_option maxHeartbeats 1000000 in
/-- `k = 10`: the accumulator, at `xs`, gains this point's product, and the output block, at anything, is then a
    copy of it. -/
theorem kern1_C (c : Dev nD) (E : Set ℕ) (i : grid1.Coords)
    (arg2 : Memref sig .tc .vmem S256x256 .bf16) (harg2 : arg2.IsWhole)
    (arg3 : Memref sig .tc .vmem S2816x512 .bf16) (harg3 : arg3.IsWhole)
    (arg4 : Memref sig .tc .vmem S256x512 .f32) (harg4 : arg4.IsWhole)
    (arg5 : Memref sig .tc .vmem S256x512 .f32) (harg5 : arg5.IsWhole)
    (hc0 : ¬cond1_0 i) (hc1 : cond1_1 i)
    (x0 : Vec F S256x256 .bf16) (x1 : Vec F S2816x512 .bf16) (xs : Vec F S256x512 .f32)
    (K : PUnit → sProp 𝕄) :
    iprop(owns (c : Thread nD τ) arg2 fullShare x0 ∗ owns (c : Thread nD τ) arg3 fullShare x1
        ∗ (∃ d, owns (c : Thread nD τ) arg4 fullShare d) ∗ owns (c : Thread nD τ) arg5 fullShare xs
        ∗ (iprop(owns (c : Thread nD τ) arg2 fullShare x0 ∗ owns (c : Thread nD τ) arg3 fullShare x1
            ∗ owns (c : Thread nD τ) arg4 fullShare (k1_pay2 (View.ld x0 r1_a) (View.ld x1 (rH1 i)) xs)
            ∗ owns (c : Thread nD τ) arg5 fullShare (k1_pay2 (View.ld x0 r1_a) (View.ld x1 (rH1 i)) xs)) -∗ K ⟨⟩))
      ⊢ wp frame (wpE (defs₀ (F := F)) Variants.none c none) E (cc1__spmm_kernel i arg2 harg2 arg3 harg3 arg4 harg4 arg5 harg5) K := by
  simp only [cc1__spmm_kernel_eq_skeleton]; unfold cc1__spmm_kernel_skel
  unfold owns
  iintro ⟨⟨%f0, %hf0, H0⟩, ⟨%f1, %hf1, H1⟩, ⟨%d4, %f4, -, H4⟩, ⟨%fs, %hfs, HS⟩, Hk⟩
  obtain rfl := harg2.eq_unread hf0; obtain rfl := harg3.eq_unread hf1; obtain rfl := harg5.eq_unread hfs
  sl_exec (disch := first | exact hc0 | exact hc1)
  sl_step
  unfold kern1_C.sl.v19 kern1_C.sl.HS_1
  iapply Hk
  isplitl [H0]
  · iexists _; isplitr; · ipureintro; exact harg2.read_unread _
    iexact H0
  isplitl [H1]
  · iexists _; isplitr; · ipureintro; exact harg3.read_unread _
    iexact H1
  isplitl [H4]
  · iexists _; isplitr
    swap; · iexact H4
    ipureintro
    rw [View.read_writes_eq_canon _ _ _ (cover1 _ []), View.canon_unit_zero (S := S256x512) zeroOff1,
      View.readCov_unit_zero (S := S256x512) _ zeroOff1, pay2_loads1,
      View.readAt_eq_ld, harg5.read_unread, View.ld_unit_zero (S := S256x512) zeroOff1]
  iexists _; isplitr
  swap; · iexact HS
  ipureintro
  rw [View.read_writes_eq_canon _ _ _ (cover1 _ []), View.canon_unit_zero (S := S256x512) zeroOff1, pay2_loads1,
    View.readAt_eq_ld, harg5.read_unread, View.ld_unit_zero (S := S256x512) zeroOff1]

/-! ## The accumulator at a point, by the point's case -/

/-- Where the reduction coordinate restarts, the accumulator is zero plus this point's product. -/
theorem accAt1_A (c : Dev nD) (t : Fin cfg1.N) (h0 : t.val % 11 = 0) :
    accAt1 V c t.val t.isLt
      = k1_pay2 (View.ld (iblk1 V c 0 t) r1_a) (View.ld (iblk1 V c 1 t) (rH1 (grid1.coords t))) (k1_pay1 (F := F)) := by
  obtain ⟨n, hn⟩ := t
  cases n with
  | zero => rfl
  | succ n =>
    dsimp only at h0
    rw [accAt1_succ, if_pos h0]; rfl

/-- Elsewhere it is what the point before left plus this point's product. -/
theorem accAt1_B (c : Dev nD) (t : Fin cfg1.N) (h0 : ¬t.val % 11 = 0) :
    accAt1 V c t.val t.isLt
      = k1_pay2 (View.ld (iblk1 V c 0 t) r1_a) (View.ld (iblk1 V c 1 t) (rH1 (grid1.coords t)))
          (accAt1 V c (t.val - 1) (Nat.lt_of_le_of_lt (Nat.sub_le _ _) t.isLt)) := by
  obtain ⟨n, hn⟩ := t
  cases n with
  | zero => exact absurd (Nat.zero_mod _) h0
  | succ n =>
    dsimp only at h0
    rw [accAt1_succ, if_neg h0]; rfl

/-! ## The invariant between points -/

/-- The scratch accumulator as a memref. -/
abbrev scM1 : Memref sig .tc .vmem S256x512 .f32 := Memref.whole cc1_scratch0

/-- The core's scoped buffers that this region does not stage: the six staging buffers of the other region, each
    whole at some contents, and the scratch under the clause `S`. -/
def restWith1 (c : Dev nD) (S : sProp 𝕄) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg3_1), ((c : Thread nD τ).loc cc0_stg3_1) ↦{fullShare} f)
    ∗ S)

/-- The class invariant is that rest with the scratch at anything, and the generator register at some state. -/
theorem PhiA1_eq (c : Dev nD) :
    (Pipeline.ΦA spec1 c : sProp 𝕄)
      = iprop(restWith1 c iprop(∃ d, owns (c : Thread nD τ) scM1 fullShare d) ∗ (∃ r, prngReg c r)) := by
  unfold Pipeline.ΦA restWith1; rw [scopedRest1_eq]; simp only [scM1, owns_whole]; try rfl

/-- The invariant before position `n`: the class's before the first point; after point `n - 1` the same with the
    scratch held at that point's accumulator. -/
def PhiS1 (c : Dev nD) : (n : ℕ) → n ≤ cfg1.N → sProp 𝕄
  | 0, _ => Pipeline.ΦA spec1 c
  | n + 1, hn => iprop(restWith1 c (owns (c : Thread nD τ) scM1 fullShare (accAt1 V c n hn)) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn
      = iprop(restWith1 c (owns (c : Thread nD τ) scM1 fullShare (accAt1 V c n hn)) ∗ (∃ r, prngReg c r)) := rfl

theorem PhiS1_pos (c : Dev nD) (n : ℕ) (h : n ≤ cfg1.N) (hz : n ≠ 0) :
    PhiS1 V c n h
      = iprop(restWith1 c (owns (c : Thread nD τ) scM1 fullShare (accAt1 V c (n - 1) (by omega))) ∗ (∃ r, prngReg c r)) := by
  cases n with
  | zero => exact absurd rfl hz
  | succ n => rfl

/-! ## The proof data -/

/-- The proof data of the region on core `c`: the arrays as the region finds them; after the body at point `t` the
    two inputs' buffers at their blocks and the output's at the accumulator; the invariant above; nothing owed; full
    shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => accAt1 V c t.val t.isLt
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = accAt1 V c t.val t.isLt := by dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

/-! ## What the body finds in the input windows' buffers -/

/-- The count matrix's window holds its block at every point (it is fetched at every point). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The resident operand's window holds the whole operand at every point: fetched at the first only, its block index
    never moves and the body leaves it in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point.  The inputs' memrefs hold their blocks; the closed forms of the two conditions say which
    of the three cases the point is in; the invariant hands over the scratch — at anything at the first point, else at
    what the point before left — and takes it back at this point's accumulator; where the output is idle its buffer
    is handed back as found, and where it is live it holds the accumulator. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (st1_0 t) fullShare ((dat1 V c).after 0 t) from by
    unfold Dat.leavesExact; rw [liveAt1_0 t], after1_0]
  rw [show (dat1 V c).leavesExact 1 t = owns (c : Thread nD τ) (st1_1 t) fullShare ((dat1 V c).after 1 t) from by
    unfold Dat.leavesExact; rw [liveAt1_1 t], after1_1]
  have hN : t.val < 121 := lt_of_lt_of_eq t.isLt (show cfg1.N = 121 from N_1)
  by_cases h0 : t.val % 11 = 0
  · have h1 : ¬t.val % 11 = 10 := by omega
    rw [Dat.leavesExact_idle (dat1 V c) 2 t (idleAt1_2 t h1) (noFlush1_2 t h1)]
    rw [accAt1_A V c t h0]
    by_cases hz : t.val = 0
    · rw [PhiS1_castSucc V c t, PhiS1_zero V c _ _ hz, PhiA1_eq]; unfold restWith1
      iintro ⟨⟨⟨R1, R2, R3, R4, R5, R6, HS⟩, Hg⟩, Ho, ⟨%d0, H0⟩, ⟨%d1, H1⟩, H2⟩
      iapply (kern1_A c Set.univ (grid1.coords t) _ _ _ _ _ _ _ _ ((hcond1_0 t).mpr h0) (fun h => h1 ((hcond1_1 t).mp h)) (iblk1 V c 0 t) (iblk1 V c 1 t) _)
      isplitl [H0]; · iexact H0
      isplitl [H1]; · iexact H1
      isplitl [HS]; · iexact HS
      iintro ⟨H0, H1, HS⟩
      isplitl [R1 R2 R3 R4 R5 R6 HS Hg]
      · isplitr [Hg]
        · isplitl [R1]; · iexact R1
          isplitl [R2]; · iexact R2
          isplitl [R3]; · iexact R3
          isplitl [R4]; · iexact R4
          isplitl [R5]; · iexact R5
          isplitl [R6]; · iexact R6
          iexact HS
        iexact Hg
      isplitl [Ho]; · iexact Ho
      isplitl [H0]; · iexact H0
      isplitl [H1]; · iexact H1
      iexact H2
    · rw [PhiS1_castSucc V c t, PhiS1_pos V c _ _ hz]; unfold restWith1
      iintro ⟨⟨⟨R1, R2, R3, R4, R5, R6, HS⟩, Hg⟩, Ho, ⟨%d0, H0⟩, ⟨%d1, H1⟩, H2⟩
      iapply (kern1_A c Set.univ (grid1.coords t) _ _ _ _ _ _ _ _ ((hcond1_0 t).mpr h0) (fun h => h1 ((hcond1_1 t).mp h)) (iblk1 V c 0 t) (iblk1 V c 1 t) _)
      isplitl [H0]; · iexact H0
      isplitl [H1]; · iexact H1
      isplitl [HS]; · iexists _; iexact HS
      iintro ⟨H0, H1, HS⟩
      isplitl [R1 R2 R3 R4 R5 R6 HS Hg]
      · isplitr [Hg]
        · isplitl [R1]; · iexact R1
          isplitl [R2]; · iexact R2
          isplitl [R3]; · iexact R3
          isplitl [R4]; · iexact R4
          isplitl [R5]; · iexact R5
          isplitl [R6]; · iexact R6
          iexact HS
        iexact Hg
      isplitl [Ho]; · iexact Ho
      isplitl [H0]; · iexact H0
      isplitl [H1]; · iexact H1
      iexact H2
  · have hz : t.val ≠ 0 := fun e => h0 (by rw [e])
    rw [accAt1_B V c t h0]
    rw [PhiS1_castSucc V c t, PhiS1_pos V c _ _ hz]
    by_cases h1 : t.val % 11 = 10
    · rw [show (dat1 V c).leavesExact 2 t = owns (c : Thread nD τ) (st1_2 t) fullShare ((dat1 V c).after 2 t) from by
        unfold Dat.leavesExact; rw [liveAt1_2 t h1], after1_2, accAt1_B V c t h0]
      unfold restWith1
      iintro ⟨⟨⟨R1, R2, R3, R4, R5, R6, HS⟩, Hg⟩, Ho, ⟨%d0, H0⟩, ⟨%d1, H1⟩, ⟨%d2, H2⟩⟩
      iapply (kern1_C c Set.univ (grid1.coords t) _ _ _ _ _ _ _ _ (fun h => h0 ((hcond1_0 t).mp h)) ((hcond1_1 t).mpr h1) (iblk1 V c 0 t) (iblk1 V c 1 t) _ _)
      isplitl [H0]; · iexact H0
      isplitl [H1]; · iexact H1
      isplitl [H2]; · iexists _; iexact H2
      isplitl [HS]; · iexact HS
      iintro ⟨H0, H1, H2, HS⟩
      isplitl [R1 R2 R3 R4 R5 R6 HS Hg]
      · isplitr [Hg]
        · isplitl [R1]; · iexact R1
          isplitl [R2]; · iexact R2
          isplitl [R3]; · iexact R3
          isplitl [R4]; · iexact R4
          isplitl [R5]; · iexact R5
          isplitl [R6]; · iexact R6
          iexact HS
        iexact Hg
      isplitl [Ho]; · iexact Ho
      isplitl [H0]; · iexact H0
      isplitl [H1]; · iexact H1
      iexact H2
    · rw [Dat.leavesExact_idle (dat1 V c) 2 t (idleAt1_2 t h1) (noFlush1_2 t h1)]
      unfold restWith1
      iintro ⟨⟨⟨R1, R2, R3, R4, R5, R6, HS⟩, Hg⟩, Ho, ⟨%d0, H0⟩, ⟨%d1, H1⟩, H2⟩
      iapply (kern1_B c Set.univ (grid1.coords t) _ _ _ _ _ _ _ _ (fun h => h0 ((hcond1_0 t).mp h)) (fun h => h1 ((hcond1_1 t).mp h)) (iblk1 V c 0 t) (iblk1 V c 1 t) _ _)
      isplitl [H0]; · iexact H0
      isplitl [H1]; · iexact H1
      isplitl [HS]; · iexact HS
      iintro ⟨H0, H1, HS⟩
      isplitl [R1 R2 R3 R4 R5 R6 HS Hg]
      · isplitr [Hg]
        · isplitl [R1]; · iexact R1
          isplitl [R2]; · iexact R2
          isplitl [R3]; · iexact R3
          isplitl [R4]; · iexact R4
          isplitl [R5]; · iexact R5
          isplitl [R6]; · iexact R6
          iexact HS
        iexact Hg
      isplitl [Ho]; · iexact Ho
      isplitl [H0]; · iexact H0
      isplitl [H1]; · iexact H1
      iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-! ## Entering and leaving the region -/

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point the invariant gives the class invariant back: the accumulator's named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  unfold restWith1
  iintro ⟨⟨R1, R2, R3, R4, R5, R6, HS⟩, Hg⟩
  isplitr [Hg]
  · isplitl [R1]; · iexact R1
    isplitl [R2]; · iexact R2
    isplitl [R3]; · iexact R3
    isplitl [R4]; · iexact R4
    isplitl [R5]; · iexact R5
    isplitl [R6]; · iexact R6
    iexists _; iexact HS
  iexact Hg

/-- The same after the last point. -/
theorem hout1 (c : Dev nD) : (dat1 V c).Φ (Fin.last cfg1.N) ⊢ Pipeline.ΦA spec1 c :=
  Phi_out1 V c _ (by rw [Fin.val_last]; have : cfg1.N = 121 := N_1; omega)

end Cert.KernelIdeal.Frame

end
-- ==== Proof.KI.Run.lean ====
/-
  The kernel program's run, at any float instance: @main as seven items — three stretches of host operations, region 0,
  a stretch, region 1, a last stretch — each entered from what the item before left.  The contents of every unscoped
  buffer at each boundary are named by a fold from the launch memory (`W0` … `W7`: a stretch applies its operations, a
  region replaces its arrays by what its write-backs leave).  Every weakly fair execution terminates with every unscoped
  buffer at `W7`; the arguments, which no item writes, are read back through the fold to their launch contents.
-/
import proofs.«417986_j90340342104697_2_alg».proof.Proof.KI.Region0
import proofs.«417986_j90340342104697_2_alg».proof.Proof.KI.Region1
import proofs.«417986_j90340342104697_2_alg».proof.Proof.Gen.KernelIdeal.Regions

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the constant. -/
abbrev W1 : Dev nD → Valuation τ sig (Elt F) := fun c => StableHlo.after hostOps0 (W0 m ρ c)
/-- After the padding of the features. -/
abbrev W2 : Dev nD → Valuation τ sig (Elt F) := fun c => StableHlo.after hostOps0_1 (W1 m ρ c)
/-- After the weight's change of format: region 0's entry. -/
abbrev W3 : Dev nD → Valuation τ sig (Elt F) := fun c => StableHlo.after hostOps0_2 (W2 m ρ c)
/-- The same read at the TensorCore's references. -/
abbrev U3 : (c : Dev nD) → (b : Ref sig .tc) → Buf (Elt F) ((c : Thread nD τ).loc b) := fun c b => W3 m ρ c b
/-- At region 0's exit: its arrays at what the pipeline leaves, every other buffer as entered. -/
def W4 (c : Dev nD) : Valuation τ sig (Elt F) :=
  Pipeline.withArrays spec0 c (W3 m ρ c) fun w => (dat0 (U3 m ρ) c).arrAt w cfg0.N
theorem W4_arr (c : Dev nD) (w : Fin cfg0.W) :
    W4 m ρ c (Proc.devRef .tc (Pipeline.arrRef spec0 w)) = (dat0 (U3 m ρ) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m ρ c (Proc.devRef .tc b) = W3 m ρ c (Proc.devRef .tc b) := by
  unfold W4; exact Pipeline.withArrays_of_ne spec0 c _ _ b hb
abbrev U4 : (c : Dev nD) → (b : Ref sig .tc) → Buf (Elt F) ((c : Thread nD τ).loc b) := fun c b => W4 m ρ c b
theorem hF0 (c : Dev nD) (w : Fin cfg0.W) : (dat0 (U3 m ρ) c).arrAt w cfg0.N = U4 m ρ c (Pipeline.arrRef spec0 w) :=
  (W4_arr m ρ c w).symm
theorem hrest0 (c : Dev nD) : ∀ b, b ∉ Finset.univ.image (Pipeline.arrRef spec0) → U4 m ρ c b = U3 m ρ c b :=
  fun b hb => W4_of_ne m ρ c b fun w e => hb (Finset.mem_image.mpr ⟨w, Finset.mem_univ _, e⟩)

/-- After the count matrix is built: region 1's entry. -/
abbrev W5 : Dev nD → Valuation τ sig (Elt F) := fun c => StableHlo.after hostOps1 (W4 m ρ c)
abbrev U5 : (c : Dev nD) → (b : Ref sig .tc) → Buf (Elt F) ((c : Thread nD τ).loc b) := fun c b => W5 m ρ c b
/-- At region 1's exit. -/
def W6 (c : Dev nD) : Valuation τ sig (Elt F) :=
  Pipeline.withArrays spec1 c (W5 m ρ c) fun w => (dat1 (U5 m ρ) c).arrAt w cfg1.N
theorem W6_arr (c : Dev nD) (w : Fin cfg1.W) :
    W6 m ρ c (Proc.devRef .tc (Pipeline.arrRef spec1 w)) = (dat1 (U5 m ρ) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m ρ c (Proc.devRef .tc b) = W5 m ρ c (Proc.devRef .tc b) := by
  unfold W6; exact Pipeline.withArrays_of_ne spec1 c _ _ b hb
abbrev U6 : (c : Dev nD) → (b : Ref sig .tc) → Buf (Elt F) ((c : Thread nD τ).loc b) := fun c b => W6 m ρ c b
theorem hF1 (c : Dev nD) (w : Fin cfg1.W) : (dat1 (U5 m ρ) c).arrAt w cfg1.N = U6 m ρ c (Pipeline.arrRef spec1 w) :=
  (W6_arr m ρ c w).symm
theorem hrest1 (c : Dev nD) : ∀ b, b ∉ Finset.univ.image (Pipeline.arrRef spec1) → U6 m ρ c b = U5 m ρ c b :=
  fun b hb => W6_of_ne m ρ c b fun w e => hb (Finset.mem_image.mpr ⟨w, Finset.mem_univ _, e⟩)
/-- After the slice: the return. -/
abbrev W7 : Dev nD → Valuation τ sig (Elt F) := fun c => StableHlo.after hostOps2 (W6 m ρ c)

/-! ## The arguments end as launched -/

/-- A buffer no stretch writes and that is no array of either region reaches the end as launched. -/
theorem W7_of_unwritten (c : Dev nD) (r : Ref sig .tc) (h0 : r ∉ hostOps0_W) (h1 : r ∉ hostOps0_1_W) (h2 : r ∉ hostOps0_2_W)
    (h3 : ∀ w, Pipeline.arrRef spec0 w ≠ r) (h4 : r ∉ hostOps1_W) (h5 : ∀ w, Pipeline.arrRef spec1 w ≠ r) (h6 : r ∉ hostOps2_W) :
    W7 m ρ c (Proc.devRef .tc r) = m ((c : Thread nD τ).loc r) :=
  calc W7 m ρ c (Proc.devRef .tc r)
    _ = W6 m ρ c (Proc.devRef .tc r) := StableHlo.after_of_writes_sub hostOps2 _ hostOps2_writes h6
    _ = W5 m ρ c (Proc.devRef .tc r) := W6_of_ne m ρ c r h5
    _ = W4 m ρ c (Proc.devRef .tc r) := StableHlo.after_of_writes_sub hostOps1 _ hostOps1_writes h4
    _ = W3 m ρ c (Proc.devRef .tc r) := W4_of_ne m ρ c r h3
    _ = W2 m ρ c (Proc.devRef .tc r) := StableHlo.after_of_writes_sub hostOps0_2 _ hostOps0_2_writes h2
    _ = W1 m ρ c (Proc.devRef .tc r) := StableHlo.after_of_writes_sub hostOps0_1 _ hostOps0_1_writes h1
    _ = W0 m ρ c (Proc.devRef .tc r) := StableHlo.after_of_writes_sub hostOps0 _ hostOps0_writes h0
    _ = m ((c : Thread nD τ).loc r) := rfl

theorem W7_main_arg0 (c : Dev nD) : W7 m ρ c (Proc.devRef .tc main_arg0) = m ((c : Thread nD τ).loc main_arg0) :=
  W7_of_unwritten m ρ c main_arg0 (by decide) (by decide) (by decide) (by decide) (by decide) (by decide) (by decide)
theorem W7_main_arg1 (c : Dev nD) : W7 m ρ c (Proc.devRef .tc main_arg1) = m ((c : Thread nD τ).loc main_arg1) :=
  W7_of_unwritten m ρ c main_arg1 (by decide) (by decide) (by decide) (by decide) (by decide) (by decide) (by decide)
theorem W7_main_arg2 (c : Dev nD) : W7 m ρ c (Proc.devRef .tc main_arg2) = m ((c : Thread nD τ).loc main_arg2) :=
  W7_of_unwritten m ρ c main_arg2 (by decide) (by decide) (by decide) (by decide) (by decide) (by decide) (by decide)
/-- The bias is an input array of region 0: it passes through that region as entered. -/
theorem W7_main_arg3 (c : Dev nD) : W7 m ρ c (Proc.devRef .tc main_arg3) = m ((c : Thread nD τ).loc main_arg3) :=
  calc W7 m ρ c (Proc.devRef .tc main_arg3)
    _ = W6 m ρ c (Proc.devRef .tc main_arg3) := StableHlo.after_of_writes_sub hostOps2 _ hostOps2_writes (by decide)
    _ = W5 m ρ c (Proc.devRef .tc main_arg3) := W6_of_ne m ρ c main_arg3 (by decide)
    _ = W4 m ρ c (Proc.devRef .tc main_arg3) := StableHlo.after_of_writes_sub hostOps1 _ hostOps1_writes (by decide)
    _ = W3 m ρ c (Proc.devRef .tc main_arg3) := (W4_arr m ρ c 2).trans (((dat0 (U3 m ρ) c).arrAt_in 2 rfl _).trans (A_eq0 (U3 m ρ) c 2))
    _ = W2 m ρ c (Proc.devRef .tc main_arg3) := StableHlo.after_of_writes_sub hostOps0_2 _ hostOps0_2_writes (by decide)
    _ = W1 m ρ c (Proc.devRef .tc main_arg3) := StableHlo.after_of_writes_sub hostOps0_1 _ hostOps0_1_writes (by decide)
    _ = W0 m ρ c (Proc.devRef .tc main_arg3) := StableHlo.after_of_writes_sub hostOps0 _ hostOps0_writes (by decide)
    _ = m ((c : Thread nD τ).loc main_arg3) := rfl

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (U3 m ρ) c
  | ⟨1, _⟩ => fun c => dat1 (U5 m ρ) c
abbrev 𝒱₀ : Variants := Variants.none
/-- No core owes another anything. -/
abbrev L : GSem nD τ sig → Finset Unit := fun _ => ∅
abbrev lv : GSem nD τ sig → Unit → ℕ := fun _ _ => 0
/-- What rides beside the buffers through every item: the generator register at some state and the core owing nothing. -/
abbrev R (c : Dev nD) : sProp 𝕄 := iprop((∃ r, prngReg c r) ∗ ∃ W, owes (c : Thread nD τ) (0 : CellTallies nD τ sig Unit) W)
/-- A stretch of host operations as an item, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues. -/
abbrev Tₙ (c : Dev nD) : sProp 𝕄 := StableHlo.held (c : Thread nD τ) (Pipeline.ucRefs τ sig) (W7 m ρ c)

/-! ## The regions as items -/

set_option backward.isDefEq.respectTransparency.types false in
/-- Region 0: entered from every unscoped buffer at `W3`, left at `W4`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U3 m ρ) c).loose
  hwaits := Pipeline.hwaits_of_owed_zero _ _ _ _ L lv 0 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec0 c (U3 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (U3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (U3 m ρ c) (U4 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1: entered from every unscoped buffer at `W5`, left at `W6`; the accumulator's scratch enters the region's
    invariant among the scoped buffers and is given back among them. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (U5 m ρ) c).loose
  hwaits := Pipeline.hwaits_of_owed_zero _ _ _ _ L lv 1 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec1 c (U5 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (U5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = (dat1 (U5 m ρ) c).Φ 0 from rfl]
    have h := hin1 (U5 m ρ) c
    unfold Pipeline.ΦA at h
    iintro ⟨Hp, -, Hr⟩
    iapply h
    isplitl [Hr]; · iexact Hr
    iexact Hp
  hout c := by
    rw [Pipeline.ownSems0_none, show (pdats m ρ 1 c).Φ (Fin.last _) = (dat1 (U5 m ρ) c).Φ (Fin.last cfg1.N) from rfl]
    have h := hout1 (U5 m ρ) c
    unfold Pipeline.ΦA at h
    iintro HΦ
    ihave H := h $$ HΦ
    icases H with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (U5 m ρ c) (U6 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as items, and the launch -/

/-- @main's seven items in order. -/
abbrev items : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (reg0 m ρ),
    .host (hseg hostOps1 hostOps1_sub hostOps1_fresh (W4 m ρ)),
    .region (reg1 m ρ),
    .host (hseg hostOps2 hostOps2_sub hostOps2_fresh (W6 m ρ)) ]

/-- @main is the run of the items. -/
theorem main_run (c : Dev nD) : main (F := F) c = Pipeline.Seg.run (items m ρ) := (main_chain c).trans (by chain_rfl)

set_option backward.isDefEq.respectTransparency.types false in
/-- THE RUN. From any memory with zero counters every weakly fair execution of @main terminates, nothing faulting, and
    every final state holds every unscoped buffer at the last boundary's contents `W7`. -/
theorem run_vals : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (items m ρ)
    (fun c Q => by rw [main_run m ρ c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c =>
      sep_mono .rfl (show R c ⊢ (iprop(∃ W, owes (c : Thread nD τ) (0 : CellTallies nD τ sig Unit) W) : sProp 𝕄) from by
        iintro ⟨-, HO⟩; iexact HO)⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      unfold Tₙ StableHlo.held
      iintro ⟨Hh, HSI⟩
      imodintro
      iapply (pointsTo_read_all (Pipeline.ucRefs τ sig) (fun b => (((c : Thread nD τ)).1, b)) (W7 m ρ c) s')
      isplitl [Hh] <;> iassumption)
    (hQ := fun s h c => h c)

/-- THE FRAME, at any float instance: the arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_arg0 (by decide))).trans (W7_main_arg0 m ρ c),
     (h c _ (mem_uc main_arg1 (by decide))).trans (W7_main_arg1 m ρ c),
     (h c _ (mem_uc main_arg2 (by decide))).trans (W7_main_arg2 m ρ c),
     (h c _ (mem_uc main_arg3 (by decide))).trans (W7_main_arg3 m ρ c)⟩) (run_vals m ρ)

end Cert.KernelIdeal.Frame

end
-- ==== Proof.KI.Pay.lean ====
/-
  The kernel bodies' arithmetic, read at one index, at the ideal values (a float is an extended real and every
  operation is exact, so a narrowing or widening conversion is the identity).

  The linear layer's body multiplies a 256 × 2048 block of features by the transposed 512 × 2048 weight into a zero
  accumulator and adds the bias repeated down the rows: at row `r` and channel `o` that is
  `(∑ i, x[r,i] · w[o,i]) + b[o]`.  The aggregation's body either restarts its accumulator (the zero splat) or adds to
  it a 256 × 256 block of edge counts times 256 rows of the layer's output: at `(r, o)` that is
  `acc[r,o] + ∑ j, a[r,j] · h[j,o]`.

  Each non-pointwise operation gets one small lemma stated at `ix2 r o`: the two products (a sum over the dot's
  one-axis contraction index, carried to a sum over `Fin n` along the coordinate bijection, each operand index then
  computed axis by axis), the bias given a leading unit axis, and its repetition down the rows.  A reshape to the same
  shape is the identity.  The block a region's point leaves (`lin0Out`) is one store over the whole buffer of the
  payload of three loads through whole-buffer rectangles, so it is the payload of the buffers themselves.
-/
import proofs.«417986_j90340342104697_2_alg».proof.Proof.KI.Defs
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Frame

open Cert.KernelIdeal Cert.KernelIdeal.Gen
open Idealize.ShloMosaic Idealize.ShloMosaic.TcCoe Idealize.ShloMosaic.ValueIdx
open Idealize.SL Idealize.SL.Sem

namespace Pay

/-! ### The first product: rows of the left operand against rows of the right (axis 1 with axis 1) -/

theorem lhsA_0 (i : S256x512.Idx) (q : dot_S256x2048_S512x2048_S256x512_1_1_0_0_n_n.contr.Idx) :
    (dot_S256x2048_S512x2048_S256x512_1_1_0_0_n_n.lhsIdx i q 0).val = (i 0).val := by
  unfold DotDims.lhsIdx
  rw [dif_neg (show ¬(0 : Fin S256x2048.rank) ∈ dot_S256x2048_S512x2048_S256x512_1_1_0_0_n_n.lhsBatch by decide), dif_pos (show (0 : Fin S256x2048.rank) ∈ dot_S256x2048_S512x2048_S256x512_1_1_0_0_n_n.lhsNonContracting by decide)]
  rfl
theorem lhsA_1 (i : S256x512.Idx) (q : dot_S256x2048_S512x2048_S256x512_1_1_0_0_n_n.contr.Idx) :
    (dot_S256x2048_S512x2048_S256x512_1_1_0_0_n_n.lhsIdx i q 1).val = (q ⟨0, by decide⟩).val :=
  dot_S256x2048_S512x2048_S256x512_1_1_0_0_n_n.lhsIdx_val_of_single rfl i q
theorem rhsA_0 (i : S256x512.Idx) (q : dot_S256x2048_S512x2048_S256x512_1_1_0_0_n_n.contr.Idx) :
    (dot_S256x2048_S512x2048_S256x512_1_1_0_0_n_n.rhsIdx i q 0).val = (i 1).val := by
  unfold DotDims.rhsIdx
  rw [dif_neg (show ¬(0 : Fin S512x2048.rank) ∈ dot_S256x2048_S512x2048_S256x512_1_1_0_0_n_n.rhsBatch by decide), dif_pos (show (0 : Fin S512x2048.rank) ∈ dot_S256x2048_S512x2048_S256x512_1_1_0_0_n_n.rhsNonContracting by decide)]
  rfl
theorem rhsA_1 (i : S256x512.Idx) (q : dot_S256x2048_S512x2048_S256x512_1_1_0_0_n_n.contr.Idx) :
    (dot_S256x2048_S512x2048_S256x512_1_1_0_0_n_n.rhsIdx i q 1).val = (q ⟨0, by decide⟩).val :=
  dot_S256x2048_S512x2048_S256x512_1_1_0_0_n_n.rhsIdx_val_of_single rfl i q

/-- The product into the zero accumulator, read at row `r`, column `o`: the row of the left operand against the
    row of the right. -/
theorem matmulA_apply (a : FVec Ideal S256x2048 .bf16) (b : FVec Ideal S512x2048 .bf16) (r : Fin 256) (o : Fin 512) :
    matmul (F := Ideal) dot_S256x2048_S512x2048_S256x512_1_1_0_0_n_n none a b (constant (F := Ideal) S256x512 .f32 0x00000000#32) (ix2 r o)
      = ∑ k : Fin 2048, a (ix2 r k) * b (ix2 o k) := by
  simp only [matmul]
  rw [Ideal.matmul_constant_zero_apply, ← Equiv.sum_comp (ValueIdx.contrEquiv1 dot_S256x2048_S512x2048_S256x512_1_1_0_0_n_n 2048 rfl rfl).symm]
  refine Finset.sum_congr rfl fun k _ => ?_
  have hk := ValueIdx.contrEquiv1_symm_val dot_S256x2048_S512x2048_S256x512_1_1_0_0_n_n 2048 rfl rfl k
  have el : dot_S256x2048_S512x2048_S256x512_1_1_0_0_n_n.lhsIdx (ix2 r o) ((ValueIdx.contrEquiv1 dot_S256x2048_S512x2048_S256x512_1_1_0_0_n_n 2048 rfl rfl).symm k) = ix2 r k := funext fun a => Fin.ext (by
    match a with
    | ⟨0, _⟩ => exact lhsA_0 _ _
    | ⟨1, _⟩ => exact (lhsA_1 _ _).trans hk)
  have er : dot_S256x2048_S512x2048_S256x512_1_1_0_0_n_n.rhsIdx (ix2 r o) ((ValueIdx.contrEquiv1 dot_S256x2048_S512x2048_S256x512_1_1_0_0_n_n 2048 rfl rfl).symm k) = ix2 o k := funext fun a => Fin.ext (by
    match a with
    | ⟨0, _⟩ => exact rhsA_0 _ _
    | ⟨1, _⟩ => exact (rhsA_1 _ _).trans hk)
  rw [el, er]

/-! ### The second product: rows of the left operand against columns of the right (axis 1 with axis 0) -/

theorem lhsB_0 (i : S256x512.Idx) (q : dot_S256x256_S256x512_S256x512_1_0_0_1_n_n.contr.Idx) :
    (dot_S256x256_S256x512_S256x512_1_0_0_1_n_n.lhsIdx i q 0).val = (i 0).val := by
  unfold DotDims.lhsIdx
  rw [dif_neg (show ¬(0 : Fin S256x256.rank) ∈ dot_S256x256_S256x512_S256x512_1_0_0_1_n_n.lhsBatch by decide), dif_pos (show (0 : Fin S256x256.rank) ∈ dot_S256x256_S256x512_S256x512_1_0_0_1_n_n.lhsNonContracting by decide)]
  rfl
theorem lhsB_1 (i : S256x512.Idx) (q : dot_S256x256_S256x512_S256x512_1_0_0_1_n_n.contr.Idx) :
    (dot_S256x256_S256x512_S256x512_1_0_0_1_n_n.lhsIdx i q 1).val = (q ⟨0, by decide⟩).val :=
  dot_S256x256_S256x512_S256x512_1_0_0_1_n_n.lhsIdx_val_of_single rfl i q
theorem rhsB_0 (i : S256x512.Idx) (q : dot_S256x256_S256x512_S256x512_1_0_0_1_n_n.contr.Idx) :
    (dot_S256x256_S256x512_S256x512_1_0_0_1_n_n.rhsIdx i q 0).val = (q ⟨0, by decide⟩).val :=
  dot_S256x256_S256x512_S256x512_1_0_0_1_n_n.rhsIdx_val_of_single rfl i q
theorem rhsB_1 (i : S256x512.Idx) (q : dot_S256x256_S256x512_S256x512_1_0_0_1_n_n.contr.Idx) :
    (dot_S256x256_S256x512_S256x512_1_0_0_1_n_n.rhsIdx i q 1).val = (i 1).val := by
  unfold DotDims.rhsIdx
  rw [dif_neg (show ¬(1 : Fin S256x512.rank) ∈ dot_S256x256_S256x512_S256x512_1_0_0_1_n_n.rhsBatch by decide), dif_pos (show (1 : Fin S256x512.rank) ∈ dot_S256x256_S256x512_S256x512_1_0_0_1_n_n.rhsNonContracting by decide)]
  rfl

/-- The product into the zero accumulator, read at row `r`, column `o`: the row of the left operand against the
    column of the right. -/
theorem matmulB_apply (a : FVec Ideal S256x256 .bf16) (b : FVec Ideal S256x512 .bf16) (r : Fin 256) (o : Fin 512) :
    matmul (F := Ideal) dot_S256x256_S256x512_S256x512_1_0_0_1_n_n none a b (constant (F := Ideal) S256x512 .f32 0x00000000#32) (ix2 r o)
      = ∑ k : Fin 256, a (ix2 r k) * b (ix2 k o) := by
  simp only [matmul]
  rw [Ideal.matmul_constant_zero_apply, ← Equiv.sum_comp (ValueIdx.contrEquiv1 dot_S256x256_S256x512_S256x512_1_0_0_1_n_n 256 rfl rfl).symm]
  refine Finset.sum_congr rfl fun k _ => ?_
  have hk := ValueIdx.contrEquiv1_symm_val dot_S256x256_S256x512_S256x512_1_0_0_1_n_n 256 rfl rfl k
  have el : dot_S256x256_S256x512_S256x512_1_0_0_1_n_n.lhsIdx (ix2 r o) ((ValueIdx.contrEquiv1 dot_S256x256_S256x512_S256x512_1_0_0_1_n_n 256 rfl rfl).symm k) = ix2 r k := funext fun a => Fin.ext (by
    match a with
    | ⟨0, _⟩ => exact lhsB_0 _ _
    | ⟨1, _⟩ => exact (lhsB_1 _ _).trans hk)
  have er : dot_S256x256_S256x512_S256x512_1_0_0_1_n_n.rhsIdx (ix2 r o) ((ValueIdx.contrEquiv1 dot_S256x256_S256x512_S256x512_1_0_0_1_n_n 256 rfl rfl).symm k) = ix2 k o := funext fun a => Fin.ext (by
    match a with
    | ⟨0, _⟩ => exact (rhsB_0 _ _).trans hk
    | ⟨1, _⟩ => exact rhsB_1 _ _)
  rw [el, er]

/-! ### The bias: a vector given a leading unit axis, then repeated down the rows -/

/-- The bias with a leading unit axis reads the bias at the column. -/
theorem bias_row_apply (b : Vec Ideal S512 .f32) (p : Fin 1) (o : Fin 512) :
    shapeCast S1x512 b shapeCasts_S512_S1x512 (ix2 p o) = b (ix1 o) := by
  refine (shapeCast_addUnit_apply ![512] b shapeCasts_S512_S1x512 (ix2 p o)).trans ?_
  exact congrArg b (funext fun a => match a with | ⟨0, _⟩ => rfl)

/-- Repeated down the rows it reads the bias at the column, whatever the row. -/
theorem bias_bcast_apply (b : Vec Ideal S512 .f32) (r : Fin 256) (o : Fin 512) :
    broadcastTo S256x512 (shapeCast S1x512 b shapeCasts_S512_S1x512) broadcasts_S1x512_S256x512 (ix2 r o) = b (ix1 o) := by
  refine (broadcastTo_apply _ broadcasts_S1x512_S256x512 (ix2 r o) (ix2 (0 : Fin 1) o) (fun a => match a with
    | ⟨0, _⟩ => by show 0 = if (1 : Nat) = 1 then 0 else _; rw [if_pos rfl]
    | ⟨1, _⟩ => by show o.val = if (512 : Nat) = 1 then 0 else o.val; rw [if_neg (by decide)])).trans ?_
  exact bias_row_apply b 0 o

/-! ### The block a point of the linear layer leaves -/

/-- The offsets of a whole-buffer rectangle are all zero (rank 2, rank 1). -/
theorem hz2 : (![0, 0] : Fin 2 → Nat) = fun _ => 0 := funext fun a => by fin_cases a <;> rfl
theorem hz1 : (![0] : Fin 1 → Nat) = fun _ => 0 := funext fun a => by fin_cases a; rfl

/-- One store over the whole output buffer of the payload of three whole-buffer loads: the payload of the buffers. -/
theorem lin0Out_eq (x0 : Vec Ideal S256x2048 .f32) (x1 : Vec Ideal S512x2048 .bf16) (x2 : Vec Ideal S512 .f32) :
    lin0Out (F := Ideal) x0 x1 x2 = k0_pay1 (F := Ideal) x0 x1 x2 := by
  unfold lin0Out
  rw [View.canon_unit_zero hz2, View.ld_unit_zero (S := S256x2048) hz2, View.ld_unit_zero (S := S512x2048) hz2,
    View.ld_unit_zero (S := S512) hz1]

end Pay

open Pay

/-- The linear layer's payload at row `r`, channel `o`: the row of the features against the row of the weight, plus
    the bias at the channel. -/
theorem k0_pay1_apply (v0 : Vec Ideal S256x2048 .f32) (v3 : Vec Ideal S512x2048 .bf16) (v6 : Vec Ideal S512 .f32) (r : Fin 256) (o : Fin 512) :
    k0_pay1 (F := Ideal) v0 v3 v6 (ix2 r o) = (∑ i : Fin 2048, v0 (ix2 r i) * v3 (ix2 o i)) + v6 (ix1 o) := by
  unfold k0_pay1
  show matmul (F := Ideal) dot_S256x2048_S512x2048_S256x512_1_1_0_0_n_n none
        (truncf .bf16 (shapeCast S256x2048 v0 shapeCasts_S256x2048_S256x2048) bitsLt_bf16_f32)
        (shapeCast S512x2048 v3 shapeCasts_S512x2048_S512x2048) (constant (F := Ideal) S256x512 .f32 0x00000000#32) (ix2 r o)
      + broadcastTo S256x512 (shapeCast S1x512 v6 shapeCasts_S512_S1x512) broadcasts_S1x512_S256x512 (ix2 r o) = _
  rw [shapeCast_self v0, shapeCast_self v3, matmulA_apply, bias_bcast_apply]
  rfl

/-- The accumulator's restart value is zero everywhere. -/
theorem k1_pay1_apply (j : S256x512.Idx) : k1_pay1 (F := Ideal) j = 0 := by
  unfold k1_pay1
  rw [shapeCast_self]
  exact Ideal.ofBits_zero_f32

/-- The accumulation step at row `r`, channel `o`: what was there plus the row of the count block against the
    column of the layer's rows. -/
theorem k1_pay2_apply (v3 : Vec Ideal S256x256 .bf16) (v8 : Vec Ideal S256x512 .bf16) (v10 : Vec Ideal S256x512 .f32) (r : Fin 256) (o : Fin 512) :
    k1_pay2 (F := Ideal) v3 v8 v10 (ix2 r o) = v10 (ix2 r o) + ∑ j : Fin 256, v3 (ix2 r j) * v8 (ix2 j o) := by
  unfold k1_pay2
  rw [shapeCast_self, shapeCast_self v3, shapeCast_self v8]
  show v10 (ix2 r o) + matmul (F := Ideal) dot_S256x256_S256x512_S256x512_1_0_0_1_n_n none v3 v8 (constant (F := Ideal) S256x512 .f32 0x00000000#32) (ix2 r o) = _
  rw [matmulB_apply]

/-- The block a point of the linear layer leaves, at row `r`, channel `o`. -/
theorem lin0Out_apply (x0 : Vec Ideal S256x2048 .f32) (x1 : Vec Ideal S512x2048 .bf16) (x2 : Vec Ideal S512 .f32) (r : Fin 256) (o : Fin 512) :
    lin0Out (F := Ideal) x0 x1 x2 (ix2 r o) = (∑ i : Fin 2048, x0 (ix2 r i) * x1 (ix2 o i)) + x2 (ix1 o) := by
  rw [lin0Out_eq]
  exact k0_pay1_apply x0 x1 x2 r o

end Cert.KernelIdeal.Frame

end
-- ==== Proof.KI.Blocks.lean ====
/-
  What each kernel region's blocks are, read at an index off the array the region is entered with, and the closed
  form of region 1's accumulator.

  A window's block at a grid point is a rectangle of its array: on each axis the element at coordinate `y` inside the
  block sits at coordinate `index × size + y` of the array, where `index` is the window's index map at the point.
  The index maps are decided once over the (finite) grids:
    region 0, point `t` of 11: window 0 is rows `256 t … 256 t + 255` of the padded features; windows 1 and 2 are the
      whole weight and the whole bias;
    region 1, point `t = 11 i + k` of 121: window 0 is block `(i, k)` (256 × 256) of the count matrix; window 1 is the
      whole layer output, of which the body loads the 256 rows from `256 k` on.
  The accumulator restarts from zero where `k = 0` and adds one block product per point, so after point `11 i + k` it
  holds `∑ k' ≤ k, ∑ j < 256, A[256 i + r, 256 k' + j] · H[256 k' + j, o]`; at `k = 10` the blocks exhaust the row
  and this is the full product `∑ s < 2816, A[256 i + r, s] · H[s, o]`.
-/
import proofs.«417986_j90340342104697_2_alg».proof.Proof.KI.Defs
import proofs.«417986_j90340342104697_2_alg».proof.Proof.KI.Pay
import Idealize.ShloMosaic.Lib.ValueIdx
import Idealize.ShloMosaic.Lib.Pipeline.Value
import Idealize.ShloMosaic.Lib.Pipeline.FrameBody
import Mathlib.Algebra.BigOperators.Fin
import Mathlib.Logic.Equiv.Fin.Basic

set_option maxRecDepth 16384

noncomputable section

namespace Cert.KernelIdeal.Frame

open Cert.KernelIdeal Cert.KernelIdeal.Gen
open Idealize.ShloMosaic Idealize.ShloMosaic.TcCoe Idealize.ShloMosaic.ValueIdx
open Idealize.SL Idealize.SL.Sem

variable {F : FTy → Type} [FloatOps F]
variable (V : (c : Dev nD) → (b : Ref sig .tc) → Buf (Elt F) ((c : Thread nD τ).loc b))

/-! ## The windows' arrays, by name -/

theorem arrRef0_0 : Pipeline.arrRef spec0 0 = main_v0 := rfl
theorem arrRef0_1 : Pipeline.arrRef spec0 1 = main_v1 := rfl
theorem arrRef0_2 : Pipeline.arrRef spec0 2 = main_arg3 := rfl
theorem arrRef0_3 : Pipeline.arrRef spec0 3 = main_v2 := rfl
theorem arrRef1_0 : Pipeline.arrRef spec1 0 = main_v23 := rfl
theorem arrRef1_1 : Pipeline.arrRef spec1 1 = main_v2 := rfl
theorem arrRef1_2 : Pipeline.arrRef spec1 2 = main_v24 := rfl

/-! ## The grids' sizes as numbers, and the bounds the array coordinates need -/

theorem lt0 (t : Fin cfg0.N) : t.val < 11 := lt_of_lt_of_eq t.isLt N_0
theorem lt1 (t : Fin cfg1.N) : t.val < 121 := lt_of_lt_of_eq t.isLt N_1

/-- Row `256 t + r` is a row of the padded features. -/
theorem row0_lt (t : Fin cfg0.N) (r : Fin 256) : 256 * t.val + r.val < 2816 := by
  have := lt0 t; have := r.isLt; omega
/-- Row `256 (t / 11) + r` is a row of the count matrix. -/
theorem blkrow1_lt (t : Fin cfg1.N) (r : Fin 256) : 256 * (t.val / 11) + r.val < 2816 := by
  have := lt1 t; have := r.isLt; omega
/-- Column `256 (t % 11) + j` is a column of the count matrix (and a row of the layer output). -/
theorem blkcol1_lt (t : Fin cfg1.N) (j : Fin 256) : 256 * (t.val % 11) + j.val < 2816 := by
  have := lt1 t; have := j.isLt; omega
/-- The same two bounds at a position given as a natural number. -/
theorem rowN_lt (n : ℕ) (hn : n < cfg1.N) (r : Fin 256) : 256 * (n / 11) + r.val < 2816 := blkrow1_lt ⟨n, hn⟩ r
theorem colK_lt (k' : ℕ) (h : k' < 11) (j : Fin 256) : 256 * k' + j.val < 2816 := by
  have := j.isLt; omega

/-! ## The index maps, decided over the grids -/

theorem idx0_0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem idx0_1 : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)
theorem idx0_2 : ∀ t : Fin cfg0.N, win0_2.index t (0 : Fin 1) = 0 :=
  (by decide +kernel : ∀ t : Fin grid0.N, win0_2.index t (0 : Fin 1) = 0)
theorem idx1_0 : ∀ t : Fin cfg1.N, win1_0.index t (0 : Fin 2) = t.val / 11 ∧ win1_0.index t (1 : Fin 2) = t.val % 11 :=
  (by decide +kernel : ∀ t : Fin grid1.N, win1_0.index t (0 : Fin 2) = t.val / 11 ∧ win1_0.index t (1 : Fin 2) = t.val % 11)
theorem idx1_1 : ∀ t : Fin cfg1.N, win1_1.index t (0 : Fin 2) = 0 ∧ win1_1.index t (1 : Fin 2) = 0 :=
  (by decide +kernel : ∀ t : Fin grid1.N, win1_1.index t (0 : Fin 2) = 0 ∧ win1_1.index t (1 : Fin 2) = 0)
/-- The offsets of the body's load of the resident operand: row `256 (t % 11)`, column 0. -/
theorem off1_eq : ∀ t : Fin cfg1.N, k1_off1 (grid1.coords t) (0 : Fin 2) = 256 * (t.val % 11) ∧ k1_off1 (grid1.coords t) (1 : Fin 2) = 0 :=
  (by decide +kernel : ∀ t : Fin grid1.N, k1_off1 (grid1.coords t) (0 : Fin 2) = 256 * (t.val % 11) ∧ k1_off1 (grid1.coords t) (1 : Fin 2) = 0)

/-! ## Region 0's blocks -/

/-- Window 0 at point `t` is rows `256 t … 256 t + 255` of the padded features. -/
theorem iblk0_0_apply (c : Dev nD) (t : Fin cfg0.N) (r : Fin 256) (i : Fin 2048) :
    iblk0 V c 0 t (ix2 r i) = V c main_v0 (ix2 ⟨256 * t.val + r.val, row0_lt t r⟩ i) := by
  unfold iblk0
  show V c main_v0 (((cfg0.win 0).blk t).view.emb (ix2 r i)) = V c main_v0 _
  obtain ⟨e0, e1⟩ := idx0_0 t
  refine congrArg (V c main_v0) ?_
  funext a; apply Fin.ext
  match a with
  | ⟨0, _⟩ => show win0_0.index t (0 : Fin 2) * 256 + 1 * r.val = 256 * t.val + r.val; omega
  | ⟨1, _⟩ => show win0_0.index t (1 : Fin 2) * 2048 + 1 * i.val = i.val; omega

/-- Window 1 is the whole weight at every point. -/
theorem iblk0_1_eq (c : Dev nD) (t : Fin cfg0.N) : (iblk0 V c 1 t : S512x2048.Idx → _) = V c main_v1 := by
  unfold iblk0
  funext j
  show V c main_v1 (((cfg0.win 1).blk t).view.emb j) = V c main_v1 j
  obtain ⟨e0, e1⟩ := idx0_1 t
  refine congrArg (V c main_v1) ?_
  funext a; apply Fin.ext
  match a with
  | ⟨0, _⟩ => show win0_1.index t (0 : Fin 2) * 512 + 1 * (j 0).val = (j 0).val; omega
  | ⟨1, _⟩ => show win0_1.index t (1 : Fin 2) * 2048 + 1 * (j 1).val = (j 1).val; omega

/-- Window 2 is the whole bias at every point. -/
theorem iblk0_2_eq (c : Dev nD) (t : Fin cfg0.N) : (iblk0 V c 2 t : S512.Idx → _) = V c main_arg3 := by
  unfold iblk0
  funext j
  show V c main_arg3 (((cfg0.win 2).blk t).view.emb j) = V c main_arg3 j
  have e0 := idx0_2 t
  refine congrArg (V c main_arg3) ?_
  funext a; apply Fin.ext
  match a with
  | ⟨0, _⟩ => show win0_2.index t (0 : Fin 1) * 512 + 1 * (j 0).val = (j 0).val; omega

/-! ## Region 1's blocks -/

/-- Window 0 at point `t = 11 i + k`, loaded whole, is block `(i, k)` of the count matrix. -/
theorem iblk1_0_apply (c : Dev nD) (t : Fin cfg1.N) (r j : Fin 256) :
    View.ld (iblk1 V c 0 t) r1_a (ix2 r j)
      = V c main_v23 (ix2 ⟨256 * (t.val / 11) + r.val, blkrow1_lt t r⟩ ⟨256 * (t.val % 11) + j.val, blkcol1_lt t j⟩) := by
  unfold iblk1
  show V c main_v23 (((cfg1.win 0).blk t).view.emb (r1_a.idx (ix2 r j))) = V c main_v23 _
  obtain ⟨e0, e1⟩ := idx1_0 t
  refine congrArg (V c main_v23) ?_
  funext a; apply Fin.ext
  match a with
  | ⟨0, _⟩ => show win1_0.index t (0 : Fin 2) * 256 + 1 * (0 + 1 * r.val) = 256 * (t.val / 11) + r.val; omega
  | ⟨1, _⟩ => show win1_0.index t (1 : Fin 2) * 256 + 1 * (0 + 1 * j.val) = 256 * (t.val % 11) + j.val; omega

/-- The rows of the layer output the body loads at point `t = 11 i + k`: rows `256 k … 256 k + 255`. -/
theorem hRows1_apply (c : Dev nD) (t : Fin cfg1.N) (j : Fin 256) (o : Fin 512) :
    hRows1 V c t (ix2 j o) = V c main_v2 (ix2 ⟨256 * (t.val % 11) + j.val, blkcol1_lt t j⟩ o) := by
  unfold hRows1 iblk1
  show V c main_v2 (((cfg1.win 1).blk t).view.emb ((rH1 (grid1.coords t)).idx (ix2 j o))) = V c main_v2 _
  obtain ⟨e0, e1⟩ := idx1_1 t
  obtain ⟨f0, f1⟩ := off1_eq t
  refine congrArg (V c main_v2) ?_
  funext a; apply Fin.ext
  match a with
  | ⟨0, _⟩ => show win1_1.index t (0 : Fin 2) * 2816 + 1 * (k1_off1 (grid1.coords t) (0 : Fin 2) + 1 * j.val) = 256 * (t.val % 11) + j.val; omega
  | ⟨1, _⟩ => show win1_1.index t (1 : Fin 2) * 512 + 1 * (k1_off1 (grid1.coords t) (1 : Fin 2) + 1 * o.val) = o.val; omega

/-! ## The accumulator of region 1 in closed form -/

section Acc

variable (V : (c : Dev nD) → (b : Ref sig .tc) → Buf (Elt Ideal) ((c : Thread nD τ).loc b))

/-- The count matrix read at natural-number coordinates (zero outside the array). -/
def cnt (c : Dev nD) (d s : ℕ) : EReal :=
  if h : d < 2816 ∧ s < 2816 then V c main_v23 (ix2 ⟨d, h.1⟩ ⟨s, h.2⟩) else 0
/-- The layer output read at a natural-number row (zero outside the array). -/
def lay (c : Dev nD) (s : ℕ) (o : Fin 512) : EReal :=
  if h : s < 2816 then V c main_v2 (ix2 ⟨s, h⟩ o) else 0

theorem cnt_eq (c : Dev nD) (d s : ℕ) (hd : d < 2816) (hs : s < 2816) :
    cnt V c d s = V c main_v23 (ix2 ⟨d, hd⟩ ⟨s, hs⟩) := dif_pos ⟨hd, hs⟩
theorem lay_eq (c : Dev nD) (s : ℕ) (hs : s < 2816) (o : Fin 512) :
    lay V c s o = V c main_v2 (ix2 ⟨s, hs⟩ o) := dif_pos hs

/-- One point's update: the carried value plus the product of block `(t / 11, t % 11)` of the count matrix with rows
    `256 (t % 11) …` of the layer output. -/
theorem step1 (c : Dev nD) (t : Fin cfg1.N) (acc : Vec Ideal S256x512 .f32) (r : Fin 256) (o : Fin 512) :
    k1_pay2 (F := Ideal) (View.ld (iblk1 V c 0 t) r1_a) (hRows1 V c t) acc (ix2 r o)
      = acc (ix2 r o) + ∑ j : Fin 256, cnt V c (256 * (t.val / 11) + r.val) (256 * (t.val % 11) + j.val)
          * lay V c (256 * (t.val % 11) + j.val) o := by
  refine (k1_pay2_apply _ _ acc r o).trans ?_
  refine congrArg (acc (ix2 r o) + ·) ?_
  refine Finset.sum_congr rfl fun j _ => ?_
  rw [cnt_eq V c _ _ (blkrow1_lt t r) (blkcol1_lt t j), lay_eq V c _ (blkcol1_lt t j) o]
  exact congrArg₂ (· * ·) (iblk1_0_apply V c t r j) (hRows1_apply V c t j o)

/-- The accumulator at natural-number coordinates: after point `n = 11 i + k` it holds the sum of the products of
    blocks `(i, 0) … (i, k)` with the matching rows of the layer output.  Induction on `n`: where `n % 11 = 0` the sum
    restarts at its one term; elsewhere `n % 11` and the range grow by one and `n / 11` stays. -/
theorem accAt1_nat (c : Dev nD) (n : ℕ) (hn : n < cfg1.N) (r : Fin 256) (o : Fin 512) :
    accAt1 V c n hn (ix2 r o) = ∑ k' ∈ Finset.range (n % 11 + 1), ∑ j : Fin 256,
      cnt V c (256 * (n / 11) + r.val) (256 * k' + j.val) * lay V c (256 * k' + j.val) o := by
  induction n with
  | zero =>
    rw [accAt1_zero]
    refine (step1 V c ⟨0, hn⟩ (k1_pay1 (F := Ideal)) r o).trans ?_
    rw [k1_pay1_apply, zero_add]
    show _ = ∑ k' ∈ Finset.range 1, _
    rw [Finset.sum_range_one]
    rfl
  | succ n ih =>
    rw [accAt1_succ]
    refine (step1 V c ⟨n + 1, hn⟩ _ r o).trans ?_
    show (if (n + 1) % 11 = 0 then (k1_pay1 (F := Ideal)) else accAt1 V c n (Nat.lt_of_succ_lt hn)) (ix2 r o)
        + ∑ j : Fin 256, cnt V c (256 * ((n + 1) / 11) + r.val) (256 * ((n + 1) % 11) + j.val) * lay V c (256 * ((n + 1) % 11) + j.val) o = _
    by_cases h : (n + 1) % 11 = 0
    · rw [if_pos h, k1_pay1_apply, zero_add, h]
      show _ = ∑ k' ∈ Finset.range 1, _
      rw [Finset.sum_range_one]
    · rw [if_neg h, ih (Nat.lt_of_succ_lt hn)]
      have e1 : (n + 1) % 11 = n % 11 + 1 := by omega
      have e2 : (n + 1) / 11 = n / 11 := by omega
      rw [e1, e2]
      exact (Finset.sum_range_succ _ _).symm

/-- THE ACCUMULATOR IN CLOSED FORM: after point `n = 11 i + k` it holds the products of blocks `(i, 0) … (i, k)`. -/
theorem accAt1_apply (c : Dev nD) (n : ℕ) (hn : n < cfg1.N) (r : Fin 256) (o : Fin 512) :
    accAt1 V c n hn (ix2 r o) = ∑ k' ∈ Finset.range (n % 11 + 1), if h : k' < 11 then ∑ j : Fin 256,
        @HMul.hMul EReal EReal EReal instHMul
          (V c main_v23 (ix2 ⟨256 * (n / 11) + r.val, rowN_lt n hn r⟩ ⟨256 * k' + j.val, colK_lt k' h j⟩))
          (V c main_v2 (ix2 ⟨256 * k' + j.val, colK_lt k' h j⟩ o)) else 0 := by
  rw [accAt1_nat V c n hn r o]
  refine Finset.sum_congr rfl fun k' hk => ?_
  have h : k' < 11 := by have := Finset.mem_range.mp hk; omega
  rw [dif_pos h]
  refine Finset.sum_congr rfl fun j _ => ?_
  rw [cnt_eq V c _ _ (rowN_lt n hn r) (colK_lt k' h j), lay_eq V c _ (colK_lt k' h j) o]

/-- Eleven blocks of 256 exhaust the 2816 columns: a sum over block and offset is the sum over the column. -/
theorem sum_blocks (g : ℕ → EReal) :
    ∑ k' ∈ Finset.range 11, ∑ j : Fin 256, g (256 * k' + j.val) = ∑ s : Fin 2816, g s.val := by
  rw [Finset.sum_range, ← Fintype.sum_prod_type' (f := fun (k' : Fin 11) (j : Fin 256) => g (256 * k'.val + j.val))]
  show _ = ∑ s : Fin (11 * 256), g s.val
  refine Fintype.sum_equiv (finProdFinEquiv (m := 11) (n := 256)) _ _ fun p => ?_
  show g (256 * p.1.val + p.2.val) = g (p.2.val + 256 * p.1.val)
  rw [Nat.add_comm]

/-- AT THE LAST POINT OF A ROW OF BLOCKS (`n % 11 = 10`) the accumulator is the whole product of row `256 (n / 11) + r`
    of the count matrix with column `o` of the layer output. -/
theorem accAt1_full (c : Dev nD) (n : ℕ) (hn : n < cfg1.N) (h10 : n % 11 = 10) (r : Fin 256) (o : Fin 512) :
    accAt1 V c n hn (ix2 r o) = ∑ s : Fin 2816, @HMul.hMul EReal EReal EReal instHMul
      (V c main_v23 (ix2 ⟨256 * (n / 11) + r.val, rowN_lt n hn r⟩ s)) (V c main_v2 (ix2 s o)) := by
  rw [accAt1_nat V c n hn r o, h10]
  refine (sum_blocks fun s => cnt V c (256 * (n / 11) + r.val) s * lay V c s o).trans ?_
  refine Finset.sum_congr rfl fun s _ => ?_
  show cnt V c (256 * (n / 11) + r.val) s.val * lay V c s.val o = _
  rw [cnt_eq V c _ _ (rowN_lt n hn r) s.isLt, lay_eq V c _ s.isLt o]

end Acc

end Cert.KernelIdeal.Frame

end
-- ==== Proof.KI.Final.lean ====
/-
  From blocks to arrays, at the ideal values: what each kernel region's output array holds after the region, as one
  whole-array function of the buffer contents `V` the region is entered with.

  Region 0 writes back, at each of its 11 points, one 256-row block of the linear layer: the block at point `t` sits at
  rows `256 t … 256 t + 255`, and what is written there is `(∑ k, x[256 t + r, k] · w[o, k]) + b[o]`, the linear layer
  `linArr x w b` read at that row.  The 11 blocks tile the 2816 rows (row `p` is in the block of point `p / 256`), so the
  array ends holding `linArr x w b` everywhere.

  Region 1 writes back only at the last point of each row of blocks (`t = 11 i + 10`), where the carried accumulator has
  run through all eleven column blocks, which exhaust the 2816 columns: what is written at row `256 i + r`, channel `o`
  is `∑ s, a[256 i + r, s] · h[s, o]`, the product `aggArr a h` read there.  Row `p` is in the block of the flushing
  point `11 (p / 256) + 10`, so the array ends holding `aggArr a h` everywhere.

  Both follow one pattern: the window's index map decided over the grid; a block index carried to its array index;
  what a flushing point writes back as its block of the whole-array function; membership in a block as a range on each
  axis; the cover by arithmetic; the array after the region.
-/
import proofs.«417986_j90340342104697_2_alg».proof.Proof.KI.Region0
import proofs.«417986_j90340342104697_2_alg».proof.Proof.KI.Region1
import proofs.«417986_j90340342104697_2_alg».proof.Proof.KI.Pay
import proofs.«417986_j90340342104697_2_alg».proof.Proof.KI.Blocks
import Idealize.ShloMosaic.Lib.ValueIdx
import Idealize.ShloMosaic.Lib.Pipeline.Value
import Idealize.ShloMosaic.PureOps.Ideal

set_option maxRecDepth 16384

noncomputable section

namespace Cert.KernelIdeal.Frame

open Cert.KernelIdeal Cert.KernelIdeal.Gen
open Idealize.ShloMosaic Idealize.ShloMosaic.TcCoe Idealize.ShloMosaic.ValueIdx
open Idealize.SL Idealize.SL.Sem
open Idealize.ShloMosaic.Pipeline (Dat)

variable (V : (c : Dev nD) → (b : Ref sig .tc) → Buf (Elt Ideal) ((c : Thread nD τ).loc b))

/-! ## The two layers over whole arrays -/

/-- The linear layer: row `i 0` of `x` against row `i 1` of `w`, plus the bias at `i 1`. -/
def linArr (x : S2816x2048.Idx → EReal) (w : S512x2048.Idx → EReal) (b : S512.Idx → EReal) : S2816x512.Idx → EReal :=
  fun i => (∑ k : Fin 2048, x (ix2 (i 0) k) * w (ix2 (i 1) k)) + b (ix1 (i 1))

theorem linArr_apply (x : S2816x2048.Idx → EReal) (w : S512x2048.Idx → EReal) (b : S512.Idx → EReal) (p : Fin 2816) (q : Fin 512) :
    linArr x w b (ix2 p q) = (∑ k : Fin 2048, x (ix2 p k) * w (ix2 q k)) + b (ix1 q) := rfl

/-- The aggregation: row `i 0` of the count matrix `a` against column `i 1` of the layer output `h`. -/
def aggArr (a : S2816x2816.Idx → EReal) (h : S2816x512.Idx → EReal) : S2816x512.Idx → EReal :=
  fun i => ∑ s : Fin 2816, a (ix2 (i 0) s) * h (ix2 s (i 1))

theorem aggArr_apply (a : S2816x2816.Idx → EReal) (h : S2816x512.Idx → EReal) (p : Fin 2816) (q : Fin 512) :
    aggArr a h (ix2 p q) = ∑ s : Fin 2816, a (ix2 p s) * h (ix2 s q) := rfl

/-! ## Region 0 -/

/-- Region 0's output array: the linear layer at every padded row. -/
def H0 (c : Dev nD) : S2816x512.Idx → EReal := linArr (V c main_v0) (V c main_v1) (V c main_arg3)

theorem H0_apply (c : Dev nD) (p : Fin 2816) (q : Fin 512) :
    H0 V c (ix2 p q) = linArr (V c main_v0) (V c main_v1) (V c main_arg3) (ix2 p q) := rfl

/-- The output window's block index at point `t` is `(t, 0)`: decided over the 11 points. -/
theorem outIdx0 : ∀ t : Fin cfg0.N, win0_3.index t (0 : Fin 2) = t.val ∧ win0_3.index t (1 : Fin 2) = 0 :=
  (by decide +kernel : ∀ t : Fin grid0.N, win0_3.index t (0 : Fin 2) = t.val ∧ win0_3.index t (1 : Fin 2) = 0)

/-- Point `t`'s output block sits at rows `256 t …`, all 512 columns. -/
theorem outEmb0 (t : Fin cfg0.N) (r : Fin 256) (o : Fin 512) :
    ((cfg0.win 3).blk t).view.emb (ix2 r o) = ix2 ⟨256 * t.val + r.val, row0_lt t r⟩ o := by
  obtain ⟨e0, e1⟩ := outIdx0 t
  funext a; apply Fin.ext
  match a with
  | ⟨0, _⟩ => show win0_3.index t (0 : Fin 2) * 256 + 1 * r.val = 256 * t.val + r.val; omega
  | ⟨1, _⟩ => show win0_3.index t (1 : Fin 2) * 512 + 1 * o.val = o.val; omega

/-- WHAT POINT `t` WRITES BACK is block `t` of `H0`: the body's store read at row `r`, channel `o` is the linear
    layer of the point's feature rows, and those are rows `256 t + r` of the padded features, where the output block sits. -/
theorem flushed0_eq (c : Dev nD) (t : Fin cfg0.N) :
    (dat0 V c).flushed 3 t = ((cfg0.win 3).blk t).view.read (Elt Ideal) (H0 V c) := by
  show (cfg0.win 3).cut (grid0.coords t) ((dat0 V c).after 3 t) = _
  rw [after0_3]
  funext j
  obtain ⟨r, o, rfl⟩ : ∃ (r : Fin 256) (o : Fin 512), j = ix2 r o := ⟨j 0, j 1, eq_ix2 j⟩
  show lin0Out (F := Ideal) (iblk0 V c 0 t) (iblk0 V c 1 t) (iblk0 V c 2 t) (ix2 r o) = H0 V c (((cfg0.win 3).blk t).view.emb (ix2 r o))
  refine (lin0Out_apply _ _ _ r o).trans ?_
  refine Eq.trans ?_ (congrArg (H0 V c) (outEmb0 t r o)).symm
  refine Eq.trans ?_ (H0_apply V c _ o).symm
  refine Eq.trans ?_ (linArr_apply _ _ _ _ o).symm
  exact congrArg₂ (· + ·)
    (Finset.sum_congr rfl fun k _ => congrArg₂ (· * ·) (iblk0_0_apply V c t r k) (congrFun (iblk0_1_eq V c t) (ix2 o k)))
    (congrFun (iblk0_2_eq V c t) (ix1 o))

/-- An index of the array is in point `t`'s block iff each coordinate is in the block's range on its axis. -/
theorem mem_outBlk0 (t : Fin cfg0.N) (i : S2816x512.Idx) :
    i ∈ ((cfg0.win 3).blk t).view.set ↔ ∀ a : Fin 2, win0_3.index t a * S256x512.size a ≤ (i a).val ∧ (i a).val < win0_3.index t a * S256x512.size a + S256x512.size a := by
  show i ∈ ((View.whole main_v2).slice (win0_3.rect t)).set ↔ _
  rw [View.set_slice_whole, Rect.mem_set_unit]
  exact Iff.rfl

/-- Every row lies in the block of the point `row / 256`. -/
theorem outCover0 (i : S2816x512.Idx) : ∃ t : Fin cfg0.N, (cfg0.win 3).flush t = true ∧ i ∈ ((cfg0.win 3).blk t).view.set := by
  have hi0 : (i 0).val < 2816 := (i 0).isLt
  have hi1 : (i 1).val < 512 := (i 1).isLt
  obtain ⟨t, ht⟩ : ∃ t : Fin cfg0.N, t.val = (i 0).val / 256 :=
    ⟨⟨(i 0).val / 256, by rw [show cfg0.N = 11 from N_0]; omega⟩, rfl⟩
  obtain ⟨e0, e1⟩ := outIdx0 t
  refine ⟨t, flush0_3 t, ?_⟩
  rw [mem_outBlk0]
  intro a
  match a with
  | ⟨0, _⟩ => show win0_3.index t (0 : Fin 2) * 256 ≤ (i 0).val ∧ (i 0).val < win0_3.index t (0 : Fin 2) * 256 + 256; omega
  | ⟨1, _⟩ => show win0_3.index t (1 : Fin 2) * 512 ≤ (i 1).val ∧ (i 1).val < win0_3.index t (1 : Fin 2) * 512 + 512; omega

/-- THE ARRAY after region 0: the linear layer at every padded row. -/
theorem final0 (c : Dev nD) : (dat0 V c).arrAt 3 cfg0.N = H0 V c :=
  (dat0 V c).arrAt_eq_of_cover 3 (H0 V c) (fun t _ => flushed0_eq V c t) outCover0

/-! ## Region 1 -/

/-- Region 1's output array: the count matrix times the layer output. -/
def O1 (c : Dev nD) : S2816x512.Idx → EReal := aggArr (V c main_v23) (V c main_v2)

theorem O1_apply (c : Dev nD) (p : Fin 2816) (q : Fin 512) :
    O1 V c (ix2 p q) = aggArr (V c main_v23) (V c main_v2) (ix2 p q) := rfl

/-- The output window's block index at point `t = 11 i + k` is `(i, 0)`: decided over the 121 points. -/
theorem outIdx1 : ∀ t : Fin cfg1.N, win1_2.index t (0 : Fin 2) = t.val / 11 ∧ win1_2.index t (1 : Fin 2) = 0 :=
  (by decide +kernel : ∀ t : Fin grid1.N, win1_2.index t (0 : Fin 2) = t.val / 11 ∧ win1_2.index t (1 : Fin 2) = 0)

/-- Point `t`'s output block sits at rows `256 (t / 11) …`, all 512 columns. -/
theorem outEmb1 (t : Fin cfg1.N) (r : Fin 256) (o : Fin 512) :
    ((cfg1.win 2).blk t).view.emb (ix2 r o) = ix2 ⟨256 * (t.val / 11) + r.val, blkrow1_lt t r⟩ o := by
  obtain ⟨e0, e1⟩ := outIdx1 t
  funext a; apply Fin.ext
  match a with
  | ⟨0, _⟩ => show win1_2.index t (0 : Fin 2) * 256 + 1 * r.val = 256 * (t.val / 11) + r.val; omega
  | ⟨1, _⟩ => show win1_2.index t (1 : Fin 2) * 512 + 1 * o.val = o.val; omega

/-- WHAT A FLUSHING POINT `t` (the last of its row of blocks, `t % 11 = 10`) WRITES BACK is block `t` of `O1`:
    the accumulator has by then run through all eleven column blocks, which exhaust the 2816 columns. -/
theorem flushed1_eq (c : Dev nD) (t : Fin cfg1.N) (hf : (cfg1.win 2).flush t = true) :
    (dat1 V c).flushed 2 t = ((cfg1.win 2).blk t).view.read (Elt Ideal) (O1 V c) := by
  have h10 : t.val % 11 = 10 := (flush1_2 t).mp hf
  show (cfg1.win 2).cut (grid1.coords t) ((dat1 V c).after 2 t) = _
  rw [after1_2]
  funext j
  obtain ⟨r, o, rfl⟩ : ∃ (r : Fin 256) (o : Fin 512), j = ix2 r o := ⟨j 0, j 1, eq_ix2 j⟩
  show accAt1 V c t.val t.isLt (ix2 r o) = O1 V c (((cfg1.win 2).blk t).view.emb (ix2 r o))
  refine (accAt1_full V c t.val t.isLt h10 r o).trans ?_
  refine Eq.trans ?_ (congrArg (O1 V c) (outEmb1 t r o)).symm
  refine Eq.trans ?_ (O1_apply V c _ o).symm
  exact (aggArr_apply _ _ _ o).symm

/-- An index of the array is in point `t`'s block iff each coordinate is in the block's range on its axis. -/
theorem mem_outBlk1 (t : Fin cfg1.N) (i : S2816x512.Idx) :
    i ∈ ((cfg1.win 2).blk t).view.set ↔ ∀ a : Fin 2, win1_2.index t a * S256x512.size a ≤ (i a).val ∧ (i a).val < win1_2.index t a * S256x512.size a + S256x512.size a := by
  show i ∈ ((View.whole main_v24).slice (win1_2.rect t)).set ↔ _
  rw [View.set_slice_whole, Rect.mem_set_unit]
  exact Iff.rfl

/-- Every row lies in the block of the flushing point `11 (row / 256) + 10`. -/
theorem outCover1 (i : S2816x512.Idx) : ∃ t : Fin cfg1.N, (cfg1.win 2).flush t = true ∧ i ∈ ((cfg1.win 2).blk t).view.set := by
  have hi0 : (i 0).val < 2816 := (i 0).isLt
  have hi1 : (i 1).val < 512 := (i 1).isLt
  obtain ⟨t, ht⟩ : ∃ t : Fin cfg1.N, t.val = 11 * ((i 0).val / 256) + 10 :=
    ⟨⟨11 * ((i 0).val / 256) + 10, by rw [show cfg1.N = 121 from N_1]; omega⟩, rfl⟩
  obtain ⟨e0, e1⟩ := outIdx1 t
  refine ⟨t, (flush1_2 t).mpr (by omega), ?_⟩
  rw [mem_outBlk1]
  intro a
  match a with
  | ⟨0, _⟩ => show win1_2.index t (0 : Fin 2) * 256 ≤ (i 0).val ∧ (i 0).val < win1_2.index t (0 : Fin 2) * 256 + 256; omega
  | ⟨1, _⟩ => show win1_2.index t (1 : Fin 2) * 512 ≤ (i 1).val ∧ (i 1).val < win1_2.index t (1 : Fin 2) * 512 + 512; omega

/-- THE ARRAY after region 1: the count matrix times the layer output. -/
theorem final1 (c : Dev nD) : (dat1 V c).arrAt 2 cfg1.N = O1 V c :=
  (dat1 V c).arrAt_eq_of_cover 2 (O1 V c) (flushed1_eq V c) outCover1

end Cert.KernelIdeal.Frame

end
-- ==== Proof.Spec.lean ====
/-
  The function both programs compute, stated once over literal shapes and with no program in sight.

  A node `n` carries the row `lin x w b n` of the linear layer, `lin x w b n o = (∑ i, x[n,i] · w[o,i]) + b[o]`.
  An edge `e` of `ei` runs from node `ei[0,e]` to node `ei[1,e]`.  The result at row `d` and channel `o` is the
  sum, over the edges whose destination is `d`, of the linear layer at the edge's source:
  `G x ei w b (d, o) = ∑ e, [ei[1,e] = d] · lin x w b ei[0,e] o`.
  `InRange` says every entry of the edge array, read as a natural number, is a node (below 2708): for a 32-bit word
  this is the same as `0 ≤ v < 2708` read signed, since 2708 < 2^31.
-/
import Idealize.ShloMosaic.PureOps.Ideal
import Idealize.ShloMosaic.Lib.ValueIdx

noncomputable section

namespace Cert.Spec

open Idealize.ShloMosaic Idealize.ShloMosaic.ValueIdx

/-- Node features, the edge array, the weight and the bias, as index-to-value functions over literal shapes. -/
abbrev XArr : Type := (⟨2, ![2708, 2048]⟩ : Shape).Idx → EReal
abbrev EArr : Type := (⟨2, ![2, 500000]⟩ : Shape).Idx → BitVec 32
abbrev WArr : Type := (⟨2, ![512, 2048]⟩ : Shape).Idx → EReal
abbrev BArr : Type := (⟨1, ![512]⟩ : Shape).Idx → EReal
abbrev OArr : Type := (⟨2, ![2708, 512]⟩ : Shape).Idx → EReal

/-- The linear layer at node `n`, channel `o`: the row of `x` against the row of `w`, plus the bias. -/
def lin (x : XArr) (w : WArr) (b : BArr) (n : Fin 2708) (o : Fin 512) : EReal :=
  (∑ i : Fin 2048, x (ix2 n i) * w (ix2 o i)) + b (ix1 o)

/-- The source and the destination of edge `e`, as natural numbers. -/
def srcN (ei : EArr) (e : Fin 500000) : ℕ := (ei (ix2 (0 : Fin 2) e)).toNat
def dstN (ei : EArr) (e : Fin 500000) : ℕ := (ei (ix2 (1 : Fin 2) e)).toNat

/-- Every entry of the edge array is a node. -/
def InRange (ei : EArr) : Prop := ∀ j, (ei j).toNat < 2708

/-- Every entry is a real number (neither infinity). -/
def Fin2 {s : Shape} (a : s.Idx → EReal) : Prop := ∀ j, ∃ r : ℝ, a j = (r : EReal)

/-- The aggregated layer: at row `d`, channel `o`, the sum over edges into `d` of the linear layer at the edge's source. -/
def G (x : XArr) (ei : EArr) (w : WArr) (b : BArr) : OArr :=
  fun i => ∑ e : Fin 500000,
    if dstN ei e = (i 0).val then (if h : srcN ei e < 2708 then lin x w b ⟨srcN ei e, h⟩ (i 1) else 0) else 0

end Cert.Spec

end
-- ==== Proof.KI.HostValue.lean ====
/-
  The host stages of the kernel's program, read at an index, at the ideal instance.

  Between its two kernel regions the program computes on the host:
  * the node features padded below with 108 zero rows (2708 rows to 2816);
  * the weight narrowed to a shorter float format, which on extended reals changes nothing;
  * the dense edge-count matrix: from the zero matrix, one scatter-add of ones at the index pairs
    `(ei[1, e], ei[0, e])`, each index first wrapped (`v + 2816` where `v < 0`).  When every entry of the edge array
    is a node, no index is negative, the wrap is the identity, every pair lands inside the matrix, and entry `(d, s)`
    is the number of edges from `s` to `d`;
  * the first 2708 rows of the second region's result.
  Each is stated here for an arbitrary valuation of the buffers before its stretch.
-/
import proofs.«417986_j90340342104697_2_alg».proof.Proof.Gen.KernelIdeal.Launch
import proofs.«417986_j90340342104697_2_alg».proof.Proof.Spec
import Idealize.ShloMosaic.Lib.StableHlo.Run
import Idealize.ShloMosaic.Lib.ValueIdx
import Idealize.ShloMosaic.Lib.ValueLayout
import Idealize.ShloMosaic.Lib.Pipeline.Value
import Idealize.ShloMosaic.Lib.StableHlo.Predicate
import Idealize.ShloMosaic.Lib.KernelVsHost
import Idealize.ShloMosaic.Lib.IdealHost
import Idealize.ShloMosaic.PureOps.Ideal

set_option maxRecDepth 16384

noncomputable section

namespace Cert.KernelIdeal.Frame

open Cert.KernelIdeal Cert.KernelIdeal.Gen
open Idealize.ShloMosaic Idealize.ShloMosaic.TcCoe Idealize.ShloMosaic.ValueIdx
open Idealize.SL Idealize.SL.Sem

namespace HostValue

/-- Operations run one list after another are the concatenated list run once. -/
theorem after_append (l₁ l₂ : List (HloOp τ sig (Elt Ideal))) (V : Valuation τ sig (Elt Ideal)) :
    StableHlo.after (l₁ ++ l₂) V = StableHlo.after l₂ (StableHlo.after l₁ V) := by
  induction l₁ generalizing V with
  | nil => rfl
  | cons op l ih => exact ih _

/-- Row `off 0` of the edge array as a vector, the way the program takes it: a one-row slice, reshaped. -/
abbrev rowOf (off : Fin 2 → ℕ) (h : S2x500000.Slices off S1x500000) (ei : IVec S2x500000 32) : IVec S500000 32 :=
  shapeCast S500000 (extractStridedSlice S1x500000 off ei h) shapeCasts_S1x500000_S500000

/-- The program's wrap of a possibly negative index: `v + 2816` where `v < 0`, else `v`. -/
abbrev wrap (v : IVec S500000 32) : IVec S500000 32 :=
  select (cmpi .slt v (broadcastInDim S500000 ![] bcast_S_S500000 (constantI S_ 32 0#32)))
    (addi v (broadcastInDim S500000 ![] bcast_S_S500000 (constantI S_ 32 2816#32))) v

/-- A vector of indices as a one-column array. -/
abbrev col (v : IVec S500000 32) : IVec S500000x1 32 := broadcastInDim S500000x1 ![0] bcast_S500000_S500000x1_0 v

/-! ## The index array, read at an edge -/

/-- Row `o` of the edge array, taken as the program takes it, is that row. -/
theorem rowOf_apply (o : ℕ) (h : S2x500000.Slices ![o, 0] S1x500000) (ei : IVec S2x500000 32) (e : Fin 500000)
    (r : Fin 2) (hro : r.val = o) : rowOf ![o, 0] h ei (ix1 e) = ei (ix2 r e) := by
  refine (shapeCast_1a_a_apply _ _ e).trans ?_
  exact slice2_axis0_apply o ei h (0 : Fin 1) e r (by rw [hro]; rfl)

/-- An index that is not negative as a signed word is left alone by the wrap. -/
theorem wrap_apply (v : IVec S500000 32) (e : Fin 500000) (hv : (v (ix1 e)).toNat < 2 ^ 31) :
    wrap v (ix1 e) = v (ix1 e) := by
  have hne : ¬ IntOp.cmpi .slt (v (ix1 e)) 0#32 = 1#1 := fun h => by
    have := (StableHlo.Predicate.slt_iff_toNat hv (by decide)).mp h
    simp at this
  show Scalar.select (IntOp.cmpi .slt (v (ix1 e)) 0#32) _ _ = _
  exact if_neg hne

/-- A vector as a column reads, in row `e`, the vector at `e`. -/
theorem col_apply (v : IVec S500000 32) (e : Fin 500000) (z : Fin 1) : col v (ix2 e z) = v (ix1 e) := by
  refine broadcastInDim_apply _ _ _ _ (ix1 e) (fun a => ?_)
  match a with
  | ⟨0, _⟩ => show e.val = if (500000 : ℕ) = 1 then 0 else e.val; rw [if_neg (by decide)]

/-- The index array: the destination column beside the source column. -/
abbrev pairs (dst src : IVec S500000 32) : IVec S500000x2 32 :=
  concatenate S500000x2 1 [⟨S500000x1, col dst⟩, ⟨S500000x1, col src⟩] concatenates_S500000x1_S500000x1_S500000x2_d1

/-- Column 0 of the index array is the first vector … -/
theorem pairs_zero (a b : IVec S500000 32) (e : Fin 500000) : pairs a b (ix2 e (0 : Fin 2)) = a (ix1 e) := by
  refine (concatenate_pair_apply_left (1 : Fin 2) (col a) (col b) concatenates_S500000x1_S500000x1_S500000x2_d1
    (ix2 e (0 : Fin 2)) rfl (ix2 e (0 : Fin 1)) (fun c => ?_)).trans (col_apply a e 0)
  match c with
  | ⟨0, _⟩ => rfl
  | ⟨1, _⟩ => rfl

/-- … and column 1 the second. -/
theorem pairs_one (a b : IVec S500000 32) (e : Fin 500000) : pairs a b (ix2 e (1 : Fin 2)) = b (ix1 e) := by
  refine (concatenate_pair_apply_right (1 : Fin 2) (col a) (col b) concatenates_S500000x1_S500000x1_S500000x2_d1
    (ix2 e (1 : Fin 2)) rfl rfl (ix2 e (0 : Fin 1)) (fun c hc => ?_) rfl).trans (col_apply b e 0)
  match c with
  | ⟨0, _⟩ => rfl
  | ⟨1, _⟩ => exact absurd rfl hc

/-! ## Where an update lands -/

/-- The scatter's dimension numbers: no window axis, both matrix axes inserted, index component `c` for axis `c`,
    the components along the index array's second axis. -/
abbrev sd : ScatterDims S2816x2816 S500000x2 S500000 := scatter_S2816x2816_S500000x2_S500000_n_01_01_1

/-- Update `e` reads component `a` of its start index in row `e`, column `a` of the index array. -/
theorem siIdx_eq (e : Fin 500000) (a : Fin 2) (c : Fin sd.scatterDimsToOperandDims.length) (hc : c.val = a.val) :
    sd.siIdx (ix1 e) c = ix2 e a := by
  funext b
  refine Fin.ext ?_
  match b with
  | ⟨0, _⟩ => rfl
  | ⟨1, _⟩ => exact hc

/-- The start of update `e`'s window on axis `a` is that entry of the index array, read signed. -/
theorem start_eq (idx : IVec S500000x2 32) (e : Fin 500000) (a : Fin 2) :
    sd.start (ix1 e) idx a = (idx (ix2 e a)).toInt := by
  have ha : a ∈ sd.scatterDimsToOperandDims := by
    match a with
    | ⟨0, _⟩ => exact List.mem_cons_self
    | ⟨1, _⟩ => exact List.mem_cons_of_mem _ List.mem_cons_self
  unfold ScatterDims.start
  rw [dif_pos ha]
  refine congrArg (fun k => (idx k).toInt) (siIdx_eq e a _ ?_)
  match a with
  | ⟨0, _⟩ => rfl
  | ⟨1, _⟩ => rfl

/-- Both axes of the matrix are scattered into: an update has no window coordinate. -/
theorem window_eq (e : Fin 500000) (a : Fin 2) : sd.window (ix1 e) a = 0 := by
  match a with
  | ⟨0, _⟩ => rfl
  | ⟨1, _⟩ => rfl

/-- Update `e` lands at the pair its row of the index array names, when both entries are inside the matrix. -/
theorem resultIdx_eq_some_iff (idx : IVec S500000x2 32) (e : Fin 500000) (d s : Fin 2816)
    (hb : ∀ a : Fin 2, (idx (ix2 e a)).toNat < 2816) :
    sd.resultIdx? (ix1 e) idx = some (ix2 d s)
      ↔ (idx (ix2 e (0 : Fin 2))).toNat = d.val ∧ (idx (ix2 e (1 : Fin 2))).toNat = s.val := by
  have hsw : ∀ a : Fin 2, sd.start (ix1 e) idx a + (sd.window (ix1 e) a : ℤ) = ((idx (ix2 e a)).toNat : ℤ) := fun a => by
    have := hb a
    rw [start_eq, window_eq, StableHlo.Predicate.toInt_eq_toNat_of_lt (by omega)]
    simp
  have key : ∀ a : Fin 2, (sd.start (ix1 e) idx a + (sd.window (ix1 e) a : ℤ)).toNat = (idx (ix2 e a)).toNat := fun a => by
    rw [hsw a, Int.toNat_natCast]
  have hin : ∀ a : Fin 2, 0 ≤ sd.start (ix1 e) idx a + (sd.window (ix1 e) a : ℤ)
      ∧ sd.start (ix1 e) idx a + (sd.window (ix1 e) a : ℤ) < (S2816x2816.size a : ℤ) := fun a => by
    have h2 := hb a
    have hsz : S2816x2816.size a = 2816 := by
      match a with
      | ⟨0, _⟩ => rfl
      | ⟨1, _⟩ => rfl
    rw [hsw a, hsz]
    exact ⟨Int.natCast_nonneg _, by exact_mod_cast h2⟩
  unfold ScatterDims.resultIdx?
  split
  · rw [Option.some_inj]
    constructor
    · intro hf
      exact ⟨(key 0).symm.trans (congrArg Fin.val (congrFun hf 0)), (key 1).symm.trans (congrArg Fin.val (congrFun hf 1))⟩
    · rintro ⟨e0, e1⟩
      funext a
      refine Fin.ext ?_
      match a with
      | ⟨0, _⟩ => exact (key 0).trans e0
      | ⟨1, _⟩ => exact (key 1).trans e1
  · next h => exact absurd hin h

/-! ## The count matrix -/

/-- A vector's index set is its one coordinate's range. -/
def idxEquiv1 (n : ℕ) : (⟨1, ![n]⟩ : Shape).Idx ≃ Fin n where
  toFun j := j 0
  invFun := ix1
  left_inv j := (eq_ix1 j).symm
  right_inv _ := rfl

/-- The count matrix as the program spells it over the edge array `ei`: from the zero matrix, one scatter-add of ones at
    the wrapped pairs `(ei[1, e], ei[0, e])`, then the float format narrowed. -/
abbrev countOf (ei : IVec S2x500000 32) : FVec Ideal S2816x2816 .bf16 :=
  truncf .bf16 (Host.scatterAdd (F := Ideal) sd
    (broadcastInDim S2816x2816 ![] bcast_S_S2816x2816 (constant (F := Ideal) S_ .f32 0x00000000#32))
    (pairs (wrap (rowOf ![1, 0] slices_S2x500000_S1x500000_1_0 ei)) (wrap (rowOf ![0, 0] slices_S2x500000_S1x500000_0_0 ei)))
    (broadcastInDim S500000 ![] bcast_S_S500000 (constant (F := Ideal) S_ .f32 0x3F800000#32))) bitsLt_bf16_f32

/-- When every entry of `ei` is a node, no index is negative and every pair is inside the matrix: entry `(d, s)` of the
    count matrix is the number of edges from `s` to `d`. -/
theorem count_pure (ei : IVec S2x500000 32) (hr : Cert.Spec.InRange ei) (d s : Fin 2816) :
    (countOf ei : S2816x2816.Idx → EReal) (ix2 d s)
      = 0 + ∑ _e ∈ Finset.univ.filter (fun e : Fin 500000 => Cert.Spec.dstN ei e = d.val ∧ Cert.Spec.srcN ei e = s.val), (1 : EReal) := by
  -- the two index columns at an edge
  have hd : ∀ e : Fin 500000, wrap (rowOf ![1, 0] slices_S2x500000_S1x500000_1_0 ei) (ix1 e) = ei (ix2 (1 : Fin 2) e) := fun e => by
    have h1 := rowOf_apply 1 slices_S2x500000_S1x500000_1_0 ei e (1 : Fin 2) rfl
    have h2 := hr (ix2 (1 : Fin 2) e)
    rw [wrap_apply _ e (by rw [h1]; omega), h1]
  have hs : ∀ e : Fin 500000, wrap (rowOf ![0, 0] slices_S2x500000_S1x500000_0_0 ei) (ix1 e) = ei (ix2 (0 : Fin 2) e) := fun e => by
    have h1 := rowOf_apply 0 slices_S2x500000_S1x500000_0_0 ei e (0 : Fin 2) rfl
    have h2 := hr (ix2 (0 : Fin 2) e)
    rw [wrap_apply _ e (by rw [h1]; omega), h1]
  show (broadcastInDim S2816x2816 ![] bcast_S_S2816x2816 (constant (F := Ideal) S_ .f32 0x00000000#32)) (ix2 d s)
      + ∑ j ∈ Finset.univ.filter (fun j => sd.resultIdx? j
            (pairs (wrap (rowOf ![1, 0] slices_S2x500000_S1x500000_1_0 ei)) (wrap (rowOf ![0, 0] slices_S2x500000_S1x500000_0_0 ei)))
          = some (ix2 d s)),
          (broadcastInDim S500000 ![] bcast_S_S500000 (constant (F := Ideal) S_ .f32 0x3F800000#32)) j = _
  rw [broadcastInDim_scalar_apply, constant_apply, Ideal.ofBits_zero_f32]
  refine congrArg (fun t : EReal => 0 + t) ?_
  refine Finset.sum_equiv (idxEquiv1 500000) (fun j => ?_) (fun j _ => ?_)
  · obtain ⟨e, rfl⟩ : ∃ e, j = ix1 e := ⟨j 0, eq_ix1 j⟩
    have hb : ∀ a : Fin 2, ((pairs (wrap (rowOf ![1, 0] slices_S2x500000_S1x500000_1_0 ei))
        (wrap (rowOf ![0, 0] slices_S2x500000_S1x500000_0_0 ei))) (ix2 e a)).toNat < 2816 := fun a => by
      match a with
      | ⟨0, _⟩ => have := hr (ix2 (1 : Fin 2) e); rw [show (⟨0, _⟩ : Fin 2) = 0 from rfl, pairs_zero, hd]; omega
      | ⟨1, _⟩ => have := hr (ix2 (0 : Fin 2) e); rw [show (⟨1, _⟩ : Fin 2) = 1 from rfl, pairs_one, hs]; omega
    simp only [Finset.mem_filter, Finset.mem_univ, true_and]
    rw [resultIdx_eq_some_iff _ e d s hb, pairs_zero, pairs_one, hd, hs]
    rfl
  · rw [broadcastInDim_scalar_apply, constant_apply, Ideal.ofBits_one_f32]

/-! ## The stretch that builds the count matrix, cut in two -/

/-- The stretch, cut after its 22nd operation (the two index columns are made; the scatter is to come). -/
theorem after_hostOps1_cut (W : Valuation τ sig (Elt Ideal)) :
    StableHlo.after (hostOps1 (F := Ideal)) W
      = StableHlo.after ((hostOps1 (F := Ideal)).drop 22) (StableHlo.after ((hostOps1 (F := Ideal)).take 22) W) := by
  rw [← after_append, List.take_append_drop]

/-- The last five operations, from any contents: the scatter of ones into what `main_v7` holds, at the pairs the two
    columns `main_v18`, `main_v19` hold. -/
theorem suffix_v23 (V : Valuation τ sig (Elt Ideal)) :
    StableHlo.after ((hostOps1 (F := Ideal)).drop 22) V (Proc.devRef .tc main_v23)
      = truncf .bf16 (Host.scatterAdd (F := Ideal) sd (V (Proc.devRef .tc main_v7) : FVec Ideal S2816x2816 .f32)
          (concatenate S500000x2 1 [⟨S500000x1, (V (Proc.devRef .tc main_v18) : IVec S500000x1 32)⟩,
            ⟨S500000x1, (V (Proc.devRef .tc main_v19) : IVec S500000x1 32)⟩] concatenates_S500000x1_S500000x1_S500000x2_d1)
          (broadcastInDim S500000 ![] bcast_S_S500000 (constant (F := Ideal) S_ .f32 0x3F800000#32))) bitsLt_bf16_f32 := by
  simp only [List.drop_succ_cons, List.drop_zero]
  after_results

/-- After the first 22 operations `main_v7` is the zero matrix … -/
theorem prefix_v7 (W : Valuation τ sig (Elt Ideal)) :
    StableHlo.after ((hostOps1 (F := Ideal)).take 22) W (Proc.devRef .tc main_v7)
      = broadcastInDim S2816x2816 ![] bcast_S_S2816x2816 (constant (F := Ideal) S_ .f32 0x00000000#32) := by
  simp only [List.take_succ_cons, List.take_zero]
  after_results_simp

/-- … `main_v18` the wrapped row 1 of the edge array, as a column … -/
theorem prefix_v18 (W : Valuation τ sig (Elt Ideal)) :
    StableHlo.after ((hostOps1 (F := Ideal)).take 22) W (Proc.devRef .tc main_v18)
      = col (wrap (rowOf ![1, 0] slices_S2x500000_S1x500000_1_0 (W (Proc.devRef .tc main_arg1)))) := by
  simp only [List.take_succ_cons, List.take_zero]
  after_results_simp
  rfl

/-- … and `main_v19` the wrapped row 0. -/
theorem prefix_v19 (W : Valuation τ sig (Elt Ideal)) :
    StableHlo.after ((hostOps1 (F := Ideal)).take 22) W (Proc.devRef .tc main_v19)
      = col (wrap (rowOf ![0, 0] slices_S2x500000_S1x500000_0_0 (W (Proc.devRef .tc main_arg1)))) := by
  simp only [List.take_succ_cons, List.take_zero]
  after_results_simp
  rfl

/-- The whole stretch leaves in `main_v23` the count matrix of the edge array. -/
theorem after_v23 (W : Valuation τ sig (Elt Ideal)) :
    StableHlo.after (hostOps1 (F := Ideal)) W (Proc.devRef .tc main_v23) = countOf (W (Proc.devRef .tc main_arg1)) := by
  rw [after_hostOps1_cut, suffix_v23, prefix_v7, prefix_v18, prefix_v19]

end HostValue

variable (W : Valuation τ sig (Elt Ideal))

/-! ## The padded features -/

/-- Row `s` of the padded features is row `s` of the features where there is one, and zero below. -/
theorem pad_apply (hc : W (Proc.devRef .tc main_c) = constantI S_ 32 0#32) (s : Fin 2816) (i : Fin 2048) :
    (StableHlo.after (hostOps0_1 (F := Ideal)) W (Proc.devRef .tc main_v0) : S2816x2048.Idx → EReal) (ix2 s i)
      = if h : s.val < 2708 then (W (Proc.devRef .tc main_arg0) : S2708x2048.Idx → EReal) (ix2 ⟨s.val, h⟩ i) else (0 : EReal) := by
  have e : StableHlo.after (hostOps0_1 (F := Ideal)) W (Proc.devRef .tc main_v0)
      = pad S2816x2048 ![0, 0] ![108, 0] ![0, 0] (W (Proc.devRef .tc main_arg0))
          (sitofp (F := Ideal) .f32 (W (Proc.devRef .tc main_c))) pads_S2708x2048_S2816x2048_01080_000 h_S_ := by
    after_results; rfl
  rw [e]
  by_cases h : s.val < 2708
  · rw [dif_pos h]
    refine pad_apply_of_inside _ _ _ _ _ _ _ _ (ix2 ⟨s.val, h⟩ i) (fun a => ?_)
    match a with
    | ⟨0, _⟩ => show s.val = 0 + s.val * (0 + 1); omega
    | ⟨1, _⟩ => show i.val = 0 + i.val * (0 + 1); omega
  · rw [dif_neg h]
    refine (pad_apply_of_not_inside _ _ _ _ _ _ _ _ (0 : Fin 2) (fun hin => h ?_)).trans ?_
    · have h3 : (s.val - 0) / (0 + 1) < 2708 := hin.2.2
      simpa using h3
    · show FloatOps.sitofp (F := Ideal) .f32 (W (Proc.devRef .tc main_c) (Shape.Idx.first h_S_)) = 0
      rw [hc]
      exact sitofp_zero

/-! ## The narrowed weight -/

/-- Narrowing the float format is the identity on extended reals: the narrowed weight is the weight. -/
theorem wcast_eq : StableHlo.after (hostOps0_2 (F := Ideal)) W (Proc.devRef .tc main_v1) = W (Proc.devRef .tc main_arg2) := by
  after_results; rfl

/-! ## The result's rows -/

/-- The program's result is the first 2708 rows of the second region's. -/
theorem slice_apply (d : Fin 2708) (o : Fin 512) :
    StableHlo.after (hostOps2 (F := Ideal)) W (Proc.devRef .tc main_v25) (ix2 d o)
      = W (Proc.devRef .tc main_v24) (ix2 ⟨d.val, by omega⟩ o) := by
  have e : StableHlo.after (hostOps2 (F := Ideal)) W (Proc.devRef .tc main_v25)
      = extractStridedSlice S2708x512 ![0, 0] (W (Proc.devRef .tc main_v24)) slices_S2816x512_S2708x512_0_0 := by
    after_results
  rw [e]
  exact slice2_axis0_apply 0 _ _ d o ⟨d.val, by omega⟩ (by show d.val = 0 + d.val; omega)

/-- The stretch that builds the count matrix leaves the first region's result alone. -/
theorem keep_v2 : StableHlo.after (hostOps1 (F := Ideal)) W (Proc.devRef .tc main_v2) = W (Proc.devRef .tc main_v2) := by
  after_results_simp

/-! ## The count matrix the program builds -/

/-- Entry `(d, s)` of the count matrix the program builds is the number of edges from `s` to `d`, when every entry of
    the edge array is a node. -/
theorem count_apply (hr : Cert.Spec.InRange (W (Proc.devRef .tc main_arg1))) (d s : Fin 2816) :
    (StableHlo.after (hostOps1 (F := Ideal)) W (Proc.devRef .tc main_v23) : S2816x2816.Idx → EReal) (ix2 d s)
      = 0 + ∑ _e ∈ Finset.univ.filter (fun e : Fin 500000 =>
          Cert.Spec.dstN (W (Proc.devRef .tc main_arg1)) e = d.val ∧ Cert.Spec.srcN (W (Proc.devRef .tc main_arg1)) e = s.val),
          (1 : EReal) :=
  (congrFun (HostValue.after_v23 W) (ix2 d s)).trans (HostValue.count_pure (W (Proc.devRef .tc main_arg1)) hr d s)

end Cert.KernelIdeal.Frame

end
-- ==== Proof.Algebra.lean ====
/-
  The arithmetic that joins a matrix of counts, multiplied against a table of finite values, to a sum over the
  counted elements, over abstract finite index types and the extended reals.

  On the extended reals `(a + b) * c = a * c + b * c` can fail when `c` is infinite, so nothing here distributes a
  product in the extended reals.  Every value that is multiplied is first written as the image of a real number;
  the identity is proved among the reals, where sums commute and products distribute, and is carried back along
  the inclusion of the reals, which respects `0`, `1`, `+`, `*` and therefore finite sums.
-/
import Mathlib.Data.EReal.Basic
import Mathlib.Algebra.BigOperators.Group.Finset.Basic
import Mathlib.Algebra.BigOperators.Group.Finset.Piecewise
import Mathlib.Algebra.BigOperators.Group.Finset.Sigma
import Mathlib.Algebra.BigOperators.Ring.Finset
import Mathlib.Data.Fintype.BigOperators
import Mathlib.Logic.Equiv.Fin.Basic
import proofs.«417986_j90340342104697_2_alg».proof.Proof.Spec

namespace Cert.Algebra

open Idealize.ShloMosaic Idealize.ShloMosaic.ValueIdx

/-- The inclusion of the reals in the extended reals commutes with finite sums. -/
theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of real numbers, read in the extended reals, is a real number. -/
theorem sum_real {ι : Type} (s : Finset ι) (f : ι → EReal) (hf : ∀ i, ∃ r : ℝ, f i = (r : EReal)) :
    ∃ r : ℝ, ∑ i ∈ s, f i = (r : EReal) := by
  choose g hg using hf
  exact ⟨∑ i ∈ s, g i, by rw [coe_sum]; exact Finset.sum_congr rfl (fun i _ => hg i)⟩

/-- Among the reals: a count, as a sum of ones, times a value, summed over the second coordinate, is the sum of
the value over the counted elements.  The product distributes over the ones, the filter becomes an indicator, the
two sums are exchanged, and for a fixed element exactly one second coordinate survives. -/
theorem count_mul_sum_real {E S : Type} [Fintype E] [Fintype S] [DecidableEq S] (src : E → S) (p : E → Prop)
    [DecidablePred p] (h : S → ℝ) :
    ∑ s : S, (∑ _e ∈ Finset.univ.filter (fun e => p e ∧ src e = s), (1 : ℝ)) * h s
      = ∑ e : E, if p e then h (src e) else 0 := by
  have h1 : ∀ s : S, (∑ _e ∈ Finset.univ.filter (fun e => p e ∧ src e = s), (1 : ℝ)) * h s
      = ∑ e : E, if p e ∧ src e = s then h s else 0 := by
    intro s
    rw [Finset.sum_mul, Finset.sum_filter]
    exact Finset.sum_congr rfl (fun e _ => by rw [one_mul])
  rw [Finset.sum_congr rfl (fun s _ => h1 s), Finset.sum_comm]
  refine Finset.sum_congr rfl (fun e _ => ?_)
  by_cases hp : p e
  · rw [if_pos hp]
    have h2 : ∀ s : S, (if p e ∧ src e = s then h s else 0) = if src e = s then h s else 0 := by
      intro s
      by_cases hs : src e = s
      · rw [if_pos ⟨hp, hs⟩, if_pos hs]
      · rw [if_neg (fun hh => hs hh.2), if_neg hs]
    rw [Finset.sum_congr rfl (fun s _ => h2 s), Finset.sum_ite_eq]
    exact if_pos (Finset.mem_univ _)
  · rw [if_neg hp]
    exact Finset.sum_eq_zero (fun s _ => if_neg (fun hh => hp hh.1))

/-- A count, as a sum of ones, times a finite value, summed over the second coordinate, is the sum of the value over
the counted elements. -/
theorem count_mul_sum {E S : Type} [Fintype E] [Fintype S] [DecidableEq S] (src : E → S) (p : E → Prop)
    [DecidablePred p] (H : S → EReal) (hH : ∀ s, ∃ r : ℝ, H s = (r : EReal)) :
    ∑ s : S, (0 + ∑ _e ∈ Finset.univ.filter (fun e => p e ∧ src e = s), (1 : EReal)) * H s
      = ∑ e : E, if p e then H (src e) else 0 := by
  choose h hh using hH
  -- each summand on the left is the image of a real product
  have hl : ∀ s : S, (0 + ∑ _e ∈ Finset.univ.filter (fun e => p e ∧ src e = s), (1 : EReal)) * H s
      = (((∑ _e ∈ Finset.univ.filter (fun e => p e ∧ src e = s), (1 : ℝ)) * h s : ℝ) : EReal) := by
    intro s
    rw [zero_add, hh s, EReal.coe_mul, coe_sum]
    rfl
  -- each summand on the right is the image of a real number
  have hr : ∀ e : E, (if p e then H (src e) else 0) = (((if p e then h (src e) else 0) : ℝ) : EReal) := by
    intro e
    by_cases hp : p e
    · rw [if_pos hp, if_pos hp, hh]
    · rw [if_neg hp, if_neg hp]; rfl
  rw [Finset.sum_congr rfl (fun s _ => hl s), Finset.sum_congr rfl (fun e _ => hr e), ← coe_sum, ← coe_sum,
    count_mul_sum_real]

/-- The same with a second table that agrees with the finite one wherever a counted element points: second
coordinates no counted element points at contribute nothing, whatever the second table holds there. -/
theorem count_mul_sum_sub {E S : Type} [Fintype E] [Fintype S] [DecidableEq S] (src : E → S) (p : E → Prop)
    [DecidablePred p] (H H' : S → EReal) (hH : ∀ s, ∃ r : ℝ, H s = (r : EReal))
    (hagree : ∀ e, p e → H (src e) = H' (src e)) :
    ∑ s : S, (0 + ∑ _e ∈ Finset.univ.filter (fun e => p e ∧ src e = s), (1 : EReal)) * H s
      = ∑ e : E, if p e then H' (src e) else 0 := by
  rw [count_mul_sum src p H hH]
  refine Finset.sum_congr rfl (fun e _ => ?_)
  by_cases hp : p e
  · rw [if_pos hp, if_pos hp, hagree e hp]
  · rw [if_neg hp, if_neg hp]

/-- A sum over 2816 = 11 · 256 indices, block by block: the index `256 k + j` runs over all of them once as `k`
runs over the 11 blocks and `j` over a block's 256 places. -/
theorem sum_blocks (f : Fin 2816 → EReal) :
    ∑ s : Fin 2816, f s = ∑ k : Fin 11, ∑ j : Fin 256, f ⟨256 * k.val + j.val, by omega⟩ := by
  have hprod : ∑ k : Fin 11, ∑ j : Fin 256, f ⟨256 * k.val + j.val, by omega⟩
      = ∑ kj : Fin 11 × Fin 256, f ⟨256 * kj.1.val + kj.2.val, by omega⟩ :=
    (Fintype.sum_prod_type (f := fun kj : Fin 11 × Fin 256 => f ⟨256 * kj.1.val + kj.2.val, by omega⟩)).symm
  rw [hprod]
  symm
  refine Fintype.sum_equiv (finProdFinEquiv (m := 11) (n := 256)) _ f ?_
  rintro ⟨k, j⟩
  refine congrArg f (Fin.ext ?_)
  show 256 * k.val + j.val = j.val + 256 * k.val
  omega

/-- A finite sum of products of reals plus a real is a real: the linear layer of finite inputs is finite. -/
theorem lin_real (x : Cert.Spec.XArr) (w : Cert.Spec.WArr) (b : Cert.Spec.BArr) (hx : Cert.Spec.Fin2 x)
    (hw : Cert.Spec.Fin2 w) (hb : Cert.Spec.Fin2 b) (n : Fin 2708) (o : Fin 512) :
    ∃ r : ℝ, Cert.Spec.lin x w b n o = (r : EReal) := by
  unfold Cert.Spec.lin
  obtain ⟨s, hs⟩ := sum_real Finset.univ (fun i : Fin 2048 => x (ix2 n i) * w (ix2 o i)) (fun i => by
    obtain ⟨a, ha⟩ := hx (ix2 n i)
    obtain ⟨c, hc⟩ := hw (ix2 o i)
    exact ⟨a * c, by rw [ha, hc, EReal.coe_mul]⟩)
  obtain ⟨t, ht⟩ := hb (ix1 o)
  exact ⟨s + t, by rw [hs, ht, EReal.coe_add]⟩

end Cert.Algebra
-- ==== Proof.Bridge.lean ====
/-
  The last pure step on the side of the two-call program: the matrix of edge counts times the padded output of the
  linear layer, accumulated block by block over the source rows, is the aggregated layer of the specification.

  The padded arrays have 2816 = 11 · 256 rows, of which the first 2708 are nodes.  A padding row of the layer output
  is the bias alone, a real number like every other row, so the count identity over the extended reals applies to
  all 2816 rows at once; no edge points at a padding row, so those rows drop out of the sum over edges.
-/
import Mathlib.Data.EReal.Basic
import Mathlib.Algebra.BigOperators.Group.Finset.Basic
import Idealize.ShloMosaic.Lib.ValueIdx
import proofs.«417986_j90340342104697_2_alg».proof.Proof.Spec
import proofs.«417986_j90340342104697_2_alg».proof.Proof.Algebra

namespace Cert.Bridge

open Cert.Spec Idealize.ShloMosaic Idealize.ShloMosaic.ValueIdx

/-- A row of the padded layer output is a real number: for a row below 2708 it is the linear layer of finite
inputs, and for a padding row every product has a zero factor, so the row is the bias alone. -/
theorem padded_real (x : XArr) (w : WArr) (b : BArr) (hx : Fin2 x) (hw : Fin2 w) (hb : Fin2 b)
    (s : Fin 2816) (o : Fin 512) :
    ∃ r : ℝ, (∑ k : Fin 2048, (if h : s.val < 2708 then x (ix2 ⟨s.val, h⟩ k) else 0) * w (ix2 o k)) + b (ix1 o)
      = (r : EReal) := by
  have hterm : ∀ k : Fin 2048, ∃ r : ℝ,
      (if h : s.val < 2708 then x (ix2 ⟨s.val, h⟩ k) else 0) * w (ix2 o k) = (r : EReal) := by
    intro k
    obtain ⟨c, hc⟩ := hw (ix2 o k)
    by_cases h : s.val < 2708
    · obtain ⟨a, ha⟩ := hx (ix2 ⟨s.val, h⟩ k)
      exact ⟨a * c, by rw [dif_pos h, ha, hc, EReal.coe_mul]⟩
    · exact ⟨0 * c, by rw [dif_neg h, hc, EReal.coe_mul, EReal.coe_zero]⟩
  obtain ⟨u, hu⟩ := Cert.Algebra.sum_real Finset.univ
    (fun k : Fin 2048 => (if h : s.val < 2708 then x (ix2 ⟨s.val, h⟩ k) else 0) * w (ix2 o k)) hterm
  obtain ⟨t, ht⟩ := hb (ix1 o)
  exact ⟨u + t, by rw [hu, ht, EReal.coe_add]⟩

/-- The count matrix times the padded layer output, summed block by block over the 11 · 256 source rows, is the
aggregated layer.  The blocks are joined into one sum over the 2816 rows; entry `(d, s)` of the count matrix is the
number of edges from `s` into `d` and every row of the padded output is real, so the sum over rows is the sum over
the edges into `d` of the padded output at the edge's source; an edge's source is below 2708, where the padded
output is the linear layer. -/
theorem bridge (x : XArr) (ei : EArr) (w : WArr) (b : BArr) (hx : Fin2 x) (hw : Fin2 w) (hb : Fin2 b) (hr : InRange ei)
    (A : (⟨2, ![2816, 2816]⟩ : Shape).Idx → EReal) (H : (⟨2, ![2816, 512]⟩ : Shape).Idx → EReal)
    (hA : ∀ d s : Fin 2816, A (ix2 d s) = 0 + ∑ _e ∈ Finset.univ.filter (fun e : Fin 500000 => dstN ei e = d.val ∧ srcN ei e = s.val), (1 : EReal))
    (hH : ∀ (s : Fin 2816) (o : Fin 512), H (ix2 s o) = (∑ k : Fin 2048, (if h : s.val < 2708 then x (ix2 ⟨s.val, h⟩ k) else 0) * w (ix2 o k)) + b (ix1 o))
    (d : Fin 2708) (o : Fin 512) :
    (∑ k' : Fin 11, ∑ j : Fin 256, A (ix2 ⟨d.val, by omega⟩ ⟨256 * k'.val + j.val, by omega⟩) * H (ix2 ⟨256 * k'.val + j.val, by omega⟩ o)) = G x ei w b (ix2 d o) := by
  -- an edge's source is a node, hence a row of the padded arrays
  have hsrc : ∀ e : Fin 500000, srcN ei e < 2708 := fun e => hr _
  have hsrc' : ∀ e : Fin 500000, srcN ei e < 2816 := fun e => Nat.lt_trans (hsrc e) (by norm_num)
  -- below 2708 the padded output is the linear layer
  have hlin : ∀ (s : Fin 2816) (h : s.val < 2708), H (ix2 s o) = lin x w b ⟨s.val, h⟩ o := by
    intro s h
    rw [hH s o]
    unfold lin
    refine congrArg (fun t => t + b (ix1 o)) (Finset.sum_congr rfl (fun k _ => ?_))
    rw [dif_pos h]
  -- the sum over rows, with the counts, is the sum over the edges into d
  have key := Cert.Algebra.count_mul_sum_sub (E := Fin 500000) (S := Fin 2816)
    (fun e => (⟨srcN ei e, hsrc' e⟩ : Fin 2816))
    (fun e => dstN ei e = d.val)
    (fun s => H (ix2 s o))
    (fun s => if h : s.val < 2708 then lin x w b ⟨s.val, h⟩ o else 0)
    (fun s => by rw [hH s o]; exact padded_real x w b hx hw hb s o)
    (fun e _ => by
      show H (ix2 ⟨srcN ei e, hsrc' e⟩ o) = if h : srcN ei e < 2708 then lin x w b ⟨srcN ei e, h⟩ o else 0
      rw [dif_pos (hsrc e)]
      exact hlin ⟨srcN ei e, hsrc' e⟩ (hsrc e))
  refine (Cert.Algebra.sum_blocks (fun s : Fin 2816 => A (ix2 ⟨d.val, by omega⟩ s) * H (ix2 s o))).symm.trans ?_
  refine Eq.trans (Finset.sum_congr rfl (fun s _ => ?_)) (key.trans ?_)
  · refine congrArg (fun t => t * H (ix2 s o)) ?_
    rw [hA]
    refine congrArg (fun t => 0 + t) ?_
    exact Finset.sum_congr
      (Finset.filter_congr (fun e _ => ⟨fun h => ⟨h.1, Fin.ext h.2⟩, fun h => ⟨h.1, congrArg Fin.val h.2⟩⟩))
      (fun _ _ => rfl)
  · unfold G
    exact Finset.sum_congr rfl (fun e _ => rfl)

end Cert.Bridge
-- ==== Proof.KernelValue.lean ====
/-
  The kernel program's result at the ideal instance, as the function `Cert.Spec.G` of the arguments.

  Reading the fold of buffer contents backwards from the return: the result is the first 2708 rows of region 1's output
  array; that array is the count matrix times the layer output (region 1's accumulator, flushed where the reduction
  coordinate ends); the count matrix is the host's scatter of ones at the (destination, source) pairs — under the range
  hypothesis no pair is wrapped or dropped —; the layer output is region 0's array, the linear layer at every padded row
  (a padded row holds the bias alone and is met by an all-zero column of counts).  The count distributes over a finite
  row: the two sides are one sum over edges.
-/
import proofs.«417986_j90340342104697_2_alg».proof.Proof.KI.Run
import proofs.«417986_j90340342104697_2_alg».proof.Proof.KI.Final
import proofs.«417986_j90340342104697_2_alg».proof.Proof.KI.HostValue
import proofs.«417986_j90340342104697_2_alg».proof.Proof.Bridge

set_option maxRecDepth 16384

noncomputable section

namespace Cert.KernelIdeal.Frame

open Cert.KernelIdeal Cert.KernelIdeal.Gen
open Idealize.ShloMosaic Idealize.ShloMosaic.TcCoe Idealize.ShloMosaic.ValueIdx
open Idealize.SL Idealize.SL.Sem
open Cert.Spec

variable (m : (ℓ : Loc nD τ sig) → Buf (Elt Ideal) ℓ) (ρ : Dev nD → PrngReg)

/-! ## The arguments, typed as the specification's arrays -/

/-- Core `c`'s features, edge array, weight and bias at launch. -/
abbrev xA (c : Dev nD) : XArr := m ((c : Thread nD τ).loc main_arg0)
abbrev eA (c : Dev nD) : EArr := m ((c : Thread nD τ).loc main_arg1)
abbrev wA (c : Dev nD) : WArr := m ((c : Thread nD τ).loc main_arg2)
abbrev bA (c : Dev nD) : BArr := m ((c : Thread nD τ).loc main_arg3)

/-! ## The arguments along the fold -/

theorem W1_arg (c : Dev nD) (r : Ref sig .tc) (h : r ∉ hostOps0_W) : W1 m ρ c (Proc.devRef .tc r) = m ((c : Thread nD τ).loc r) :=
  StableHlo.after_of_writes_sub hostOps0 _ hostOps0_writes h
theorem W2_arg (c : Dev nD) (r : Ref sig .tc) (h0 : r ∉ hostOps0_W) (h1 : r ∉ hostOps0_1_W) :
    W2 m ρ c (Proc.devRef .tc r) = m ((c : Thread nD τ).loc r) :=
  (StableHlo.after_of_writes_sub hostOps0_1 _ hostOps0_1_writes h1).trans (W1_arg m ρ c r h0)
theorem W3_arg (c : Dev nD) (r : Ref sig .tc) (h0 : r ∉ hostOps0_W) (h1 : r ∉ hostOps0_1_W) (h2 : r ∉ hostOps0_2_W) :
    W3 m ρ c (Proc.devRef .tc r) = m ((c : Thread nD τ).loc r) :=
  (StableHlo.after_of_writes_sub hostOps0_2 _ hostOps0_2_writes h2).trans (W2_arg m ρ c r h0 h1)

/-- The edge array reaches region 1's entry as launched. -/
theorem W4_arg1 (c : Dev nD) : W4 m ρ c (Proc.devRef .tc main_arg1) = m ((c : Thread nD τ).loc main_arg1) :=
  (W4_of_ne m ρ c main_arg1 (by decide)).trans (W3_arg m ρ c main_arg1 (by decide) (by decide) (by decide))

/-- The constant the padding reads is zero. -/
theorem W1_main_c (c : Dev nD) : W1 m ρ c (Proc.devRef .tc main_c) = constantI S_ 32 0#32 := by
  show StableHlo.after hostOps0 (W0 m ρ c) (Proc.devRef .tc main_c) = _
  after_results

/-! ## Region 0's operands -/

/-- The padded features: the features on the first 2708 rows, zero below. -/
theorem U3_v0_apply (c : Dev nD) (s : Fin 2816) (k : Fin 2048) :
    (W3 m ρ c (Proc.devRef .tc main_v0) : S2816x2048.Idx → EReal) (ix2 s k)
      = if h : s.val < 2708 then xA m c (ix2 ⟨s.val, h⟩ k) else (0 : EReal) := by
  have e1 : W3 m ρ c (Proc.devRef .tc main_v0) = W2 m ρ c (Proc.devRef .tc main_v0) :=
    StableHlo.after_of_writes_sub hostOps0_2 _ hostOps0_2_writes (by decide)
  have e2 := pad_apply (W1 m ρ c) (W1_main_c m ρ c) s k
  rw [W1_arg m ρ c main_arg0 (by decide)] at e2
  exact (congrFun e1 (ix2 s k)).trans e2

/-- The weight, its format changed, is the weight. -/
theorem U3_v1_eq (c : Dev nD) : W3 m ρ c (Proc.devRef .tc main_v1) = m ((c : Thread nD τ).loc main_arg2) :=
  (wcast_eq (W2 m ρ c)).trans (W2_arg m ρ c main_arg2 (by decide) (by decide))

theorem U3_arg3_eq (c : Dev nD) : W3 m ρ c (Proc.devRef .tc main_arg3) = m ((c : Thread nD τ).loc main_arg3) :=
  W3_arg m ρ c main_arg3 (by decide) (by decide) (by decide)

/-! ## Region 1's operands -/

/-- The layer output at region 1's entry: the linear layer of the padded features at every row. -/
theorem U5_v2_apply (c : Dev nD) (s : Fin 2816) (o : Fin 512) :
    (W5 m ρ c (Proc.devRef .tc main_v2) : S2816x512.Idx → EReal) (ix2 s o)
      = (∑ k : Fin 2048, (if h : s.val < 2708 then xA m c (ix2 ⟨s.val, h⟩ k) else (0 : EReal)) * wA m c (ix2 o k)) + bA m c (ix1 o) := by
  have e1 : W5 m ρ c (Proc.devRef .tc main_v2) = W4 m ρ c (Proc.devRef .tc main_v2) := keep_v2 (W4 m ρ c)
  have e2 : W4 m ρ c (Proc.devRef .tc main_v2) = H0 (U3 m ρ) c := (W4_arr m ρ c 3).trans (final0 (U3 m ρ) c)
  refine (congrFun (e1.trans e2) (ix2 s o)).trans ?_
  rw [H0_apply, linArr_apply]
  refine congrArg₂ (· + ·) (Finset.sum_congr rfl fun k _ => ?_) (congrFun (U3_arg3_eq m ρ c) (ix1 o))
  exact congrArg₂ (· * ·) (U3_v0_apply m ρ c s k) (congrFun (U3_v1_eq m ρ c) (ix2 o k))

/-- The count matrix at region 1's entry: at (d, s) the number of edges from s to d. -/
theorem U5_v23_apply (c : Dev nD) (hr : InRange (eA m c)) (d s : Fin 2816) :
    (W5 m ρ c (Proc.devRef .tc main_v23) : S2816x2816.Idx → EReal) (ix2 d s)
      = 0 + ∑ _e ∈ Finset.univ.filter (fun e : Fin 500000 => dstN (eA m c) e = d.val ∧ srcN (eA m c) e = s.val), (1 : EReal) := by
  have h := count_apply (W4 m ρ c) (by rw [W4_arg1 m ρ c]; exact hr) d s
  rw [W4_arg1 m ρ c] at h
  exact h

/-! ## The result -/

/-- THE KERNEL'S VALUE: under finite float inputs and in-range edge entries, the result buffer ends at `G` of the arguments. -/
theorem kernel_value (c : Dev nD) (hx : Fin2 (xA m c)) (hr : InRange (eA m c)) (hw : Fin2 (wA m c)) (hb : Fin2 (bA m c)) :
    (W7 m ρ c (Proc.devRef .tc main_v25) : S2708x512.Idx → EReal) = G (xA m c) (eA m c) (wA m c) (bA m c) := by
  funext i
  obtain ⟨d, o, rfl⟩ : ∃ (d : Fin 2708) (o : Fin 512), i = ix2 d o := ⟨i 0, i 1, eq_ix2 i⟩
  refine (slice_apply (W6 m ρ c) d o).trans ?_
  have e6 : W6 m ρ c (Proc.devRef .tc main_v24) = O1 (U5 m ρ) c := (W6_arr m ρ c 2).trans (final1 (U5 m ρ) c)
  refine (congrFun e6 (ix2 ⟨d.val, by omega⟩ o)).trans ?_
  rw [O1_apply, aggArr_apply, Cert.Algebra.sum_blocks]
  exact Cert.Bridge.bridge (xA m c) (eA m c) (wA m c) (bA m c) hx hw hb hr (W5 m ρ c (Proc.devRef .tc main_v23)) (W5 m ρ c (Proc.devRef .tc main_v2))
    (U5_v23_apply m ρ c hr) (U5_v2_apply m ρ c) d o

end Cert.KernelIdeal.Frame

end
-- ==== Proof.RefValue.lean ====
/-
  The reference's result, read at an index: the gather of the linear layer at each edge's source, scattered and summed
  at the edge's destination, is the function `Cert.Spec.G` of the arguments when every edge entry is a node.

  With `h (n, o) = (∑ k, x[n,k] · w[o,k]) + b[o]` the linear layer, `src e` and `dst e` the two rows of the edge array:
  the messages are `msgs (e, o) = h (src e, o)` — the gather reads its start index signed and clamps it into
  `[0, 2707]`, and the wrap of negative sources before it is a select on `src e < 0`; a source below 2708 passes
  through all three unchanged —, and the result at `(d, o)` is `0 + ∑` of the messages `(e, o')` whose result index
  `(dst e, o')` is `(d, o)` — the scatter reads its index signed and does not clamp it; a destination below 2708 is
  inside the operand, so no update is dropped. That set of messages is `{(e, o) | dst e = d}`, so the sum is
  `∑ e, if dst e = d then h (src e, o) else 0`. Only the commutative monoid structure of `+` on the extended reals
  is used; no finiteness.
-/
import proofs.«417986_j90340342104697_2_alg».proof.Proof.Gen.ReferenceIdeal.Read
import proofs.«417986_j90340342104697_2_alg».proof.Proof.Spec

noncomputable section

namespace Cert.ReferenceIdeal.RefValue

open Cert.ReferenceIdeal Cert.ReferenceIdeal.Gen Idealize.ShloMosaic Idealize.ShloMosaic.ValueIdx

/-! ## Words -/

/-- A word below 2708 is not negative read signed: the signed comparison with zero answers the bit `0`. -/
theorem slt_zero_of_lt (w : BitVec 32) (h : w.toNat < 2708) : IntOp.cmpi .slt w 0#32 = 0#1 := by
  have hi : w.toInt = (w.toNat : Int) := BitVec.toInt_eq_toNat_of_lt (by omega)
  have hs : w.slt 0#32 = false := by
    simp [BitVec.slt, hi]
  show BitVec.ofBool (w.slt 0#32) = 0#1
  rw [hs]; rfl

/-- Two rank-2 indices are equal exactly when their coordinates are. -/
theorem ix2_eq_iff {n0 n1 : Nat} (a a' : Fin n0) (b b' : Fin n1) : ix2 a b = ix2 a' b' ↔ a = a' ∧ b = b' :=
  ⟨fun h => ⟨congrFun h 0, congrFun h 1⟩, fun h => by rw [h.1, h.2]⟩

/-! ## The gather's operand index -/

/-- Every component of the start index of result element `(e, o)` is read at `(e, 0)` of the start indices. -/
theorem gather_siIdx (e : Fin 500000) (o : Fin 512) (c : Fin gather_S2708x512_S500000x1_S500000x512_1_0_n_n_0_1_1512.startIndexMap.length) :
    gather_S2708x512_S500000x1_S500000x512_1_0_n_n_0_1_1512.siIdx (ix2 e o) c = ix2 e (0 : Fin 1) := by
  funext b; refine Fin.ext ?_
  match b with
  | ⟨0, _⟩ => rfl
  | ⟨1, _⟩ =>
    have hc : c.val < 1 := c.isLt
    show c.val = 0
    omega

/-- Result element `(e, o)` of the gather reads the operand at row `n`, column `o`, when the start index at
    `(e, 0)`, read as a natural number, is the row `n` (below 2708: neither the signed reading nor the clamp
    into `[0, 2707]` moves it). -/
theorem gather_operandIdx (idx : IVec S500000x1 32) (e : Fin 500000) (o : Fin 512) (n : Fin 2708)
    (hn : (idx (ix2 e (0 : Fin 1))).toNat = n.val) :
    gather_S2708x512_S500000x1_S500000x512_1_0_n_n_0_1_1512.operandIdx (ix2 e o) idx = ix2 n o := by
  have hlt : n.val < 2708 := n.isLt
  funext a
  refine Fin.ext ?_
  match a with
  | ⟨0, _⟩ =>
    show gather_S2708x512_S500000x1_S500000x512_1_0_n_n_0_1_1512.start (ix2 e o) idx 0 + gather_S2708x512_S500000x1_S500000x512_1_0_n_n_0_1_1512.batchCoord (ix2 e o) 0 + gather_S2708x512_S500000x1_S500000x512_1_0_n_n_0_1_1512.offCoord (ix2 e o) 0 = n.val
    rw [GatherDims.batchCoord_eq_zero _ _ _ List.not_mem_nil,
      GatherDims.offCoord_eq_zero _ _ _ (fun hm => ((GatherDims.mem_sKept _ _).mp hm).1 (List.mem_singleton.mpr rfl))]
    unfold GatherDims.start
    rw [dif_pos (show (0 : Fin S2708x512.rank) ∈ gather_S2708x512_S500000x1_S500000x512_1_0_n_n_0_1_1512.startIndexMap from List.mem_singleton.mpr rfl), gather_siIdx]
    have hi : (idx (ix2 e (0 : Fin 1))).toInt = ((idx (ix2 e (0 : Fin 1))).toNat : Int) :=
      BitVec.toInt_eq_toNat_of_lt (by omega)
    rw [hi, Int.toNat_natCast]
    show min (idx (ix2 e (0 : Fin 1))).toNat (2708 - 1) + 0 + 0 = n.val
    omega
  | ⟨1, _⟩ =>
    show gather_S2708x512_S500000x1_S500000x512_1_0_n_n_0_1_1512.start (ix2 e o) idx 1 + gather_S2708x512_S500000x1_S500000x512_1_0_n_n_0_1_1512.batchCoord (ix2 e o) 1 + gather_S2708x512_S500000x1_S500000x512_1_0_n_n_0_1_1512.offCoord (ix2 e o) 1 = o.val
    rw [GatherDims.batchCoord_eq_zero _ _ _ List.not_mem_nil]
    unfold GatherDims.start
    rw [dif_neg (show ¬ (1 : Fin S2708x512.rank) ∈ gather_S2708x512_S500000x1_S500000x512_1_0_n_n_0_1_1512.startIndexMap by decide)]
    show 0 + 0 + gather_S2708x512_S500000x1_S500000x512_1_0_n_n_0_1_1512.offCoord (ix2 e o) 1 = o.val
    rw [Nat.zero_add]
    rfl

/-! ## The scatter's result index -/

/-- Every component of the start index of update element `(e, o)` is read at `(e, 0)` of the scatter indices. -/
theorem scatter_siIdx (e : Fin 500000) (o : Fin 512) (c : Fin scatter_S2708x512_S500000x1_S500000x512_1_0_0_1.scatterDimsToOperandDims.length) :
    scatter_S2708x512_S500000x1_S500000x512_1_0_0_1.siIdx (ix2 e o) c = ix2 e (0 : Fin 1) := by
  funext b; refine Fin.ext ?_
  match b with
  | ⟨0, _⟩ => rfl
  | ⟨1, _⟩ =>
    have hc : c.val < 1 := c.isLt
    show c.val = 0
    omega

/-- On the row axis the window of update `(e, o)` starts at the scatter index at `(e, 0)`. -/
theorem scatter_start0 (idx : IVec S500000x1 32) (e : Fin 500000) (o : Fin 512)
    (h : (idx (ix2 e (0 : Fin 1))).toNat < 2708) :
    scatter_S2708x512_S500000x1_S500000x512_1_0_0_1.start (ix2 e o) idx 0 = ((idx (ix2 e (0 : Fin 1))).toNat : Int) := by
  unfold ScatterDims.start
  rw [dif_pos (show (0 : Fin S2708x512.rank) ∈ scatter_S2708x512_S500000x1_S500000x512_1_0_0_1.scatterDimsToOperandDims from List.mem_singleton.mpr rfl),
    scatter_siIdx]
  exact BitVec.toInt_eq_toNat_of_lt (by omega)

/-- On the channel axis the window starts at `0`. -/
theorem scatter_start1 (idx : IVec S500000x1 32) (e : Fin 500000) (o : Fin 512) :
    scatter_S2708x512_S500000x1_S500000x512_1_0_0_1.start (ix2 e o) idx 1 = 0 := by
  unfold ScatterDims.start
  rw [dif_neg (show ¬ (1 : Fin S2708x512.rank) ∈ scatter_S2708x512_S500000x1_S500000x512_1_0_0_1.scatterDimsToOperandDims by decide)]

/-- The row axis is inserted: its window coordinate is `0`. -/
theorem scatter_window0 (e : Fin 500000) (o : Fin 512) : scatter_S2708x512_S500000x1_S500000x512_1_0_0_1.window (ix2 e o) 0 = 0 := by
  unfold ScatterDims.window
  rw [dif_neg (by decide)]

/-- The channel axis is the update's window axis: its window coordinate is the update's channel. -/
theorem scatter_window1 (e : Fin 500000) (o : Fin 512) : scatter_S2708x512_S500000x1_S500000x512_1_0_0_1.window (ix2 e o) 1 = o.val := rfl

/-- Update element `(e, o)` lands at row `n`, channel `o`, when the scatter index at `(e, 0)`, read as a natural
    number, is the row `n` (below 2708: it is inside the operand, so the update is not dropped). -/
theorem scatter_resultIdx (idx : IVec S500000x1 32) (e : Fin 500000) (o : Fin 512) (n : Fin 2708)
    (hn : (idx (ix2 e (0 : Fin 1))).toNat = n.val) :
    scatter_S2708x512_S500000x1_S500000x512_1_0_0_1.resultIdx? (ix2 e o) idx = some (ix2 n o) := by
  have hlt : n.val < 2708 := n.isLt
  have h0 := scatter_start0 idx e o (by omega)
  have h1 := scatter_start1 idx e o
  have w0 := scatter_window0 e o
  have w1 := scatter_window1 e o
  have ho : o.val < 512 := o.isLt
  unfold ScatterDims.resultIdx?
  rw [dif_pos (fun a => by
    match a with
    | ⟨0, _⟩ =>
      show 0 ≤ scatter_S2708x512_S500000x1_S500000x512_1_0_0_1.start (ix2 e o) idx 0 + (scatter_S2708x512_S500000x1_S500000x512_1_0_0_1.window (ix2 e o) 0 : Nat)
        ∧ scatter_S2708x512_S500000x1_S500000x512_1_0_0_1.start (ix2 e o) idx 0 + (scatter_S2708x512_S500000x1_S500000x512_1_0_0_1.window (ix2 e o) 0 : Nat) < (2708 : Nat)
      rw [h0, w0]; omega
    | ⟨1, _⟩ =>
      show 0 ≤ scatter_S2708x512_S500000x1_S500000x512_1_0_0_1.start (ix2 e o) idx 1 + (scatter_S2708x512_S500000x1_S500000x512_1_0_0_1.window (ix2 e o) 1 : Nat)
        ∧ scatter_S2708x512_S500000x1_S500000x512_1_0_0_1.start (ix2 e o) idx 1 + (scatter_S2708x512_S500000x1_S500000x512_1_0_0_1.window (ix2 e o) 1 : Nat) < (512 : Nat)
      rw [h1, w1]; omega)]
  refine congrArg some (funext fun a => Fin.ext ?_)
  match a with
  | ⟨0, _⟩ =>
    show (scatter_S2708x512_S500000x1_S500000x512_1_0_0_1.start (ix2 e o) idx 0 + (scatter_S2708x512_S500000x1_S500000x512_1_0_0_1.window (ix2 e o) 0 : Nat)).toNat = n.val
    rw [h0, w0]; omega
  | ⟨1, _⟩ =>
    show (scatter_S2708x512_S500000x1_S500000x512_1_0_0_1.start (ix2 e o) idx 1 + (scatter_S2708x512_S500000x1_S500000x512_1_0_0_1.window (ix2 e o) 1 : Nat)).toNat = o.val
    rw [h1, w1]; omega

/-! ## The stages read at coordinates -/

/-- The source row of the edge array, as the program slices and reshapes it. -/
theorem src_row_read (x1 : (⟨S2x500000, .i32⟩ : BufTy).Contents (Elt Ideal)) (e : Fin 500000) :
    Read.val_main_v5 (F := Ideal) x1 (ix1 e) = x1 (ix2 (0 : Fin 2) e) := by
  refine (Read.val_main_v5_apply (F := Ideal) x1 _).trans ((Read.val_main_v4_apply (F := Ideal) x1 _).trans (congrArg x1 ?_))
  funext a; refine Fin.ext ?_
  match a with
  | ⟨0, _⟩ => rfl
  | ⟨1, _⟩ => exact Nat.mod_eq_of_lt e.isLt

/-- The gather's start indices: the wrap of negative sources, `select (src < 0) (src + 2708) src`, leaves a source
    below 2708 as it is. -/
theorem src_read (x1 : (⟨S2x500000, .i32⟩ : BufTy).Contents (Elt Ideal)) (e : Fin 500000) (h : (x1 (ix2 (0 : Fin 2) e)).toNat < 2708) :
    Read.val_main_v11 (F := Ideal) x1 (ix2 e (0 : Fin 1)) = x1 (ix2 (0 : Fin 2) e) := by
  have hidx : Read.idx_main_v11 (ix2 e (0 : Fin 1)) = ix1 e := by
    funext a; match a with | ⟨0, _⟩ => rfl
  rw [Read.val_main_v11_apply, hidx, Read.val_main_v10_apply, Read.val_main_v7_apply, Read.val_main_v6_apply,
    Read.val_main_c_apply, src_row_read, slt_zero_of_lt _ h, select_zero]

/-- The scatter's indices: the destination row of the edge array. -/
theorem dst_read (x1 : (⟨S2x500000, .i32⟩ : BufTy).Contents (Elt Ideal)) (e : Fin 500000) :
    Read.val_main_v16 (F := Ideal) x1 (ix2 e (0 : Fin 1)) = x1 (ix2 (1 : Fin 2) e) := by
  refine (Read.val_main_v16_apply (F := Ideal) x1 _).trans ((Read.val_main_v14_apply (F := Ideal) x1 _).trans
    ((Read.val_main_v13_apply (F := Ideal) x1 _).trans (congrArg x1 ?_)))
  funext a; refine Fin.ext ?_
  match a with
  | ⟨0, _⟩ => rfl
  | ⟨1, _⟩ => exact Nat.mod_eq_of_lt e.isLt

/-- The linear layer `h = x · wᵀ + b` at node `n`, channel `o`. -/
theorem lin_read (x0 : (⟨S2708x2048, .f32⟩ : BufTy).Contents (Elt Ideal)) (x2 : (⟨S512x2048, .f32⟩ : BufTy).Contents (Elt Ideal)) (x3 : (⟨S512, .f32⟩ : BufTy).Contents (Elt Ideal)) (n : Fin 2708) (o : Fin 512) :
    Read.val_main_v3 (F := Ideal) x0 x2 x3 (ix2 n o) = Cert.Spec.lin x0 x2 x3 n o := by
  have hb : Read.idx_main_v1 (Read.idx_main_v2 (ix2 n o)) = ix1 o := by
    funext a; match a with | ⟨0, _⟩ => rfl
  have hl : ∀ k : Fin 2048, Read.lidx_main_v0 (ix2 n o) k = ix2 n k := fun k => by
    funext a; match a with | ⟨0, _⟩ => rfl | ⟨1, _⟩ => rfl
  have hr : ∀ k : Fin 2048, Read.ridx_main_v0 (ix2 n o) k = ix2 o k := fun k => by
    funext a; match a with | ⟨0, _⟩ => rfl | ⟨1, _⟩ => rfl
  rw [Read.val_main_v3_apply, Read.val_main_v0_apply, Read.val_main_v2_apply, Read.val_main_v1_apply, hb]
  simp only [hl, hr]
  rfl

/-- The accumulator the scatter starts from is zero everywhere. -/
theorem zero_read (i : S2708x512.Idx) : Read.val_main_v15 (F := Ideal) i = (0 : EReal) := by
  rw [Read.val_main_v15_apply, Read.val_main_cst_apply]
  exact Ideal.ofBits_zero_f32

/-- The messages: element `(e, o)` of the gather is the linear layer at the edge's source. -/
theorem msgs_read (x0 : (⟨S2708x2048, .f32⟩ : BufTy).Contents (Elt Ideal)) (x1 : (⟨S2x500000, .i32⟩ : BufTy).Contents (Elt Ideal)) (x2 : (⟨S512x2048, .f32⟩ : BufTy).Contents (Elt Ideal)) (x3 : (⟨S512, .f32⟩ : BufTy).Contents (Elt Ideal)) (e : Fin 500000) (o : Fin 512)
    (h : Cert.Spec.srcN x1 e < 2708) :
    Read.val_main_v12 (F := Ideal) x0 x1 x2 x3 (ix2 e o) = Cert.Spec.lin x0 x2 x3 ⟨Cert.Spec.srcN x1 e, h⟩ o := by
  unfold Read.val_main_v12
  show Read.val_main_v3 (F := Ideal) x0 x2 x3 (gather_S2708x512_S500000x1_S500000x512_1_0_n_n_0_1_1512.operandIdx (ix2 e o) (Read.val_main_v11 (F := Ideal) x1)) = _
  rw [gather_operandIdx (Read.val_main_v11 (F := Ideal) x1) e o ⟨Cert.Spec.srcN x1 e, h⟩
    (by rw [src_read x1 e h]; rfl), lin_read]

/-! ## The result -/

/-- The reference's result is the aggregated layer `G`: at `(d, o)` the zero accumulator plus the sum of the messages
    `(e, o')` whose result index is `(d, o)`, that is of the messages `(e, o)` over the edges `e` into `d`. -/
theorem result_eq (x0 : (⟨S2708x2048, .f32⟩ : BufTy).Contents (Elt Ideal)) (x1 : (⟨S2x500000, .i32⟩ : BufTy).Contents (Elt Ideal)) (x2 : (⟨S512x2048, .f32⟩ : BufTy).Contents (Elt Ideal)) (x3 : (⟨S512, .f32⟩ : BufTy).Contents (Elt Ideal))
    (hr : Cert.Spec.InRange x1) : Read.val_main_v17 (F := Ideal) x0 x1 x2 x3 = Cert.Spec.G x0 x1 x2 x3 := by
  funext i
  obtain ⟨d, o, rfl⟩ : ∃ (d : Fin 2708) (o : Fin 512), i = ix2 d o := ⟨i 0, i 1, eq_ix2 i⟩
  unfold Read.val_main_v17
  show Read.val_main_v15 (F := Ideal) (ix2 d o)
      + ∑ j ∈ Finset.univ.filter (fun j => scatter_S2708x512_S500000x1_S500000x512_1_0_0_1.resultIdx? j (Read.val_main_v16 (F := Ideal) x1) = some (ix2 d o)),
          Read.val_main_v12 (F := Ideal) x0 x1 x2 x3 j = _
  rw [zero_read, zero_add, Finset.sum_filter, sum_idx2]
  unfold Cert.Spec.G
  refine Finset.sum_congr rfl fun e _ => ?_
  have hs : Cert.Spec.srcN x1 e < 2708 := hr _
  have hdlt : Cert.Spec.dstN x1 e < 2708 := hr _
  have hres : ∀ o' : Fin 512, scatter_S2708x512_S500000x1_S500000x512_1_0_0_1.resultIdx? (ix2 e o') (Read.val_main_v16 (F := Ideal) x1)
      = some (ix2 (⟨Cert.Spec.dstN x1 e, hdlt⟩ : Fin 2708) o') :=
    fun o' => scatter_resultIdx _ e o' ⟨_, hdlt⟩ (by rw [dst_read]; rfl)
  show (∑ o' : Fin 512, if scatter_S2708x512_S500000x1_S500000x512_1_0_0_1.resultIdx? (ix2 e o') (Read.val_main_v16 (F := Ideal) x1) = some (ix2 d o)
        then Read.val_main_v12 (F := Ideal) x0 x1 x2 x3 (ix2 e o') else 0)
      = if Cert.Spec.dstN x1 e = d.val then
          (if h : Cert.Spec.srcN x1 e < 2708 then Cert.Spec.lin x0 x2 x3 ⟨Cert.Spec.srcN x1 e, h⟩ o else 0) else 0
  rw [dif_pos hs]
  by_cases hd : Cert.Spec.dstN x1 e = d.val
  · rw [if_pos hd, Finset.sum_eq_single o]
    · rw [if_pos (by rw [hres]; exact congrArg some ((ix2_eq_iff _ _ _ _).2 ⟨Fin.ext hd, rfl⟩)), msgs_read]
    · intro o' _ hne
      rw [if_neg]
      rw [hres]
      intro hEq
      exact hne ((ix2_eq_iff _ _ _ _).1 (Option.some.inj hEq)).2
    · intro hnot
      exact absurd (Finset.mem_univ o) hnot
  · rw [if_neg hd]
    refine Finset.sum_eq_zero fun o' _ => ?_
    rw [if_neg]
    rw [hres]
    intro hEq
    exact hd (congrArg Fin.val ((ix2_eq_iff _ _ _ _).1 (Option.some.inj hEq)).1)

end Cert.ReferenceIdeal.RefValue

end
-- ==== Proof.PreDecode.lean ====
/-
  The precondition, read element by element.

  The printed predicate is a conjunction of five all-reductions by `and`, each started at 1: over the node
  features, the weight and the bias, "the absolute value is below +∞" (the f32 pattern 0x7F800000), and over the
  edge array, "the word is at least 0" and "the word is below 2708", both read signed. That the conjunction is 1
  says each reduction is 1, hence each compared element passes its test.

  For an extended real `a`, `max a (-a) < ⊤` excludes both infinities, so `a` is a real number. For a 32-bit
  word `v`, `0 ≤ v` signed says the sign bit is clear, so the signed and the unsigned readings of `v` agree, and
  `v < 2708` signed then bounds the unsigned reading: `v.toNat < 2708`.
-/
import proofs.«417986_j90340342104697_2_alg».proof.Pre_finite_inputs
import proofs.«417986_j90340342104697_2_alg».proof.Proof.Gen.Pre_finite_inputs
import proofs.«417986_j90340342104697_2_alg».proof.Proof.Spec
import Idealize.ShloMosaic.Lib.ReduceAll
import Idealize.ShloMosaic.Lib.StableHlo.Predicate
import Idealize.ShloMosaic.PureOps.Ideal

noncomputable section

namespace Cert.PreDecode

open Idealize.ShloMosaic Idealize.ShloMosaic.ValueIdx
open Cert.Pre_finite_inputs (S2708x2048 S2x500000 S512x2048 S512 S_)

/-- The shape of rank 0 has exactly one index. -/
local instance : Subsingleton S_.Idx := ⟨fun a b => funext fun d => d.elim0⟩

/-- An extended real whose absolute value `max a (-a)` is below `⊤` is neither infinity. -/
theorem real_of_abs_lt_top (a : EReal) (h : max a (-a) < ⊤) : ∃ r : ℝ, a = (r : EReal) := by
  induction a using EReal.rec with
  | bot => simp at h
  | coe r => exact ⟨r, rfl⟩
  | top => simp at h

/-- The f32 pattern with all exponent bits set, sign and fraction clear, denotes `+∞`: its exponent field is
    2^8 - 1 and its fraction field is 0, by computing the fields of the literal. -/
theorem ofBits_inf : Ideal.ofBits .f32 0x7F800000#32 = (⊤ : EReal) := by
  with_unfolding_all rfl

/-- One element of a float test: `|a| < +∞` as the comparison word 1 says `a` is real. -/
theorem real_of_cmp (a : EReal)
    (h : Ideal.cmp .olt (max a (-a)) (Ideal.ofBits .f32 0x7F800000#32) = 1#1) : ∃ r : ℝ, a = (r : EReal) := by
  rw [ofBits_inf] at h
  unfold Ideal.cmp at h
  rw [StableHlo.Predicate.ofBool_eq_one_iff, decide_eq_true_eq] at h
  exact real_of_abs_lt_top a h

/-- One element of the two integer tests: a word that is at least 0 and below 2708, both signed, is below 2708
    read unsigned. The first test clears the sign bit, so both readings are the same number. -/
theorem toNat_lt_of_signed (v : BitVec 32) (h0 : IntOp.cmpi .sge v 0#32 = 1#1)
    (h1 : IntOp.cmpi .slt v 2708#32 = 1#1) : v.toNat < 2708 := by
  rw [IntOp.cmpi_sge] at h0
  rw [IntOp.cmpi_slt] at h1
  have z : (0#32 : BitVec 32).toInt = 0 := by decide
  have k : (2708#32 : BitVec 32).toInt = 2708 := by decide
  rw [z] at h0
  rw [k] at h1
  rw [BitVec.toInt_eq_toNat_cond] at h0 h1
  have := v.isLt
  split at h0 <;> omega

/-- The precondition decoded: the node features, the weight and the bias are real at every index, and every entry
    of the edge array, read unsigned, is below 2708. -/
theorem decode [Cert.Pre_finite_inputs.Facts] (x : FVec Ideal Cert.Pre_finite_inputs.S2708x2048 .f32)
    (ei : IVec Cert.Pre_finite_inputs.S2x500000 32) (w : FVec Ideal Cert.Pre_finite_inputs.S512x2048 .f32)
    (b : FVec Ideal Cert.Pre_finite_inputs.S512 .f32)
    (h : Cert.Pre_finite_inputs.fn (F := Ideal) x ei w b = fun _ => 1#1) :
    Cert.Spec.Fin2 x ∧ Cert.Spec.InRange ei ∧ Cert.Spec.Fin2 w ∧ Cert.Spec.Fin2 b := by
  have e := congrFun h ix0
  dsimp only [Cert.Pre_finite_inputs.fn, Cert.Pre_finite_inputs.fn_part1] at e
  -- the conjunction of the five reductions, taken apart from the outside in
  obtain ⟨e4, hlt⟩ := IntOp.andi_eq_one.1 e
  obtain ⟨e3, hge⟩ := IntOp.andi_eq_one.1 e4
  obtain ⟨e2, hb⟩ := IntOp.andi_eq_one.1 e3
  obtain ⟨hx, hw⟩ := IntOp.andi_eq_one.1 e2
  refine ⟨fun j => ?_, fun j => ?_, fun j => ?_, fun j => ?_⟩
  · exact real_of_cmp (x j) (Host.reduce_andi_all _ _ _ _ ix0 hx j)
  · exact toNat_lt_of_signed (ei j) (Host.reduce_andi_all _ _ _ _ ix0 hge j) (Host.reduce_andi_all _ _ _ _ ix0 hlt j)
  · exact real_of_cmp (w j) (Host.reduce_andi_all _ _ _ _ ix0 hw j)
  · exact real_of_cmp (b j) (Host.reduce_andi_all _ _ _ _ ix0 hb j)

end Cert.PreDecode

end
-- ==== Proof.lean ====
/-
  One graph-convolution layer, in two tiled kernels with host glue, against its direct statement.

  The kernel computes the linear layer `h = x·Wᵀ + b` on the features padded to 2816 rows, builds the dense
  2816 × 2816 matrix of edge counts by one scatter of ones at the (destination, source) pairs, multiplies the two block by
  block with an accumulator carried along the reduction axis, and keeps the first 2708 rows.  The reference gathers the
  linear layer at each edge's source and sums the gathered rows at the edge's destination.  Where every entry of the edge
  array is a node and the features, weight and bias are finite, both are the sum over the edges into a row of the linear
  layer at the edge's source: a count times a finite row is the row summed that many times, and the padded rows, which
  hold the bias alone, meet an all-zero column of counts.

  The three frames: the kernel program, at the word-level and at the ideal instance, runs as seven items of @main, each
  entered from what the one before left, and no item writes an argument; the reference is its operations' run.
  No rewrite was applied in idealizing, so that conjunct is trivial.
-/
import proofs.«417986_j90340342104697_2_alg».proof.Defs
import proofs.«417986_j90340342104697_2_alg».proof.Proof.Gen.Kernel
import proofs.«417986_j90340342104697_2_alg».proof.Proof.Gen.KernelIdeal
import proofs.«417986_j90340342104697_2_alg».proof.Proof.Gen.ReferenceIdeal
import proofs.«417986_j90340342104697_2_alg».proof.Proof.Gen.Pre_finite_inputs
import proofs.«417986_j90340342104697_2_alg».proof.Proof.Gen.ReferenceIdeal.Run
import proofs.«417986_j90340342104697_2_alg».proof.Proof.K.Run
import proofs.«417986_j90340342104697_2_alg».proof.Proof.KI.Run
import proofs.«417986_j90340342104697_2_alg».proof.Proof.KernelValue
import proofs.«417986_j90340342104697_2_alg».proof.Proof.RefValue
import proofs.«417986_j90340342104697_2_alg».proof.Proof.PreDecode
import Idealize.ShloMosaic.Adequacy
import Idealize.ShloMosaic.Init

noncomputable section

namespace Cert.Proof

open Idealize.ShloMosaic Idealize.ShloMosaic.TcCoe Idealize.SL.Sem

/-- The kernel program at the word-level instance runs and leaves its arguments as launched. -/
theorem frame_k : Cert.frame_Kernel := fun m ρ _ => Cert.Kernel.Frame.frame (F := Bits) m ρ
/-- The same at the ideal instance. -/
theorem frame_ki : Cert.frame_KernelIdeal := fun m ρ _ => Cert.KernelIdeal.Frame.frame (F := Ideal) m ρ
/-- The reference is a straight line of host operations: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end at the aggregated layer `G` of the arguments: the kernel by its run read back through its two
    regions, the reference by its gather and scatter read at an index; the precondition gives the finiteness the count's
    distribution needs and the range that keeps every index unwrapped and unclamped. -/
theorem algebraic : Cert.algebraic_KernelIdeal_ReferenceIdeal := by
  intro m ρ m' ρ' hpre hagree
  have hd := fun c : Dev Cert.KernelIdeal.nD => Cert.PreDecode.decode _ _ _ _ (hpre c)
  refine ⟨fun c => Cert.Spec.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · refine (θ_run Cert.KernelIdeal.defs _ _).mono (fun _ h c => ?_) (Cert.KernelIdeal.Frame.run_vals (F := Ideal) m ρ)
    exact ⟨(h c _ (Cert.KernelIdeal.Frame.mem_uc Cert.KernelIdeal.main_v25 (by decide))).trans
        (Cert.KernelIdeal.Frame.kernel_value m ρ c (hd c).1 (hd c).2.1 (hd c).2.2.1 (hd c).2.2.2),
      (h c _ (Cert.KernelIdeal.Frame.mem_uc Cert.KernelIdeal.main_arg0 (by decide))).trans (Cert.KernelIdeal.Frame.W7_main_arg0 m ρ c),
      (h c _ (Cert.KernelIdeal.Frame.mem_uc Cert.KernelIdeal.main_arg1 (by decide))).trans (Cert.KernelIdeal.Frame.W7_main_arg1 m ρ c),
      (h c _ (Cert.KernelIdeal.Frame.mem_uc Cert.KernelIdeal.main_arg2 (by decide))).trans (Cert.KernelIdeal.Frame.W7_main_arg2 m ρ c),
      (h c _ (Cert.KernelIdeal.Frame.mem_uc Cert.KernelIdeal.main_arg3 (by decide))).trans (Cert.KernelIdeal.Frame.W7_main_arg3 m ρ c)⟩
  · refine (θ_run Cert.ReferenceIdeal.defs _ _).mono (fun _ h c => ⟨(h c).1.trans ?_, (h c).2⟩)
      (Cert.ReferenceIdeal.Value.run (F := Ideal) m' ρ')
    rw [(hagree c).1, (hagree c).2.1, (hagree c).2.2.1, (hagree c).2.2.2]
    exact (Cert.ReferenceIdeal.Read.val_main_v17_eq _ _ _ _).trans
      (Cert.ReferenceIdeal.RefValue.result_eq _ _ _ _ (hd c).2.1)

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
